-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x1000000 : Shape := ⟨2, ![2, 1000000]⟩
abbrev S1000000x16 : Shape := ⟨2, ![1000000, 16]⟩
abbrev S64x16 : Shape := ⟨2, ![64, 16]⟩
abbrev S64 : Shape := ⟨1, ![64]⟩
abbrev S64x64 : Shape := ⟨2, ![64, 64]⟩
abbrev S_ : Shape := ⟨0, ![]⟩
abbrev S1x1000000 : Shape := ⟨2, ![1, 1000000]⟩
abbrev S1000000 : Shape := ⟨1, ![1000000]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S1000000x16 : S_.BroadcastsInDim S1000000x16 (![] : Fin 0 → Fin S1000000x16.rank)
  reducesTo_S1000000x16_S_d0_1 : S1000000x16.ReducesTo [0, 1] S_
  bcast_S_S64x16 : S_.BroadcastsInDim S64x16 (![] : Fin 0 → Fin S64x16.rank)
  reducesTo_S64x16_S_d0_1 : S64x16.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  slices_S2x1000000_S1x1000000_0_0 : S2x1000000.Slices ![0, 0] S1x1000000
  shapeCasts_S1x1000000_S1000000 : S1x1000000.ShapeCasts S1000000
  bcast_S_S1000000 : S_.BroadcastsInDim S1000000 (![] : Fin 0 → Fin S1000000.rank)
  reducesTo_S1000000_S_d0 : S1000000.ReducesTo [0] S_

variable [Facts]

def fn_part3 {F : FTy → Type} [FloatOps F] (main_arg1 : IVec S2x1000000 32) (main_v48 : IVec S_ 1) (main_v50 : IVec S1000000 32) (main_c_18 : IVec S_ 32) : IVec S_ 1 :=
  let main_v51 : IVec S1000000 32 := broadcastInDim S1000000 ![] bcast_S_S1000000 main_c_18
  let main_v52 : IVec S1000000 1 := cmpi .sge main_v50 main_v51
  let main_v53 : IVec S1x1000000 32 := (extractStridedSlice S1x1000000 ![0, 0] · slices_S2x1000000_S1x1000000_0_0) main_arg1
  let main_v54 : IVec S1000000 32 := shapeCast S1000000 main_v53 shapeCasts_S1x1000000_S1000000
  let main_c_19 : IVec S_ 32 := constantI S_ 32 50000#32
  let main_v55 : IVec S1000000 32 := broadcastInDim S1000000 ![] bcast_S_S1000000 main_c_19
  let main_v56 : IVec S1000000 1 := cmpi .slt main_v54 main_v55
  let main_v57 : IVec S1000000 1 := andi main_v52 main_v56
  let main_c_20 : IVec S_ 1 := constantI S_ 1 1#1
  let main_v58 : IVec S_ 1 := (fun x v => Host.reduce IntOp.andi x v reducesTo_S1000000_S_d0 h_S_) main_v57 main_c_20
  let main_v59 : IVec S_ 1 := andi main_v48 main_v58
  main_v59

def fn_part2 {F : FTy → Type} [FloatOps F] (main_arg1 : IVec S2x1000000 32) (main_arg8 : FVec F S64 .f32) (main_arg9 : FVec F S64x64 .f32) (main_arg10 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg9
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : IVec S1x1000000 32 := (extractStridedSlice S1x1000000 ![0, 0] · slices_S2x1000000_S1x1000000_0_0) main_arg1
  let main_v50 : IVec S1000000 32 := shapeCast S1000000 main_v49 shapeCasts_S1x1000000_S1000000
  let main_c_18 : IVec S_ 32 := constantI S_ 32 4294917296#32
  fn_part3 (F := F) main_arg1 main_v48 main_v50 main_c_18

def fn_part1 {F : FTy → Type} [FloatOps F] (main_arg1 : IVec S2x1000000 32) (main_arg5 : FVec F S64x64 .f32) (main_arg6 : FVec F S64 .f32) (main_arg7 : FVec F S64 .f32) (main_arg8 : FVec F S64 .f32) (main_arg9 : FVec F S64x64 .f32) (main_arg10 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg1 main_arg8 main_arg9 main_arg10 main_v33

def fn {F : FTy → Type} [FloatOps F] (main_arg0 : FVec F S50000x64 .f32) (main_arg1 : IVec S2x1000000 32) (main_arg2 : FVec F S1000000x16 .f32) (main_arg3 : FVec F S64x16 .f32) (main_arg4 : FVec F S64 .f32) (main_arg5 : FVec F S64x64 .f32) (main_arg6 : FVec F S64 .f32) (main_arg7 : FVec F S64 .f32) (main_arg8 : FVec F S64 .f32) (main_arg9 : FVec F S64x64 .f32) (main_arg10 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S1000000x16 .f32 := Host.absf main_arg2
  let main_cst_0 : FVec F S_ .f32 := constant S_ .f32 0x7F800000#32
  let main_v5 : FVec F S1000000x16 .f32 := broadcastInDim S1000000x16 ![] bcast_S_S1000000x16 main_cst_0
  let main_v6 : IVec S1000000x16 1 := cmpf .olt main_v4 main_v5
  let main_c_1 : IVec S_ 1 := constantI S_ 1 1#1
  let main_v7 : IVec S_ 1 := (fun x v => Host.reduce IntOp.andi x v reducesTo_S1000000x16_S_d0_1 h_S_) main_v6 main_c_1
  let main_v8 : IVec S_ 1 := andi main_v3 main_v7
  let main_v9 : FVec F S64x16 .f32 := Host.absf main_arg3
  let main_cst_2 : FVec F S_ .f32 := constant S_ .f32 0x7F800000#32
  let main_v10 : FVec F S64x16 .f32 := broadcastInDim S64x16 ![] bcast_S_S64x16 main_cst_2
  let main_v11 : IVec S64x16 1 := cmpf .olt main_v9 main_v10
  let main_c_3 : IVec S_ 1 := constantI S_ 1 1#1
  let main_v12 : IVec S_ 1 := (fun x v => Host.reduce IntOp.andi x v reducesTo_S64x16_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_arg5 main_arg6 main_arg7 main_arg8 main_arg9 main_arg10 main_v13 main_v16
-- ==== Kernel.lean ====
abbrev S50000x64 : Shape := ⟨2, ![50000, 64]⟩
abbrev S2x1000000 : Shape := ⟨2, ![2, 1000000]⟩
abbrev S1000000x16 : Shape := ⟨2, ![1000000, 16]⟩
abbrev S64x16 : Shape := ⟨2, ![64, 16]⟩
abbrev S64 : Shape := ⟨1, ![64]⟩
abbrev S64x64 : Shape := ⟨2, ![64, 64]⟩
abbrev S1x1000000 : Shape := ⟨2, ![1, 1000000]⟩
abbrev S1000000 : Shape := ⟨1, ![1000000]⟩
abbrev S16x64 : Shape := ⟨2, ![16, 64]⟩
abbrev S1000000x64 : Shape := ⟨2, ![1000000, 64]⟩
abbrev S1x64 : Shape := ⟨2, ![1, 64]⟩
abbrev S_ : Shape := ⟨0, ![]⟩
abbrev S1000000x1 : Shape := ⟨2, ![1000000, 1]⟩
abbrev S1 : Shape := ⟨1, ![1]⟩
abbrev S1x1 : Shape := ⟨2, ![1, 1]⟩
abbrev S80x64 : Shape := ⟨2, ![80, 64]⟩
abbrev S5000x64 : Shape := ⟨2, ![5000, 64]⟩
abbrev S8x64 : Shape := ⟨2, ![8, 64]⟩
abbrev S6x64 : Shape := ⟨2, ![6, 64]⟩
abbrev S10x8x64 : Shape := ⟨3, ![10, 8, 64]⟩
abbrev S10x1x64 : Shape := ⟨3, ![10, 1, 64]⟩
abbrev S10x64 : Shape := ⟨2, ![10, 64]⟩

abbrev nBuf : Space → Nat
  | .hbm => 77
  | .vmem => 20
  | .smem => 0
  | _ => 0

abbrev bufTy : (tb : Table) → Fin (tcTables nBuf tb) → BufTy
  | .hbm, ⟨0, _⟩ => ⟨S50000x64, .f32⟩
  | .hbm, ⟨1, _⟩ => ⟨S2x1000000, .i32⟩
  | .hbm, ⟨2, _⟩ => ⟨S1000000x16, .f32⟩
  | .hbm, ⟨3, _⟩ => ⟨S64x16, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S1x1000000, .i32⟩
  | .hbm, ⟨12, _⟩ => ⟨S1000000, .i32⟩
  | .hbm, ⟨13, _⟩ => ⟨S1x1000000, .i32⟩
  | .hbm, ⟨14, _⟩ => ⟨S1000000, .i32⟩
  | .hbm, ⟨15, _⟩ => ⟨S16x64, .f32⟩
  | .hbm, ⟨16, _⟩ => ⟨S1000000x64, .f32⟩
  | .hbm, ⟨17, _⟩ => ⟨S1x64, .f32⟩
  | .hbm, ⟨18, _⟩ => ⟨S1000000x64, .f32⟩
  | .hbm, ⟨19, _⟩ => ⟨S1000000x64, .f32⟩
  | .hbm, ⟨20, _⟩ => ⟨S_, .i32⟩
  | .hbm, ⟨21, _⟩ => ⟨S1000000, .i32⟩
  | .hbm, ⟨22, _⟩ => ⟨S1000000, .i1⟩
  | .hbm, ⟨23, _⟩ => ⟨S_, .i32⟩
  | .hbm, ⟨24, _⟩ => ⟨S1000000, .i32⟩
  | .hbm, ⟨25, _⟩ => ⟨S1000000, .i32⟩
  | .hbm, ⟨26, _⟩ => ⟨S1000000, .i32⟩
  | .hbm, ⟨27, _⟩ => ⟨S1000000x1, .i32⟩
  | .hbm, ⟨28, _⟩ => ⟨S1, .i32⟩
  | .hbm, ⟨29, _⟩ => ⟨S_, .i32⟩
  | .hbm, ⟨30, _⟩ => ⟨S1000000x1, .i32⟩
  | .hbm, ⟨31, _⟩ => ⟨S1000000x1, .i1⟩
  | .hbm, ⟨32, _⟩ => ⟨S1x1, .i32⟩
  | .hbm, ⟨33, _⟩ => ⟨S1000000x1, .i32⟩
  | .hbm, ⟨34, _⟩ => ⟨S1000000x1, .i1⟩
  | .hbm, ⟨35, _⟩ => ⟨S1000000x1, .i1⟩
  | .hbm, ⟨36, _⟩ => ⟨S_, .i1⟩
  | .hbm, ⟨37, _⟩ => ⟨S1000000, .i1⟩
  | .hbm, ⟨38, _⟩ => ⟨S1000000x64, .f32⟩
  | .hbm, ⟨39, _⟩ => ⟨S1000000x64, .i1⟩
  | .hbm, ⟨40, _⟩ => ⟨S_, .f32⟩
  | .hbm, ⟨41, _⟩ => ⟨S1000000x64, .f32⟩
  | .hbm, ⟨42, _⟩ => ⟨S1000000x64, .f32⟩
  | .hbm, ⟨43, _⟩ => ⟨S1000000x64, .f32⟩
  | .hbm, ⟨44, _⟩ => ⟨S_, .f32⟩
  | .hbm, ⟨45, _⟩ => ⟨S1000000x64, .f32⟩
  | .hbm, ⟨46, _⟩ => ⟨S1000000x64, .f32⟩
  | .hbm, ⟨47, _⟩ => ⟨S_, .f32⟩
  | .hbm, ⟨48, _⟩ => ⟨S50000x64, .f32⟩
  | .hbm, ⟨49, _⟩ => ⟨S1000000x1, .i32⟩
  | .hbm, ⟨50, _⟩ => ⟨S50000x64, .f32⟩
  | .hbm, ⟨51, _⟩ => ⟨S1x64, .f32⟩
  | .hbm, ⟨52, _⟩ => ⟨S50000x64, .f32⟩
  | .hbm, ⟨53, _⟩ => ⟨S80x64, .f32⟩
  | .hbm, ⟨54, _⟩ => ⟨S10x8x64, .f32⟩
  | .hbm, ⟨55, _⟩ => ⟨S10x1x64, .f32⟩
  | .hbm, ⟨56, _⟩ => ⟨S10x64, .f32⟩
  | .hbm, ⟨57, _⟩ => ⟨S_, .f32⟩
  | .hbm, ⟨58, _⟩ => ⟨S64, .f32⟩
  | .hbm, ⟨59, _⟩ => ⟨S10x1x64, .f32⟩
  | .hbm, ⟨60, _⟩ => ⟨S10x64, .f32⟩
  | .hbm, ⟨61, _⟩ => ⟨S_, .f32⟩
  | .hbm, ⟨62, _⟩ => ⟨S64, .f32⟩
  | .hbm, ⟨63, _⟩ => ⟨S_, .f32⟩
  | .hbm, ⟨64, _⟩ => ⟨S64, .f32⟩
  | .hbm, ⟨65, _⟩ => ⟨S64, .f32⟩
  | .hbm, ⟨66, _⟩ => ⟨S_, .f32⟩
  | .hbm, ⟨67, _⟩ => ⟨S64, .f32⟩
  | .hbm, ⟨68, _⟩ => ⟨S64, .f32⟩
  | .hbm, ⟨69, _⟩ => ⟨S64, .f32⟩
  | .hbm, ⟨70, _⟩ => ⟨S64, .f32⟩
  | .hbm, ⟨71, _⟩ => ⟨S1x64, .f32⟩
  | .hbm, ⟨72, _⟩ => ⟨S1x64, .f32⟩
  | .hbm, ⟨73, _⟩ => ⟨S1x64, .f32⟩
  | .hbm, ⟨74, _⟩ => ⟨S1x64, .f32⟩
  | .hbm, ⟨75, _⟩ => ⟨S1x64, .f32⟩
  | .hbm, ⟨76, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S1x64, .f32⟩
  | .local _ .vmem, ⟨6, _⟩ => ⟨S5000x64, .f32⟩
  | .local _ .vmem, ⟨7, _⟩ => ⟨S5000x64, .f32⟩
  | .local _ .vmem, ⟨8, _⟩ => ⟨S8x64, .f32⟩
  | .local _ .vmem, ⟨9, _⟩ => ⟨S8x64, .f32⟩
  | .local _ .vmem, ⟨10, _⟩ => ⟨S5000x64, .f32⟩
  | .local _ .vmem, ⟨11, _⟩ => ⟨S5000x64, .f32⟩
  | .local _ .vmem, ⟨12, _⟩ => ⟨S1x64, .f32⟩
  | .local _ .vmem, ⟨13, _⟩ => ⟨S1x64, .f32⟩
  | .local _ .vmem, ⟨14, _⟩ => ⟨S1x64, .f32⟩
  | .local _ .vmem, ⟨15, _⟩ => ⟨S1x64, .f32⟩
  | .local _ .vmem, ⟨16, _⟩ => ⟨S64x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call0_c : Ref sig .tc := ⟨.hbm, 20, rfl⟩
abbrev main_call0_v0 : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_c_1 : Ref sig .tc := ⟨.hbm, 28, rfl⟩
abbrev main_call0_c_2 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_3 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_call0_cst : Ref sig .tc := ⟨.hbm, 40, rfl⟩
abbrev main_call0_v15 : Ref sig .tc := ⟨.hbm, 41, rfl⟩
abbrev main_v9 : Ref sig .tc := ⟨.hbm, 42, rfl⟩
abbrev main_v10 : Ref sig .tc := ⟨.hbm, 43, rfl⟩
abbrev main_call1_cst : Ref sig .tc := ⟨.hbm, 44, rfl⟩
abbrev main_call1_v0 : Ref sig .tc := ⟨.hbm, 45, rfl⟩
abbrev main_v11 : Ref sig .tc := ⟨.hbm, 46, rfl⟩
abbrev main_cst : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16_0 : Ref sig .tc := ⟨.hbm, 52, rfl⟩
abbrev main_v16_1 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_cst_0 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_cst_1 : Ref sig .tc := ⟨.hbm, 61, rfl⟩
abbrev main_v23 : Ref sig .tc := ⟨.hbm, 62, rfl⟩
abbrev main_cst_2 : Ref sig .tc := ⟨.hbm, 63, rfl⟩
abbrev main_v24 : Ref sig .tc := ⟨.hbm, 64, rfl⟩
abbrev main_v25 : Ref sig .tc := ⟨.hbm, 65, rfl⟩
abbrev main_cst_3 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  transposes_S64x16_S16x64_1_0 : S64x16.Transposes [1, 0] S16x64
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S1000000x1 : S_.BroadcastsInDim S1000000x1 (![] : Fin 0 → Fin S1000000x1.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  reducesTo_S1000000x1_S1000000_d1 : S1000000x1.ReducesTo [1] S1000000
  h_S_ : 0 < S_.numel
  bcast_S1000000_S1000000x64_0 : S1000000.BroadcastsInDim S1000000x64 (![0] : Fin 1 → Fin S1000000x64.rank)
  bcast_S_S1000000x64 : S_.BroadcastsInDim S1000000x64 (![] : Fin 0 → Fin S1000000x64.rank)
  bcast_S_S50000x64 : S_.BroadcastsInDim S50000x64 (![] : Fin 0 → Fin S50000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  bitsLt_bf16_f32 : FTy.bits .bf16 < FTy.bits .f32
  transposes_S64x64_p1_0_S64x64 : S64x64.Transposes [1, 0] S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S64 : S5000x64.Reduces [0] S64
  inb_S8x64_S1x64_0_0 : ∀ a, (![0, 0] : Fin 2 → Nat) a + S1x64.size a ≤ S8x64.size a
  inb_S8x64_S1x64_1_0 : ∀ a, (![1, 0] : Fin 2 → Nat) a + S1x64.size a ≤ S8x64.size a
  inb_S8x64_S6x64_2_0 : ∀ a, (![2, 0] : Fin 2 → Nat) a + S6x64.size a ≤ S8x64.size a
  h_S6x64 : 0 < S6x64.numel
  shapeCasts_S80x64_S10x8x64 : S80x64.ShapeCasts S10x8x64
  slices_S10x8x64_S10x1x64_0_0_0 : S10x8x64.Slices ![0, 0, 0] S10x1x64
  shapeCasts_S10x1x64_S10x64 : S10x1x64.ShapeCasts S10x64
  reducesTo_S10x64_S64_d0 : S10x64.ReducesTo [0] S64
  slices_S10x8x64_S10x1x64_0_1_0 : S10x8x64.Slices ![0, 1, 0] S10x1x64
  bcast_S_S64 : S_.BroadcastsInDim S64 (![] : Fin 0 → Fin S64.rank)
  dot_S1000000x16_S16x64_S1000000x64_1_0_0_1_n_n_wf : DotDims.WF S1000000x16 S16x64 S1000000x64 [1] [0] [0] [1] [] []
  gather_S50000x64_S1000000x1_S1000000x64_1_0_n_n_0_1_164_wf : GatherDims.WF S50000x64 S1000000x1 S1000000x64 [1] [0] [] [0] [] 1 ![1, 64]
  scatter_S50000x64_S1000000x1_S1000000x64_1_0_0_1_wf : ScatterDims.WF S50000x64 S1000000x1 S1000000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S50000x64.size a
  hwx0_4 : ∀ i : grid0.Coords, EltTy.bits .f32 = 32 ∨ (Rect.block (s := S50000x64) S5000x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x64.size a ≤ S80x64.size a
  hwx0_5 : ∀ i : grid0.Coords, EltTy.bits .f32 = 32 ∨ (Rect.block (s := S80x64) S8x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x64.size a ≤ S50000x64.size a
  hwx1_7 : ∀ i : grid1.Coords, EltTy.bits .f32 = 32 ∨ (Rect.block (s := S50000x64) S5000x64.size (cc1_transform_7 i) (hinb1_7 i)).WholeWords (EltTy.packing .f32)

variable [Facts₀]

def dot_S1000000x16_S16x64_S1000000x64_1_0_0_1_n_n : DotDims S1000000x16 S16x64 S1000000x64 where
  lhsContracting := [1]
  rhsContracting := [0]
  lhsNonContracting := [0]
  rhsNonContracting := [1]
  lhsBatch := []
  rhsBatch := []
  wf := dot_S1000000x16_S16x64_S1000000x64_1_0_0_1_n_n_wf
def gather_S50000x64_S1000000x1_S1000000x64_1_0_n_n_0_1_164 : GatherDims S50000x64 S1000000x1 S1000000x64 where
  offsetDims := [1]
  collapsedSliceDims := [0]
  operandBatchingDims := []
  startIndicesBatchingDims := []
  startIndexMap := [0]
  indexVectorDim := 1
  sliceSizes := ![1, 64]
  wf := gather_S50000x64_S1000000x1_S1000000x64_1_0_n_n_0_1_164_wf
def scatter_S50000x64_S1000000x1_S1000000x64_1_0_0_1 : ScatterDims S50000x64 S1000000x1 S1000000x64 where
  updateWindowDims := [1]
  insertedWindowDims := [0]
  scatterDimsToOperandDims := [0]
  indexVectorDim := 1
  wf := scatter_S50000x64_S1000000x1_S1000000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16_0) S5000x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v16_1) S8x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v16_0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v31) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v32) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v33) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v34) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v35) S5000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x1000000 : Shape := ⟨2, ![2, 1000000]⟩
abbrev S1000000x16 : Shape := ⟨2, ![1000000, 16]⟩
abbrev S64x16 : Shape := ⟨2, ![64, 16]⟩
abbrev S64 : Shape := ⟨1, ![64]⟩
abbrev S64x64 : Shape := ⟨2, ![64, 64]⟩
abbrev S1x1000000 : Shape := ⟨2, ![1, 1000000]⟩
abbrev S1000000 : Shape := ⟨1, ![1000000]⟩
abbrev S16x64 : Shape := ⟨2, ![16, 64]⟩
abbrev S1000000x64 : Shape := ⟨2, ![1000000, 64]⟩
abbrev S1x64 : Shape := ⟨2, ![1, 64]⟩
abbrev S_ : Shape := ⟨0, ![]⟩
abbrev S1000000x1 : Shape := ⟨2, ![1000000, 1]⟩

abbrev nBuf : Space → Nat
  | .hbm => 98
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x1000000, .i32⟩
  | .hbm, ⟨2, _⟩ => ⟨S1000000x16, .f32⟩
  | .hbm, ⟨3, _⟩ => ⟨S64x16, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S1x1000000, .i32⟩
  | .hbm, ⟨12, _⟩ => ⟨S1000000, .i32⟩
  | .hbm, ⟨13, _⟩ => ⟨S1x1000000, .i32⟩
  | .hbm, ⟨14, _⟩ => ⟨S1000000, .i32⟩
  | .hbm, ⟨15, _⟩ => ⟨S16x64, .f32⟩
  | .hbm, ⟨16, _⟩ => ⟨S1000000x64, .f32⟩
  | .hbm, ⟨17, _⟩ => ⟨S1x64, .f32⟩
  | .hbm, ⟨18, _⟩ => ⟨S1000000x64, .f32⟩
  | .hbm, ⟨19, _⟩ => ⟨S1000000x64, .f32⟩
  | .hbm, ⟨20, _⟩ => ⟨S_, .i32⟩
  | .hbm, ⟨21, _⟩ => ⟨S1000000, .i32⟩
  | .hbm, ⟨22, _⟩ => ⟨S1000000, .i1⟩
  | .hbm, ⟨23, _⟩ => ⟨S_, .i32⟩
  | .hbm, ⟨24, _⟩ => ⟨S1000000, .i32⟩
  | .hbm, ⟨25, _⟩ => ⟨S1000000, .i32⟩
  | .hbm, ⟨26, _⟩ => ⟨S1000000, .i32⟩
  | .hbm, ⟨27, _⟩ => ⟨S1000000x1, .i32⟩
  | .hbm, ⟨28, _⟩ => ⟨S1000000x64, .f32⟩
  | .hbm, ⟨29, _⟩ => ⟨S1000000x64, .f32⟩
  | .hbm, ⟨30, _⟩ => ⟨S_, .f32⟩
  | .hbm, ⟨31, _⟩ => ⟨S1000000x64, .f32⟩
  | .hbm, ⟨32, _⟩ => ⟨S1000000x64, .f32⟩
  | .hbm, ⟨33, _⟩ => ⟨S_, .f32⟩
  | .hbm, ⟨34, _⟩ => ⟨S50000x64, .f32⟩
  | .hbm, ⟨35, _⟩ => ⟨S1000000x1, .i32⟩
  | .hbm, ⟨36, _⟩ => ⟨S50000x64, .f32⟩
  | .hbm, ⟨37, _⟩ => ⟨S_, .f32⟩
  | .hbm, ⟨38, _⟩ => ⟨S50000x64, .f32⟩
  | .hbm, ⟨39, _⟩ => ⟨S50000x64, .f32⟩
  | .hbm, ⟨40, _⟩ => ⟨S50000x64, .f32⟩
  | .hbm, ⟨41, _⟩ => ⟨S64x64, .f32⟩
  | .hbm, ⟨42, _⟩ => ⟨S50000x64, .f32⟩
  | .hbm, ⟨43, _⟩ => ⟨S1x64, .f32⟩
  | .hbm, ⟨44, _⟩ => ⟨S50000x64, .f32⟩
  | .hbm, ⟨45, _⟩ => ⟨S50000x64, .f32⟩
  | .hbm, ⟨46, _⟩ => ⟨S_, .f32⟩
  | .hbm, ⟨47, _⟩ => ⟨S64, .f32⟩
  | .hbm, ⟨48, _⟩ => ⟨S_, .f32⟩
  | .hbm, ⟨49, _⟩ => ⟨S64, .f32⟩
  | .hbm, ⟨50, _⟩ => ⟨S64, .f32⟩
  | .hbm, ⟨51, _⟩ => ⟨S_, .i32⟩
  | .hbm, ⟨52, _⟩ => ⟨S_, .f32⟩
  | .hbm, ⟨53, _⟩ => ⟨S64, .f32⟩
  | .hbm, ⟨54, _⟩ => ⟨S1x64, .f32⟩
  | .hbm, ⟨55, _⟩ => ⟨S_, .f32⟩
  | .hbm, ⟨56, _⟩ => ⟨S1x64, .f32⟩
  | .hbm, ⟨57, _⟩ => ⟨S1x64, .f32⟩
  | .hbm, ⟨58, _⟩ => ⟨S50000x64, .f32⟩
  | .hbm, ⟨59, _⟩ => ⟨S50000x64, .f32⟩
  | .hbm, ⟨60, _⟩ => ⟨S50000x64, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S64, .f32⟩
  | .hbm, ⟨66, _⟩ => ⟨S64, .f32⟩
  | .hbm, ⟨67, _⟩ => ⟨S64, .f32⟩
  | .hbm, ⟨68, _⟩ => ⟨S_, .f32⟩
  | .hbm, ⟨69, _⟩ => ⟨S_, .i1⟩
  | .hbm, ⟨70, _⟩ => ⟨S_, .f32⟩
  | .hbm, ⟨71, _⟩ => ⟨S_, .f32⟩
  | .hbm, ⟨72, _⟩ => ⟨S64, .f32⟩
  | .hbm, ⟨73, _⟩ => ⟨S64, .f32⟩
  | .hbm, ⟨74, _⟩ => ⟨S1x64, .f32⟩
  | .hbm, ⟨75, _⟩ => ⟨S50000x64, .f32⟩
  | .hbm, ⟨76, _⟩ => ⟨S50000x64, .f32⟩
  | .hbm, ⟨77, _⟩ => ⟨S1x64, .f32⟩
  | .hbm, ⟨78, _⟩ => ⟨S50000x64, .f32⟩
  | .hbm, ⟨79, _⟩ => ⟨S50000x64, .f32⟩
  | .hbm, ⟨80, _⟩ => ⟨S_, .f32⟩
  | .hbm, ⟨81, _⟩ => ⟨S64, .f32⟩
  | .hbm, ⟨82, _⟩ => ⟨S64, .f32⟩
  | .hbm, ⟨83, _⟩ => ⟨S64, .f32⟩
  | .hbm, ⟨84, _⟩ => ⟨S1x64, .f32⟩
  | .hbm, ⟨85, _⟩ => ⟨S50000x64, .f32⟩
  | .hbm, ⟨86, _⟩ => ⟨S50000x64, .f32⟩
  | .hbm, ⟨87, _⟩ => ⟨S1x64, .f32⟩
  | .hbm, ⟨88, _⟩ => ⟨S50000x64, .f32⟩
  | .hbm, ⟨89, _⟩ => ⟨S50000x64, .f32⟩
  | .hbm, ⟨90, _⟩ => ⟨S_, .f32⟩
  | .hbm, ⟨91, _⟩ => ⟨S50000x64, .f32⟩
  | .hbm, ⟨92, _⟩ => ⟨S50000x64, .f32⟩
  | .hbm, ⟨93, _⟩ => ⟨S64x64, .f32⟩
  | .hbm, ⟨94, _⟩ => ⟨S50000x64, .f32⟩
  | .hbm, ⟨95, _⟩ => ⟨S1x64, .f32⟩
  | .hbm, ⟨96, _⟩ => ⟨S50000x64, .f32⟩
  | .hbm, ⟨97, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c : Ref sig .tc := ⟨.hbm, 20, rfl⟩
abbrev main_v9 : Ref sig .tc := ⟨.hbm, 21, rfl⟩
abbrev main_v10 : Ref sig .tc := ⟨.hbm, 22, rfl⟩
abbrev main_c_0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_call0_cst : Ref sig .tc := ⟨.hbm, 30, rfl⟩
abbrev main_call0_v0 : Ref sig .tc := ⟨.hbm, 31, rfl⟩
abbrev main_v17 : Ref sig .tc := ⟨.hbm, 32, rfl⟩
abbrev main_cst : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_1 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_2 : Ref sig .tc := ⟨.hbm, 46, rfl⟩
abbrev main_v29 : Ref sig .tc := ⟨.hbm, 47, rfl⟩
abbrev main_cst_3 : Ref sig .tc := ⟨.hbm, 48, rfl⟩
abbrev main_v30 : Ref sig .tc := ⟨.hbm, 49, rfl⟩
abbrev main_v31 : Ref sig .tc := ⟨.hbm, 50, rfl⟩
abbrev main_c_4 : Ref sig .tc := ⟨.hbm, 51, rfl⟩
abbrev main_call1_cst : Ref sig .tc := ⟨.hbm, 52, rfl⟩
abbrev main_call1_v0 : Ref sig .tc := ⟨.hbm, 53, rfl⟩
abbrev main_call1_v1 : Ref sig .tc := ⟨.hbm, 54, rfl⟩
abbrev main_call1_cst_0 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_call1_v5 : Ref sig .tc := ⟨.hbm, 59, rfl⟩
abbrev main_call1_v6 : Ref sig .tc := ⟨.hbm, 60, rfl⟩
abbrev main_call1_v7 : Ref sig .tc := ⟨.hbm, 61, rfl⟩
abbrev main_call1_cst_1 : Ref sig .tc := ⟨.hbm, 62, rfl⟩
abbrev main_call1_v8 : Ref sig .tc := ⟨.hbm, 63, rfl⟩
abbrev main_call1_cst_2 : Ref sig .tc := ⟨.hbm, 64, rfl⟩
abbrev main_call1_v9 : Ref sig .tc := ⟨.hbm, 65, rfl⟩
abbrev main_call1_v10 : Ref sig .tc := ⟨.hbm, 66, rfl⟩
abbrev main_call1_v11 : Ref sig .tc := ⟨.hbm, 67, rfl⟩
abbrev main_call1_cst_3 : Ref sig .tc := ⟨.hbm, 68, rfl⟩
abbrev main_call1_v12 : Ref sig .tc := ⟨.hbm, 69, rfl⟩
abbrev main_call1_cst_4 : Ref sig .tc := ⟨.hbm, 70, rfl⟩
abbrev main_call1_call0_v0 : Ref sig .tc := ⟨.hbm, 71, rfl⟩
abbrev main_call1_call0_v1 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_cst_5 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_call2_cst : Ref sig .tc := ⟨.hbm, 90, rfl⟩
abbrev main_call2_v0 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  transposes_S64x16_S16x64_1_0 : S64x16.Transposes [1, 0] S16x64
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S1000000x64 : S_.BroadcastsInDim S1000000x64 (![] : Fin 0 → Fin S1000000x64.rank)
  bcast_S_S50000x64 : S_.BroadcastsInDim S50000x64 (![] : Fin 0 → Fin S50000x64.rank)
  transposes_S64x64_S64x64_1_0 : S64x64.Transposes [1, 0] S64x64
  bcast_S1x64_S50000x64_0_1 : S1x64.BroadcastsInDim S50000x64 (![0, 1] : Fin 2 → Fin S50000x64.rank)
  reducesTo_S50000x64_S64_d0 : S50000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  dot_S1000000x16_S16x64_S1000000x64_1_0_0_1_n_n_wf : DotDims.WF S1000000x16 S16x64 S1000000x64 [1] [0] [0] [1] [] []
  gather_S50000x64_S1000000x1_S1000000x64_1_0_n_n_0_1_164_wf : GatherDims.WF S50000x64 S1000000x1 S1000000x64 [1] [0] [] [0] [] 1 ![1, 64]
  scatter_S50000x64_S1000000x1_S1000000x64_1_0_0_1_wf : ScatterDims.WF S50000x64 S1000000x1 S1000000x64 [1] [0] [0] 1
  dot_S50000x64_S64x64_S50000x64_1_0_0_1_n_n_wf : DotDims.WF S50000x64 S64x64 S50000x64 [1] [0] [0] [1] [] []

variable [Facts₀]

def dot_S1000000x16_S16x64_S1000000x64_1_0_0_1_n_n : DotDims S1000000x16 S16x64 S1000000x64 where
  lhsContracting := [1]
  rhsContracting := [0]
  lhsNonContracting := [0]
  rhsNonContracting := [1]
  lhsBatch := []
  rhsBatch := []
  wf := dot_S1000000x16_S16x64_S1000000x64_1_0_0_1_n_n_wf
def gather_S50000x64_S1000000x1_S1000000x64_1_0_n_n_0_1_164 : GatherDims S50000x64 S1000000x1 S1000000x64 where
  offsetDims := [1]
  collapsedSliceDims := [0]
  operandBatchingDims := []
  startIndicesBatchingDims := []
  startIndexMap := [0]
  indexVectorDim := 1
  sliceSizes := ![1, 64]
  wf := gather_S50000x64_S1000000x1_S1000000x64_1_0_n_n_0_1_164_wf
def scatter_S50000x64_S1000000x1_S1000000x64_1_0_0_1 : ScatterDims S50000x64 S1000000x1 S1000000x64 where
  updateWindowDims := [1]
  insertedWindowDims := [0]
  scatterDimsToOperandDims := [0]
  indexVectorDim := 1
  wf := scatter_S50000x64_S1000000x1_S1000000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.Spec.lean ====
/-
  What both programs compute, index by index, on the extended reals.

  A node layer of a graph network: with `g` the aggregated messages, the combined features are `1 · x + g`; a linear
  layer `h = (1 · x + g) · W1ᵀ + b1`; batch statistics of `h` down its 50000 rows (the mean `μ = (Σ h) / N` and a variance);
  the normalised, rectified features `max (γ · (h − μ) · rsqrt (v + ε) + β) 0`; and a second linear layer with `W2`, `b2`.
  The kernel takes the variance as `(Σ h²) / N − μ²` (`varK`), the reference as `(Σ (h − μ)²) / N` (`varR`): the two agree
  where every entry of `h` is a real number. The literals stay the printed words (`one`, `cN`, `eps`): the same word on
  both sides is never evaluated, except `cN`, whose value 50000 is the number of rows the sums run over.
-/
import Idealize.ShloMosaic.PureOps.Ideal.Laws
import Idealize.ShloMosaic.Lib.ValueIdx

noncomputable section

namespace Cert.Gine

open Idealize.ShloMosaic Idealize.ShloMosaic.ValueIdx

/-- node features: 50000 rows of 64 -/
abbrev SN : Shape := ⟨2, ![50000, 64]⟩
/-- a 64 × 64 weight matrix, stored output row by input column -/
abbrev SW : Shape := ⟨2, ![64, 64]⟩
/-- a vector of 64 -/
abbrev SV : Shape := ⟨1, ![64]⟩

/-- the word of 1.0 -/
abbrev one : EReal := Ideal.ofBits .f32 0x3F800000#32
/-- the word of 50000.0, the number of rows -/
abbrev cN : EReal := Ideal.ofBits .f32 0x47435000#32
/-- the word of the variance's guard -/
abbrev eps : EReal := Ideal.ofBits .f32 0x3727C5AC#32

/-- the combined features `1 · x + g` at row `n`, column `k` -/
def hin (x g : FVec Ideal SN .f32) (n : Fin 50000) (k : Fin 64) : EReal := one * x (ix2 n k) + g (ix2 n k)

/-- the first linear layer: row `n` of the combined features against row `j` of `W1`, plus `b1 j` -/
def lin1 (x g : FVec Ideal SN .f32) (W1 : FVec Ideal SW .f32) (b1 : FVec Ideal SV .f32) (n : Fin 50000) (j : Fin 64) : EReal :=
  (∑ k : Fin 64, hin x g n k * W1 (ix2 j k)) + b1 (ix1 j)

/-- the sum of column `j` down the 50000 rows -/
def colSum (h : Fin 50000 → Fin 64 → EReal) (j : Fin 64) : EReal := ∑ n : Fin 50000, h n j

/-- the batch mean of column `j` -/
def mean (h : Fin 50000 → Fin 64 → EReal) (j : Fin 64) : EReal := Ideal.div (colSum h j) cN

/-- the variance as the kernel takes it: the mean of the squares minus the square of the mean -/
def varK (h : Fin 50000 → Fin 64 → EReal) (j : Fin 64) : EReal :=
  Ideal.div (colSum (fun n j => h n j * h n j) j) cN - mean h j * mean h j

/-- the variance as the reference takes it: the mean of the squared deviations -/
def varR (h : Fin 50000 → Fin 64 → EReal) (j : Fin 64) : EReal :=
  Ideal.div (colSum (fun n j => (h n j - mean h j) * (h n j - mean h j)) j) cN

/-- the normalised, rectified feature at `(n, j)` for a variance `v` -/
def bn (h : Fin 50000 → Fin 64 → EReal) (v : Fin 64 → EReal) (gamma beta : FVec Ideal SV .f32) (n : Fin 50000) (j : Fin 64) : EReal :=
  max (gamma (ix1 j) * (h n j - mean h j) * Ideal.rsqrt (v j + eps) + beta (ix1 j)) 0

/-- the second linear layer: the result at `(n, i)` -/
def out (h : Fin 50000 → Fin 64 → EReal) (v : Fin 64 → EReal) (gamma beta : FVec Ideal SV .f32) (W2 : FVec Ideal SW .f32)
    (b2 : FVec Ideal SV .f32) (n : Fin 50000) (i : Fin 64) : EReal :=
  (∑ j : Fin 64, bn h v gamma beta n j * W2 (ix2 i j)) + b2 (ix1 i)

/-- every entry is a real number -/
def AllReal {α : Type} (v : α → EReal) : Prop := ∀ i, ∃ r : ℝ, v i = (r : EReal)

end Cert.Gine

end
-- ==== Proof.LibMatmul.lean ====
/-
  The plain matrix product read at an index.

  For the dimension numbers of an M×K by K×N product (contract the left operand's second axis with the right operand's
  first; no batch axes), the kernel's product into a zero accumulator and the host's dot_general both read, at (p, q), the
  sum over k of the left operand at (p, k) times the right operand at (k, q).
-/
import Idealize.ShloMosaic.PureOps.Ideal.Laws
import Idealize.ShloMosaic.Lib.ValueIdx

noncomputable section

namespace Cert.Matmul

open Idealize.ShloMosaic Idealize.ShloMosaic.ValueIdx

/-- The left operand's index at output (p, q) and contraction k is (p, k). -/
theorem lhsIdx_plain {M K N : Nat} (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 p q) _).trans hk

/-- The right operand's index at output (p, q) and contraction k is (k, q). -/
theorem rhsIdx_plain {M K N : Nat} (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => rfl

/-- THE KERNEL'S PRODUCT INTO THE ZERO CONSTANT, READ AT (p, q). -/
theorem matmul_plain_apply {M K N : Nat} {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  rw [lhsIdx_plain, rhsIdx_plain]

/-- THE HOST'S dot_general, READ AT (p, q). -/
theorem dotGeneral_plain_apply {M K N : Nat} {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  refine Finset.sum_congr rfl fun k _ => ?_
  rw [lhsIdx_plain, rhsIdx_plain]

end Cert.Matmul

end
-- ==== Proof.KReg0.lean ====
/-
  What the first kernel region leaves in its two output arrays, as functions of the arrays it finds.

  The region walks ten tiles of 5000 rows. On tile t it reads rows 5000 t .. 5000 t + 4999 of the node features x and of the
  aggregated messages g, the whole 64 × 64 weight matrix W1 and the 1 × 64 bias row b1, and writes
    * to the linear layer's array, rows 5000 t + r:  h (5000 t + r, j) = Σ k, (1 · x + g) (5000 t + r, k) · W1 (j, k) + b1 (0, j)
      (the product is taken against the transposed weights, so column j of the transposed matrix is row j of W1);
    * to the statistics array, an 8 × 64 block at rows 8 t .. 8 t + 7: row 0 the column sums Σ r, h (5000 t + r, j) over the
      tile's rows, row 1 the column sums of the squares, rows 2 .. 7 zero.
  Each tile's result depends on that tile's rows only, and the tiles' blocks tile both arrays, so after the ten points the
  linear layer's array holds h at every one of its 50000 rows and the statistics array holds the ten statistics blocks.

  The steps: the tile's arithmetic read at an index (the sum over the contraction index, the transposed weights, the
  broadcast bias row; the lane sums as sums over the tile's rows); what the tile's stores leave in the two staging
  buffers (one covering store; three stores of rows 0, 1 and 2 .. 7); each input block read where the tile's rows sit in
  its array (block index times block size plus the coordinate inside the block); each written-back block as the block of
  one whole-array function; the cover of each array by the ten blocks (row n lies in block n / 5000, resp. n / 8).
-/
import proofs.«400297_j2095944040567_3_alg».proof.Proof.Gen.KernelIdeal.Frame
import proofs.«400297_j2095944040567_3_alg».proof.Proof.Spec
import proofs.«400297_j2095944040567_3_alg».proof.Proof.LibMatmul
import Idealize.ShloMosaic.Lib.Pipeline.Value
import Idealize.ShloMosaic.Lib.ValueLayout

set_option maxRecDepth 16384
noncomputable section
namespace Cert.KernelIdeal.KVal0
open Idealize.ShloMosaic Idealize.ShloMosaic.ValueIdx Idealize.SL.Sem Idealize.ShloMosaic.TcCoe
open Cert.KernelIdeal Cert.KernelIdeal.Gen

variable (V : (c : Dev nD) → (b : Ref sig .tc) → Buf (Elt Ideal) ((c : Thread nD τ).loc b))

/-- The arrays the region finds: the node features, the aggregated messages, the first layer's weights and its bias row. -/
abbrev x0 (c : Dev nD) : FVec Ideal S50000x64 .f32 := V c main_arg0
abbrev g0 (c : Dev nD) : FVec Ideal S50000x64 .f32 := V c main_v14
abbrev w10 (c : Dev nD) : FVec Ideal S64x64 .f32 := V c main_arg5
abbrev b10 (c : Dev nD) : FVec Ideal S1x64 .f32 := V c main_v15
/-- The region's two output arrays after its ten points: the linear layer's array and the statistics array. -/
abbrev h1arr (c : Dev nD) : FVec Ideal S50000x64 .f32 := (dat0 (F := Ideal) V c).arrAt 4 cfg0.N
abbrev starr (c : Dev nD) : FVec Ideal S80x64 .f32 := (dat0 (F := Ideal) V c).arrAt 5 cfg0.N

/-- The printed dimension numbers of the 5000×64 by 64×64 product are the plain ones. -/
theorem dot_eq : dot_S5000x64_S64x64_S5000x64_1_0_0_1_n_n = DotDims.plain 5000 64 64 := rfl

/-- The tile's linear layer at row r, column j: the combined features' row r against row j of the weights (the
    transposed weights' column j), plus the bias. -/
theorem pay1_apply (v0 v3 : Vec Ideal S5000x64 .f32) (v6 : Vec Ideal S64x64 .f32) (v11 : Vec Ideal S1x64 .f32)
    (r : Fin 5000) (j : Fin 64) :
    k0_pay1 (F := Ideal) v0 v3 v6 v11 (ix2 r j)
      = (∑ k : Fin 64, (Cert.Gine.one * v0 (ix2 r k) + v3 (ix2 r k)) * v6 (ix2 j k)) + v11 (ix2 (0 : Fin 1) j) := by
  unfold k0_pay1
  simp only [shapeCast_self]
  refine (addf_apply _ _ _).trans (congrArg₂ (· + ·) ?_ ?_)
  · refine (Cert.Matmul.matmul_plain_apply (M := 5000) (K := 64) (N := 64) none _ _ r j).trans ?_
    refine Finset.sum_congr rfl fun k _ => congrArg₂ (· * ·) rfl ?_
    exact transpose_ix2_apply _ _ k j
  · exact broadcastTo_1b_ab_apply _ _ r j

/-- The tile's column sums: at column j, the sum of the linear layer down the tile's 5000 rows. -/
theorem pay2_apply (v0 v3 : Vec Ideal S5000x64 .f32) (v6 : Vec Ideal S64x64 .f32) (v11 : Vec Ideal S1x64 .f32)
    (u : Fin 1) (j : Fin 64) :
    k0_pay2 (F := Ideal) v0 v3 v6 v11 (ix2 u j) = ∑ r : Fin 5000, k0_pay1 (F := Ideal) v0 v3 v6 v11 (ix2 r j) := by
  unfold k0_pay2
  refine (shapeCast_a_1a_apply _ _ u j).trans ?_
  refine (Ideal.multiReduction_add_single _ 0x00000000#32 reduces_S5000x64_S64 _ _ (ix1 j)).trans ?_
  refine Finset.sum_congr rfl fun r _ => congrArg _ ?_
  funext a
  match a with
  | ⟨0, _⟩ => rfl
  | ⟨1, _⟩ => rfl

/-- The tile's column sums of squares. -/
theorem pay3_apply (v0 v3 : Vec Ideal S5000x64 .f32) (v6 : Vec Ideal S64x64 .f32) (v11 : Vec Ideal S1x64 .f32)
    (u : Fin 1) (j : Fin 64) :
    k0_pay3 (F := Ideal) v0 v3 v6 v11 (ix2 u j)
      = ∑ r : Fin 5000, k0_pay1 (F := Ideal) v0 v3 v6 v11 (ix2 r j) * k0_pay1 (F := Ideal) v0 v3 v6 v11 (ix2 r j) := by
  unfold k0_pay3
  refine (shapeCast_a_1a_apply _ _ u j).trans ?_
  refine (Ideal.multiReduction_add_single _ 0x00000000#32 reduces_S5000x64_S64 _ _ (ix1 j)).trans ?_
  refine Finset.sum_congr rfl fun r _ => ?_
  refine (mulf_apply _ _ _).trans ?_
  have e : (reduces_S5000x64_S64.lift (ix1 j) r) = ix2 r j := by
    funext a
    match a with
    | ⟨0, _⟩ => rfl
    | ⟨1, _⟩ => rfl
  rw [e]
  rfl

/-- Rows 2..7 of the statistics block are zero. -/
theorem pay4_apply (y : S6x64.Idx) : k0_pay4 (F := Ideal) y = 0 := by
  unfold k0_pay4
  exact Ideal.ofBits_zero_f32

/-- The zero offsets of a whole-block access. -/
theorem hz : (![0, 0] : Fin 2 → Nat) = fun _ => 0 := funext fun a => by fin_cases a <;> rfl

/-- What the body leaves in the linear layer's staging buffer: its one covering store's payload, computed from the four
    input blocks. -/
theorem out4_eq (c : Dev nD) (i : grid0.Coords) (a1 : Memref sig .tc .vmem S5000x64 .f32) (h1 : a1.IsWhole)
    (a2 : Memref sig .tc .vmem S5000x64 .f32) (h2 : a2.IsWhole) (a3 : Memref sig .tc .vmem S64x64 .f32) (h3 : a3.IsWhole)
    (a4 : Memref sig .tc .vmem S1x64 .f32) (h4 : a4.IsWhole) (a5 : Memref sig .tc .vmem S5000x64 .f32) (h5 : a5.IsWhole)
    (a6 : Memref sig .tc .vmem S8x64 .f32) (h6 : a6.IsWhole)
    (x0 x1 : Vec Ideal S5000x64 .f32) (x2 : Vec Ideal S64x64 .f32) (x3 : Vec Ideal S1x64 .f32) :
    out0_A_4 (F := Ideal) c i a1 h1 a2 h2 a3 h3 a4 h4 a5 h5 a6 h6 x0 x1 x2 x3 = k0_pay1 (F := Ideal) x0 x1 x2 x3 := by
  unfold out0_A_4
  rw [View.read_writes_eq_canon _ _ _ (cover0_A_4 c i a1 h1 a2 h2 a3 h3 a4 h4 a5 h5 a6 h6 x0 x1 x2 x3)]
  unfold kernelRun0_A
  dsimp only
  sl_unfold_words
  rw [View.canon_unit_zero hz]
  simp only [View.readAt_eq_ld, h1.read_unread, h2.read_unread, h3.read_unread, h4.read_unread,
    View.ld_unit_zero (S := S5000x64) hz, View.ld_unit_zero (S := S64x64) hz, View.ld_unit_zero (S := S1x64) hz]

/-- Three stores fill the 8×64 statistics block: row 0, row 1, rows 2..7. Read back at row 0 it holds the first store's
    payload (the two later stores do not reach row 0). -/
theorem canon_row0 (p4 : Vec Ideal S6x64 .f32) (p3 p2 : Vec Ideal S1x64 .f32) (j : Fin 64) :
    View.canon (Val := Elt Ideal) (s := S8x64) (e := .f32)
        [⟨Rect.unit (s := S8x64) ![2, 0] S6x64.size inb_S8x64_S6x64_2_0, p4⟩,
         ⟨Rect.unit (s := S8x64) ![1, 0] S1x64.size inb_S8x64_S1x64_1_0, p3⟩,
         ⟨Rect.unit (s := S8x64) ![0, 0] S1x64.size inb_S8x64_S1x64_0_0, p2⟩] (ix2 (0 : Fin 8) j)
      = p2 (ix2 (0 : Fin 1) j) := by
  rw [View.canon_cons_of_not_mem _ _ (by
      rw [Rect.mem_set_unit]; intro h; exact absurd (show (2 : ℕ) ≤ 0 from (h 0).1) (by decide)),
    View.canon_cons_of_not_mem _ _ (by
      rw [Rect.mem_set_unit]; intro h; exact absurd (show (1 : ℕ) ≤ 0 from (h 0).1) (by decide))]
  have e : (ix2 (0 : Fin 8) j : S8x64.Idx)
      = (Rect.unit (s := S8x64) ![0, 0] S1x64.size inb_S8x64_S1x64_0_0).emb (ix2 (0 : Fin 1) j) := by
    funext a; apply Fin.ext
    match a with
    | ⟨0, _⟩ => rfl
    | ⟨1, _⟩ => show j.val = 0 + 1 * j.val; omega
  rw [e]
  exact View.canon_cons_emb _ _ _ _

/-- Read back at row 1 it holds the second store's payload. -/
theorem canon_row1 (p4 : Vec Ideal S6x64 .f32) (p3 p2 : Vec Ideal S1x64 .f32) (j : Fin 64) :
    View.canon (Val := Elt Ideal) (s := S8x64) (e := .f32)
        [⟨Rect.unit (s := S8x64) ![2, 0] S6x64.size inb_S8x64_S6x64_2_0, p4⟩,
         ⟨Rect.unit (s := S8x64) ![1, 0] S1x64.size inb_S8x64_S1x64_1_0, p3⟩,
         ⟨Rect.unit (s := S8x64) ![0, 0] S1x64.size inb_S8x64_S1x64_0_0, p2⟩] (ix2 (1 : Fin 8) j)
      = p3 (ix2 (0 : Fin 1) j) := by
  rw [View.canon_cons_of_not_mem _ _ (by
      rw [Rect.mem_set_unit]; intro h; exact absurd (show (2 : ℕ) ≤ 1 from (h 0).1) (by decide))]
  have e : (ix2 (1 : Fin 8) j : S8x64.Idx)
      = (Rect.unit (s := S8x64) ![1, 0] S1x64.size inb_S8x64_S1x64_1_0).emb (ix2 (0 : Fin 1) j) := by
    funext a; apply Fin.ext
    match a with
    | ⟨0, _⟩ => rfl
    | ⟨1, _⟩ => show j.val = 0 + 1 * j.val; omega
  rw [e]
  exact View.canon_cons_emb _ _ _ _

/-- Read back at a row from 2 on it holds the third store's payload. -/
theorem canon_rest (p4 : Vec Ideal S6x64 .f32) (p3 p2 : Vec Ideal S1x64 .f32) (s : Fin 6) (j : Fin 64) :
    View.canon (Val := Elt Ideal) (s := S8x64) (e := .f32)
        [⟨Rect.unit (s := S8x64) ![2, 0] S6x64.size inb_S8x64_S6x64_2_0, p4⟩,
         ⟨Rect.unit (s := S8x64) ![1, 0] S1x64.size inb_S8x64_S1x64_1_0, p3⟩,
         ⟨Rect.unit (s := S8x64) ![0, 0] S1x64.size inb_S8x64_S1x64_0_0, p2⟩]
        (ix2 (⟨s.val + 2, by omega⟩ : Fin 8) j)
      = p4 (ix2 s j) := by
  have e : (ix2 (⟨s.val + 2, by omega⟩ : Fin 8) j : S8x64.Idx)
      = (Rect.unit (s := S8x64) ![2, 0] S6x64.size inb_S8x64_S6x64_2_0).emb (ix2 s j) := by
    funext a; apply Fin.ext
    match a with
    | ⟨0, _⟩ => show s.val + 2 = 2 + 1 * s.val; omega
    | ⟨1, _⟩ => show j.val = 0 + 1 * j.val; omega
  rw [e]
  exact View.canon_cons_emb _ _ _ _

/-- What the body leaves in the statistics staging buffer: its three stores read back over the input blocks. -/
theorem out5_eq (c : Dev nD) (i : grid0.Coords) (a1 : Memref sig .tc .vmem S5000x64 .f32) (h1 : a1.IsWhole)
    (a2 : Memref sig .tc .vmem S5000x64 .f32) (h2 : a2.IsWhole) (a3 : Memref sig .tc .vmem S64x64 .f32) (h3 : a3.IsWhole)
    (a4 : Memref sig .tc .vmem S1x64 .f32) (h4 : a4.IsWhole) (a5 : Memref sig .tc .vmem S5000x64 .f32) (h5 : a5.IsWhole)
    (a6 : Memref sig .tc .vmem S8x64 .f32) (h6 : a6.IsWhole)
    (x0 x1 : Vec Ideal S5000x64 .f32) (x2 : Vec Ideal S64x64 .f32) (x3 : Vec Ideal S1x64 .f32) :
    out0_A_5 (F := Ideal) c i a1 h1 a2 h2 a3 h3 a4 h4 a5 h5 a6 h6 x0 x1 x2 x3
      = View.canon (Val := Elt Ideal) (s := S8x64) (e := .f32)
        [⟨Rect.unit (s := S8x64) ![2, 0] S6x64.size inb_S8x64_S6x64_2_0, k0_pay4 (F := Ideal)⟩,
         ⟨Rect.unit (s := S8x64) ![1, 0] S1x64.size inb_S8x64_S1x64_1_0, k0_pay3 (F := Ideal) x0 x1 x2 x3⟩,
         ⟨Rect.unit (s := S8x64) ![0, 0] S1x64.size inb_S8x64_S1x64_0_0, k0_pay2 (F := Ideal) x0 x1 x2 x3⟩] := by
  unfold out0_A_5
  rw [View.read_writes_eq_canon _ _ _ (cover0_A_5 c i a1 h1 a2 h2 a3 h3 a4 h4 a5 h5 a6 h6 x0 x1 x2 x3)]
  unfold kernelRun0_A
  dsimp only
  sl_unfold_words
  simp only [View.readAt_eq_ld, h1.read_unread, h2.read_unread, h3.read_unread, h4.read_unread,
    View.ld_unit_zero (S := S5000x64) hz, View.ld_unit_zero (S := S64x64) hz, View.ld_unit_zero (S := S1x64) hz]

/-- The printed index maps over the ten points: the row-tiled windows (x, g, the linear layer, the statistics) sit at
    block t along the rows; the weights and the bias are one block, the same at every point. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- There are ten points. -/
theorem tlt (t : Fin cfg0.N) : t.val < 10 := lt_of_lt_of_eq t.isLt (N_0 : cfg0.N = 10)

/-- The tile's blocks at point t, at their literal types. -/
abbrev xblk (c : Dev nD) (t : Fin cfg0.N) : Vec Ideal S5000x64 .f32 := iblk0 (F := Ideal) V c 0 t
abbrev gblk (c : Dev nD) (t : Fin cfg0.N) : Vec Ideal S5000x64 .f32 := iblk0 (F := Ideal) V c 1 t
abbrev wblk (c : Dev nD) (t : Fin cfg0.N) : Vec Ideal S64x64 .f32 := iblk0 (F := Ideal) V c 2 t
abbrev bblk (c : Dev nD) (t : Fin cfg0.N) : Vec Ideal S1x64 .f32 := iblk0 (F := Ideal) V c 3 t

/-- Row r of x's block at point t is row 5000 t + r of x. -/
theorem xblk_apply (c : Dev nD) (t : Fin cfg0.N) (r : Fin 5000) (k : Fin 64) :
    xblk V c t (ix2 r k) = x0 V c (ix2 (⟨5000 * t.val + r.val, by have := tlt t; omega⟩ : Fin 50000) k) := by
  obtain ⟨e0, e1, -⟩ := idx_facts t
  unfold xblk iblk0
  rw [View.read_apply]
  show V c main_arg0 _ = V c main_arg0 _
  refine congrArg (V c main_arg0) (funext fun a => Fin.ext ?_)
  match a with
  | ⟨0, _⟩ => show win0_0.index t (0 : Fin 2) * 5000 + 1 * r.val = 5000 * t.val + r.val; rw [e0]; omega
  | ⟨1, _⟩ => show win0_0.index t (1 : Fin 2) * 64 + 1 * k.val = k.val; rw [e1]; omega

/-- Row r of g's block at point t is row 5000 t + r of g. -/
theorem gblk_apply (c : Dev nD) (t : Fin cfg0.N) (r : Fin 5000) (k : Fin 64) :
    gblk V c t (ix2 r k) = g0 V c (ix2 (⟨5000 * t.val + r.val, by have := tlt t; omega⟩ : Fin 50000) k) := by
  obtain ⟨-, -, e0, e1, -⟩ := idx_facts t
  unfold gblk iblk0
  rw [View.read_apply]
  show V c main_v14 _ = V c main_v14 _
  refine congrArg (V c main_v14) (funext fun a => Fin.ext ?_)
  match a with
  | ⟨0, _⟩ => show win0_1.index t (0 : Fin 2) * 5000 + 1 * r.val = 5000 * t.val + r.val; rw [e0]; omega
  | ⟨1, _⟩ => show win0_1.index t (1 : Fin 2) * 64 + 1 * k.val = k.val; rw [e1]; omega

/-- The weights' block is the whole matrix, at every point. -/
theorem wblk_apply (c : Dev nD) (t : Fin cfg0.N) (j k : Fin 64) : wblk V c t (ix2 j k) = w10 V c (ix2 j k) := by
  obtain ⟨-, -, -, -, e0, e1, -⟩ := idx_facts t
  unfold wblk iblk0
  rw [View.read_apply]
  show V c main_arg5 _ = V c main_arg5 _
  refine congrArg (V c main_arg5) (funext fun a => Fin.ext ?_)
  match a with
  | ⟨0, _⟩ => show win0_2.index t (0 : Fin 2) * 64 + 1 * j.val = j.val; rw [e0]; omega
  | ⟨1, _⟩ => show win0_2.index t (1 : Fin 2) * 64 + 1 * k.val = k.val; rw [e1]; omega

/-- The bias's block is the whole row, at every point. -/
theorem bblk_apply (c : Dev nD) (t : Fin cfg0.N) (u : Fin 1) (j : Fin 64) : bblk V c t (ix2 u j) = b10 V c (ix2 u j) := by
  obtain ⟨-, -, -, -, -, -, e0, e1, -⟩ := idx_facts t
  unfold bblk iblk0
  rw [View.read_apply]
  show V c main_v15 _ = V c main_v15 _
  refine congrArg (V c main_v15) (funext fun a => Fin.ext ?_)
  match a with
  | ⟨0, _⟩ => show win0_3.index t (0 : Fin 2) * 1 + 1 * u.val = u.val; rw [e0]; omega
  | ⟨1, _⟩ => show win0_3.index t (1 : Fin 2) * 64 + 1 * j.val = j.val; rw [e1]; omega

/-- The first linear layer at row n, column j, of the arrays the region finds. -/
def lin (c : Dev nD) (n : Fin 50000) (j : Fin 64) : EReal :=
  (∑ k : Fin 64, (Cert.Gine.one * x0 V c (ix2 n k) + g0 V c (ix2 n k)) * w10 V c (ix2 j k)) + b10 V c (ix2 (0 : Fin 1) j)

/-- The tile's linear layer at point t is the array's, at rows 5000 t + r. -/
theorem blk_lin (c : Dev nD) (t : Fin cfg0.N) (r : Fin 5000) (j : Fin 64) :
    k0_pay1 (F := Ideal) (xblk V c t) (gblk V c t) (wblk V c t) (bblk V c t) (ix2 r j)
      = lin V c (⟨5000 * t.val + r.val, by have := tlt t; omega⟩ : Fin 50000) j := by
  refine (pay1_apply _ _ _ _ r j).trans ?_
  unfold lin
  refine congrArg₂ (· + ·) (Finset.sum_congr rfl fun k _ => ?_) (bblk_apply V c t 0 j)
  rw [xblk_apply, gblk_apply, wblk_apply]

/-- The linear layer as an array of 50000 rows. -/
def linArr (c : Dev nD) : FVec Ideal S50000x64 .f32 := fun i => lin V c (i 0) (i 1)

/-- What point t writes back to the linear layer's array is block t of that array. -/
theorem flushed4_eq (c : Dev nD) (t : Fin cfg0.N) :
    (dat0 (F := Ideal) V c).flushed 4 t = ((cfg0.win 4).blk t).view.read (Elt Ideal) (linArr V c) := by
  obtain ⟨-, -, -, -, -, -, -, -, e0, e1, -⟩ := idx_facts t
  show (cfg0.win 4).cut (grid0.coords t) ((dat0 (F := Ideal) V c).after 4 t) = _
  rw [after0_4]
  unfold outsAt0
  dsimp only
  rw [out4_eq]
  funext y
  obtain ⟨r, j, rfl⟩ : ∃ (r : Fin 5000) (j : Fin 64), y = ix2 r j := ⟨y 0, y 1, eq_ix2 y⟩
  rw [View.read_apply]
  show k0_pay1 (F := Ideal) (xblk V c t) (gblk V c t) (wblk V c t) (bblk V c t) (ix2 r j)
    = linArr V c (((cfg0.win 4).blk t).view.emb (ix2 r j))
  rw [blk_lin]
  unfold linArr
  refine congrArg₂ (lin V c) (Fin.ext ?_) (Fin.ext ?_)
  · show 5000 * t.val + r.val = win0_4.index t (0 : Fin 2) * 5000 + 1 * r.val
    rw [e0]; omega
  · show j.val = win0_4.index t (1 : Fin 2) * 64 + 1 * j.val
    rw [e1]; omega

/-- An index of the array is in point t's block iff each coordinate is in the block's range on its axis. -/
theorem mem_blk4 (t : Fin cfg0.N) (i : S50000x64.Idx) :
    i ∈ ((cfg0.win 4).blk t).view.set
      ↔ ∀ a : Fin 2, win0_4.index t a * S5000x64.size a ≤ (i a).val ∧ (i a).val < win0_4.index t a * S5000x64.size a + S5000x64.size a := by
  show i ∈ ((View.whole main_v16_0).slice (win0_4.rect t)).set ↔ _
  rw [View.set_slice_whole, Rect.mem_set_unit]
  exact Iff.rfl

/-- Row n is in the block of point n / 5000. -/
theorem cover4 (i : S50000x64.Idx) :
    ∃ t : Fin cfg0.N, (cfg0.win 4).flush t = true ∧ i ∈ ((cfg0.win 4).blk t).view.set := by
  have hi0 : (i 0).val < 50000 := idx2_lt0 i
  have hi1 : (i 1).val < 64 := idx2_lt1 i
  have hN : cfg0.N = 10 := N_0
  obtain ⟨t, ht⟩ : ∃ t : Fin cfg0.N, t.val = (i 0).val / 5000 := ⟨⟨(i 0).val / 5000, by rw [hN]; omega⟩, rfl⟩
  obtain ⟨-, -, -, -, -, -, -, -, e0, e1, -⟩ := idx_facts t
  refine ⟨t, flush0_4 t, ?_⟩
  rw [mem_blk4]
  intro a
  match a with
  | ⟨0, _⟩ =>
    show win0_4.index t (0 : Fin 2) * 5000 ≤ (i 0).val ∧ (i 0).val < win0_4.index t (0 : Fin 2) * 5000 + 5000
    rw [e0, ht]; omega
  | ⟨1, _⟩ =>
    show win0_4.index t (1 : Fin 2) * 64 ≤ (i 1).val ∧ (i 1).val < win0_4.index t (1 : Fin 2) * 64 + 64
    rw [e1]; omega

/-- After the region the linear layer's array holds the linear layer of the arrays the region found. -/
theorem final4 (c : Dev nD) : h1arr V c = linArr V c :=
  (dat0 (F := Ideal) V c).arrAt_eq_of_cover 4 (linArr V c) (fun t _ => flushed4_eq V c t) cover4

/-- THE LINEAR LAYER'S ARRAY AFTER THE REGION, at (n, j): row n of the combined features against row j of the weights,
    plus the bias. -/
theorem h1_apply (c : Dev nD) (n : Fin 50000) (j : Fin 64) :
    h1arr V c (ix2 n j)
      = (∑ k : Fin 64, (Cert.Gine.one * x0 V c (ix2 n k) + g0 V c (ix2 n k)) * w10 V c (ix2 j k)) + b10 V c (ix2 (0 : Fin 1) j) := by
  rw [final4]
  rfl

/-- Row s of tile t's statistics block: the column sums of the linear layer over the tile's rows (row 0), of its squares
    (row 1), zero (rows 2..7). -/
def statRow (c : Dev nD) (t : Fin 10) (s : ℕ) (j : Fin 64) : EReal :=
  if s = 0 then ∑ r : Fin 5000, lin V c (⟨5000 * t.val + r.val, by omega⟩ : Fin 50000) j
  else if s = 1 then
    ∑ r : Fin 5000, lin V c (⟨5000 * t.val + r.val, by omega⟩ : Fin 50000) j * lin V c (⟨5000 * t.val + r.val, by omega⟩ : Fin 50000) j
  else 0

/-- The statistics array: ten blocks of eight rows, block t from tile t. -/
def statArr (c : Dev nD) : FVec Ideal S80x64 .f32 := fun i =>
  statRow V c (⟨(i 0).val / 8, by have := idx2_lt0 i; omega⟩ : Fin 10) ((i 0).val % 8) (i 1)

/-- The statistics array at row 8 t + s is row s of tile t's block. -/
theorem statArr_apply (c : Dev nD) (t : Fin 10) (s : Fin 8) (j : Fin 64) :
    statArr V c (ix2 (⟨8 * t.val + s.val, by omega⟩ : Fin 80) j) = statRow V c t s.val j := by
  have h1 : (⟨(8 * t.val + s.val) / 8, by omega⟩ : Fin 10) = t := Fin.ext (by show (8 * t.val + s.val) / 8 = t.val; omega)
  have h2 : (8 * t.val + s.val) % 8 = s.val := by omega
  show statRow V c ⟨(8 * t.val + s.val) / 8, _⟩ ((8 * t.val + s.val) % 8) j = _
  rw [h1, h2]

/-- What point t writes back to the statistics array is block t of that array. -/
theorem flushed5_eq (c : Dev nD) (t : Fin cfg0.N) :
    (dat0 (F := Ideal) V c).flushed 5 t = ((cfg0.win 5).blk t).view.read (Elt Ideal) (statArr V c) := by
  obtain ⟨-, -, -, -, -, -, -, -, -, -, e0, e1⟩ := idx_facts t
  show (cfg0.win 5).cut (grid0.coords t) ((dat0 (F := Ideal) V c).after 5 t) = _
  rw [after0_5]
  unfold outsAt0
  dsimp only
  rw [out5_eq]
  funext y
  obtain ⟨s, j, rfl⟩ : ∃ (s : Fin 8) (j : Fin 64), y = ix2 s j := ⟨y 0, y 1, eq_ix2 y⟩
  rw [View.read_apply]
  have hemb : (((cfg0.win 5).blk t).view.emb (ix2 s j) : S80x64.Idx)
      = ix2 (⟨8 * t.val + s.val, by have := tlt t; omega⟩ : Fin 80) j := by
    funext a; apply Fin.ext
    match a with
    | ⟨0, _⟩ => show win0_5.index t (0 : Fin 2) * 8 + 1 * s.val = 8 * t.val + s.val; rw [e0]; omega
    | ⟨1, _⟩ => show win0_5.index t (1 : Fin 2) * 64 + 1 * j.val = j.val; rw [e1]; omega
  refine Eq.trans ?_ ((congrArg (statArr V c) hemb).trans (statArr_apply V c ⟨t.val, tlt t⟩ s j)).symm
  match s with
  | ⟨0, _⟩ =>
    refine (canon_row0 _ _ _ j).trans ((pay2_apply _ _ _ _ 0 j).trans ?_)
    unfold statRow
    rw [if_pos rfl]
    exact Finset.sum_congr rfl fun r _ => blk_lin V c t r j
  | ⟨1, _⟩ =>
    refine (canon_row1 _ _ _ j).trans ((pay3_apply _ _ _ _ 0 j).trans ?_)
    unfold statRow
    rw [if_neg (show ¬ (1 : ℕ) = 0 by decide), if_pos (show (1 : ℕ) = 1 from rfl)]
    exact Finset.sum_congr rfl fun r _ => by rw [blk_lin]
  | ⟨s + 2, hs⟩ =>
    refine (canon_rest _ _ _ ⟨s, by omega⟩ j).trans ((pay4_apply _).trans ?_)
    unfold statRow
    rw [if_neg (by show ¬ s + 2 = 0; omega), if_neg (by show ¬ s + 2 = 1; omega)]

/-- An index of the statistics array is in point t's block iff each coordinate is in the block's range on its axis. -/
theorem mem_blk5 (t : Fin cfg0.N) (i : S80x64.Idx) :
    i ∈ ((cfg0.win 5).blk t).view.set
      ↔ ∀ a : Fin 2, win0_5.index t a * S8x64.size a ≤ (i a).val ∧ (i a).val < win0_5.index t a * S8x64.size a + S8x64.size a := by
  show i ∈ ((View.whole main_v16_1).slice (win0_5.rect t)).set ↔ _
  rw [View.set_slice_whole, Rect.mem_set_unit]
  exact Iff.rfl

/-- Row n of the statistics array is in the block of point n / 8. -/
theorem cover5 (i : S80x64.Idx) :
    ∃ t : Fin cfg0.N, (cfg0.win 5).flush t = true ∧ i ∈ ((cfg0.win 5).blk t).view.set := by
  have hi0 : (i 0).val < 80 := idx2_lt0 i
  have hi1 : (i 1).val < 64 := idx2_lt1 i
  have hN : cfg0.N = 10 := N_0
  obtain ⟨t, ht⟩ : ∃ t : Fin cfg0.N, t.val = (i 0).val / 8 := ⟨⟨(i 0).val / 8, by rw [hN]; omega⟩, rfl⟩
  obtain ⟨-, -, -, -, -, -, -, -, -, -, e0, e1⟩ := idx_facts t
  refine ⟨t, flush0_5 t, ?_⟩
  rw [mem_blk5]
  intro a
  match a with
  | ⟨0, _⟩ =>
    show win0_5.index t (0 : Fin 2) * 8 ≤ (i 0).val ∧ (i 0).val < win0_5.index t (0 : Fin 2) * 8 + 8
    rw [e0, ht]; omega
  | ⟨1, _⟩ =>
    show win0_5.index t (1 : Fin 2) * 64 ≤ (i 1).val ∧ (i 1).val < win0_5.index t (1 : Fin 2) * 64 + 64
    rw [e1]; omega

/-- After the region the statistics array holds the tiles' statistics blocks. -/
theorem final5 (c : Dev nD) : starr V c = statArr V c :=
  (dat0 (F := Ideal) V c).arrAt_eq_of_cover 5 (statArr V c) (fun t _ => flushed5_eq V c t) cover5

/-- THE STATISTICS ARRAY AFTER THE REGION, row 8 t: the column sums of the linear layer's array over tile t's rows. -/
theorem stats_sum (c : Dev nD) (t : Fin 10) (j : Fin 64) :
    starr V c (ix2 (⟨8 * t.val, by omega⟩ : Fin 80) j)
      = ∑ r : Fin 5000, h1arr V c (ix2 (⟨5000 * t.val + r.val, by omega⟩ : Fin 50000) j) := by
  rw [final5, final4]
  refine (statArr_apply V c t 0 j).trans ?_
  unfold statRow
  rw [if_pos (show (0 : Fin 8).val = 0 from rfl)]
  rfl

/-- Row 8 t + 1: the column sums of the squares. -/
theorem stats_sumsq (c : Dev nD) (t : Fin 10) (j : Fin 64) :
    starr V c (ix2 (⟨8 * t.val + 1, by omega⟩ : Fin 80) j)
      = ∑ r : Fin 5000, h1arr V c (ix2 (⟨5000 * t.val + r.val, by omega⟩ : Fin 50000) j)
          * h1arr V c (ix2 (⟨5000 * t.val + r.val, by omega⟩ : Fin 50000) j) := by
  rw [final5, final4]
  refine (statArr_apply V c t 1 j).trans ?_
  unfold statRow
  rw [if_neg (show ¬ (1 : Fin 8).val = 0 by decide), if_pos (show (1 : Fin 8).val = 1 from rfl)]
  rfl

end Cert.KernelIdeal.KVal0
end
-- ==== Proof.KReg1.lean ====
/-
  What the second kernel region leaves in its result array, as a function of the arrays it finds.

  The region walks ten tiles of 5000 rows. On a tile it normalises the features `h` with a given mean row `μ` and variance
  row `v`, scales and shifts by `γ` and `β`, rectifies, and applies the second linear layer:
  `out (n, i) = Σ j, max (γ j · (h (n, j) − μ j) · rsqrt (v j + ε) + β j) 0 · W2 (i, j) + b2 i`.
  Every entry of row `n` depends on row `n` of `h` only, and the row vectors and `W2` are the same whole arrays at every
  tile, so the ten tiles' results are the ten row blocks of ONE function of the arrays, and those blocks cover the array.

  The steps: the tile's arithmetic read at an index (`pay_apply`: the product into a zero accumulator is the sum over
  the contracted axis, the transposed weight swaps its coordinates, a row broadcast down the tile reads the row, a change of
  float format is the identity on the extended reals, and the rectifier's zero word is 0); each input block as a
  restriction of its array (a block's coordinate is block index × block size + the coordinate inside the block); what a
  tile writes back is its block of the result function (`flushed_eq`); row `r` lies in tile `r / 5000` (`cover`); so the
  array ends holding the result function (`final`, `out_apply`).
-/
import proofs.«400297_j2095944040567_3_alg».proof.Proof.Gen.KernelIdeal.Frame
import proofs.«400297_j2095944040567_3_alg».proof.Proof.Spec
import proofs.«400297_j2095944040567_3_alg».proof.Proof.LibMatmul
import Idealize.ShloMosaic.Lib.Pipeline.Value
import Idealize.ShloMosaic.Lib.ValueLayout

set_option maxRecDepth 16384
noncomputable section
namespace Cert.KernelIdeal.KVal1
open Idealize.ShloMosaic Idealize.ShloMosaic.ValueIdx Idealize.SL.Sem Idealize.ShloMosaic.TcCoe
open Cert.KernelIdeal Cert.KernelIdeal.Gen

variable (V : (c : Dev nD) → (b : Ref sig .tc) → Buf (Elt Ideal) ((c : Thread nD τ).loc b))

/-- A row vector cast to its own shape and broadcast down the rows reads, at (p, j), the row at j. -/
theorem row_apply (x : FVec Ideal S1x64 .f32) (p : Fin 5000) (j : Fin 64) :
    broadcastTo S5000x64 (shapeCast S1x64 x shapeCasts_S1x64_S1x64) broadcasts_S1x64_S5000x64 (ix2 p j) = x (ix2 (0 : Fin 1) j) :=
  (broadcastTo_1b_ab_apply _ _ p j).trans (congrFun (shapeCast_self x _) _)

/-- THE TILE'S ARITHMETIC AT (p, q): with `x0` the tile of features, `xv` the variance row, `xg` the scale row, `xm` the mean row,
    `xb` the shift row, `xw` the second weight matrix and `xc` its bias row. -/
theorem pay_apply (x0 : FVec Ideal S5000x64 .f32) (xv xg xm xb : FVec Ideal S1x64 .f32) (xw : FVec Ideal S64x64 .f32)
    (xc : FVec Ideal S1x64 .f32) (p : Fin 5000) (q : Fin 64) :
    k1_pay1 (F := Ideal) x0 xv xg xm xb xw xc (ix2 p q)
      = (∑ j : Fin 64, max (xg (ix2 (0 : Fin 1) j) * (x0 (ix2 p j) - xm (ix2 (0 : Fin 1) j))
            * Ideal.rsqrt (xv (ix2 (0 : Fin 1) j) + Cert.Gine.eps) + xb (ix2 (0 : Fin 1) j)) 0 * xw (ix2 q j))
        + xc (ix2 (0 : Fin 1) q) := by
  unfold k1_pay1
  dsimp only
  refine (addf_apply _ _ (ix2 p q)).trans ?_
  refine congrArg₂ (· + ·) ?_ ?_
  · refine (Cert.Matmul.matmul_plain_apply (M := 5000) (K := 64) (N := 64) none _ _ p q).trans ?_
    refine Finset.sum_congr rfl fun j _ => ?_
    refine congrArg₂ (· * ·) ?_ ?_
    · refine (truncf_apply (ψ := .bf16) _ bitsLt_bf16_f32 (ix2 p j)).trans ?_
      refine (maximumf_apply _ _ (ix2 p j)).trans ?_
      refine congrArg₂ max ?_ ?_
      · refine (addf_apply _ _ (ix2 p j)).trans ?_
        refine congrArg₂ (· + ·) ?_ (row_apply xb p j)
        refine (mulf_apply _ _ (ix2 p j)).trans ?_
        refine congrArg₂ (· * ·) ?_ ?_
        · refine (mulf_apply _ _ (ix2 p j)).trans ?_
          refine congrArg₂ (· * ·) (row_apply xg p j) ?_
          refine (subf_apply _ _ (ix2 p j)).trans ?_
          exact congrArg₂ (· - ·) (congrFun (shapeCast_self x0 _) _) (row_apply xm p j)
        · refine (broadcastTo_1b_ab_apply _ _ p j).trans ?_
          show Ideal.rsqrt (shapeCast S1x64 xv shapeCasts_S1x64_S1x64 (ix2 (0 : Fin 1) j) + Cert.Gine.eps) = _
          exact congrArg (fun z => Ideal.rsqrt (z + Cert.Gine.eps)) (congrFun (shapeCast_self xv _) _)
      · exact Ideal.ofBits_zero_f32
    · exact transpose_ix2_apply _ _ j q
  · exact row_apply xc p q

/-- The zero offsets, however they are spelt. -/
theorem hz : (![0, 0] : Fin 2 → Nat) = fun _ => 0 := funext fun a => by fin_cases a <;> rfl

/-- The arrays the region finds: the features `h`, the mean, variance, scale and shift rows, the second weight matrix and
    its bias row; and the result array after the region. -/
abbrev h1in (c : Dev nD) : FVec Ideal S50000x64 .f32 := V c main_v16_0
abbrev mu1 (c : Dev nD) : FVec Ideal S1x64 .f32 := V c main_v30
abbrev var1 (c : Dev nD) : FVec Ideal S1x64 .f32 := V c main_v31
abbrev gam1 (c : Dev nD) : FVec Ideal S1x64 .f32 := V c main_v32
abbrev bet1 (c : Dev nD) : FVec Ideal S1x64 .f32 := V c main_v33
abbrev w21 (c : Dev nD) : FVec Ideal S64x64 .f32 := V c main_arg9
abbrev b21 (c : Dev nD) : FVec Ideal S1x64 .f32 := V c main_v34
abbrev outarr (c : Dev nD) : FVec Ideal S50000x64 .f32 := (dat1 (F := Ideal) V c).arrAt 7 cfg1.N

/-- The region's result at row n, column i, from the arrays it finds. -/
def outFn (c : Dev nD) (n : Fin 50000) (i : Fin 64) : EReal :=
  (∑ j : Fin 64, max (gam1 V c (ix2 (0 : Fin 1) j) * (h1in V c (ix2 n j) - mu1 V c (ix2 (0 : Fin 1) j))
        * Ideal.rsqrt (var1 V c (ix2 (0 : Fin 1) j) + Cert.Gine.eps) + bet1 V c (ix2 (0 : Fin 1) j)) 0 * w21 V c (ix2 i j))
    + b21 V c (ix2 (0 : Fin 1) i)

/-- The whole result array as one function of its index. -/
abbrev G (c : Dev nD) : FVec Ideal S50000x64 .f32 := fun k => outFn V c (k 0) (k 1)

/-- Where each window's block sits at point `t`: the feature and result windows at row block `t`, the others at their
    whole arrays. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- The input windows' blocks at point `t`, at their literal shapes. -/
abbrev hblk (c : Dev nD) (t : Fin cfg1.N) : FVec Ideal S5000x64 .f32 := iblk1 V c 0 t
abbrev mblk (c : Dev nD) (t : Fin cfg1.N) : FVec Ideal S1x64 .f32 := iblk1 V c 1 t
abbrev vblk (c : Dev nD) (t : Fin cfg1.N) : FVec Ideal S1x64 .f32 := iblk1 V c 2 t
abbrev gblk (c : Dev nD) (t : Fin cfg1.N) : FVec Ideal S1x64 .f32 := iblk1 V c 3 t
abbrev bblk (c : Dev nD) (t : Fin cfg1.N) : FVec Ideal S1x64 .f32 := iblk1 V c 4 t
abbrev wblk (c : Dev nD) (t : Fin cfg1.N) : FVec Ideal S64x64 .f32 := iblk1 V c 5 t
abbrev cblk (c : Dev nD) (t : Fin cfg1.N) : FVec Ideal S1x64 .f32 := iblk1 V c 6 t

/-- The feature block at point `t` is rows `5000 t … 5000 t + 4999` of the feature array. -/
theorem hblk_apply (c : Dev nD) (t : Fin cfg1.N) (p : Fin 5000) (j : Fin 64) (n : Fin 50000)
    (hn : n.val = 5000 * t.val + p.val) : hblk V c t (ix2 p j) = h1in V c (ix2 n j) := by
  obtain ⟨e0, e1, -⟩ := idx_facts t
  unfold hblk iblk1
  rw [View.read_apply]
  show V c main_v16_0 _ = V c main_v16_0 _
  congr 1
  funext a; apply Fin.ext
  match a with
  | ⟨0, _⟩ => show win1_0.index t (0 : Fin 2) * 5000 + 1 * p.val = n.val; omega
  | ⟨1, _⟩ => show win1_0.index t (1 : Fin 2) * 64 + 1 * j.val = j.val; omega

/-- The mean row's block is the whole row, at every point; likewise the other rows and the weight matrix below. -/
theorem mblk_apply (c : Dev nD) (t : Fin cfg1.N) (j : Fin 64) : mblk V c t (ix2 (0 : Fin 1) j) = mu1 V c (ix2 (0 : Fin 1) j) := by
  obtain ⟨-, -, e0, e1, -⟩ := idx_facts t
  unfold mblk iblk1
  rw [View.read_apply]
  show V c main_v30 _ = V c main_v30 _
  congr 1
  funext a; apply Fin.ext
  match a with
  | ⟨0, _⟩ => show win1_1.index t (0 : Fin 2) * 1 + 1 * 0 = 0; omega
  | ⟨1, _⟩ => show win1_1.index t (1 : Fin 2) * 64 + 1 * j.val = j.val; omega

theorem vblk_apply (c : Dev nD) (t : Fin cfg1.N) (j : Fin 64) : vblk V c t (ix2 (0 : Fin 1) j) = var1 V c (ix2 (0 : Fin 1) j) := by
  obtain ⟨-, -, -, -, e0, e1, -⟩ := idx_facts t
  unfold vblk iblk1
  rw [View.read_apply]
  show V c main_v31 _ = V c main_v31 _
  congr 1
  funext a; apply Fin.ext
  match a with
  | ⟨0, _⟩ => show win1_2.index t (0 : Fin 2) * 1 + 1 * 0 = 0; omega
  | ⟨1, _⟩ => show win1_2.index t (1 : Fin 2) * 64 + 1 * j.val = j.val; omega

theorem gblk_apply (c : Dev nD) (t : Fin cfg1.N) (j : Fin 64) : gblk V c t (ix2 (0 : Fin 1) j) = gam1 V c (ix2 (0 : Fin 1) j) := by
  obtain ⟨-, -, -, -, -, -, e0, e1, -⟩ := idx_facts t
  unfold gblk iblk1
  rw [View.read_apply]
  show V c main_v32 _ = V c main_v32 _
  congr 1
  funext a; apply Fin.ext
  match a with
  | ⟨0, _⟩ => show win1_3.index t (0 : Fin 2) * 1 + 1 * 0 = 0; omega
  | ⟨1, _⟩ => show win1_3.index t (1 : Fin 2) * 64 + 1 * j.val = j.val; omega

theorem bblk_apply (c : Dev nD) (t : Fin cfg1.N) (j : Fin 64) : bblk V c t (ix2 (0 : Fin 1) j) = bet1 V c (ix2 (0 : Fin 1) j) := by
  obtain ⟨-, -, -, -, -, -, -, -, e0, e1, -⟩ := idx_facts t
  unfold bblk iblk1
  rw [View.read_apply]
  show V c main_v33 _ = V c main_v33 _
  congr 1
  funext a; apply Fin.ext
  match a with
  | ⟨0, _⟩ => show win1_4.index t (0 : Fin 2) * 1 + 1 * 0 = 0; omega
  | ⟨1, _⟩ => show win1_4.index t (1 : Fin 2) * 64 + 1 * j.val = j.val; omega

theorem wblk_apply (c : Dev nD) (t : Fin cfg1.N) (i j : Fin 64) : wblk V c t (ix2 i j) = w21 V c (ix2 i j) := by
  obtain ⟨-, -, -, -, -, -, -, -, -, -, e0, e1, -⟩ := idx_facts t
  unfold wblk iblk1
  rw [View.read_apply]
  show V c main_arg9 _ = V c main_arg9 _
  congr 1
  funext a; apply Fin.ext
  match a with
  | ⟨0, _⟩ => show win1_5.index t (0 : Fin 2) * 64 + 1 * i.val = i.val; omega
  | ⟨1, _⟩ => show win1_5.index t (1 : Fin 2) * 64 + 1 * j.val = j.val; omega

theorem cblk_apply (c : Dev nD) (t : Fin cfg1.N) (j : Fin 64) : cblk V c t (ix2 (0 : Fin 1) j) = b21 V c (ix2 (0 : Fin 1) j) := by
  obtain ⟨-, -, -, -, -, -, -, -, -, -, -, -, e0, e1, -⟩ := idx_facts t
  unfold cblk iblk1
  rw [View.read_apply]
  show V c main_v34 _ = V c main_v34 _
  congr 1
  funext a; apply Fin.ext
  match a with
  | ⟨0, _⟩ => show win1_6.index t (0 : Fin 2) * 1 + 1 * 0 = 0; omega
  | ⟨1, _⟩ => show win1_6.index t (1 : Fin 2) * 64 + 1 * j.val = j.val; omega

/-- The body's result on the blocks of point t, at (p, q), is the result function at row 5000 t + p. -/
theorem blk_apply (c : Dev nD) (t : Fin cfg1.N) (p : Fin 5000) (q : Fin 64) (n : Fin 50000)
    (hn : n.val = 5000 * t.val + p.val) :
    k1_pay1 (F := Ideal) (hblk V c t) (vblk V c t) (gblk V c t) (mblk V c t) (bblk V c t) (wblk V c t) (cblk V c t) (ix2 p q)
      = outFn V c n q := by
  refine (pay_apply (hblk V c t) (vblk V c t) (gblk V c t) (mblk V c t) (bblk V c t) (wblk V c t) (cblk V c t) p q).trans ?_
  unfold outFn
  rw [cblk_apply V c t q]
  refine congrArg (· + b21 V c (ix2 (0 : Fin 1) q)) ?_
  refine Finset.sum_congr rfl fun j _ => ?_
  rw [hblk_apply V c t p j n hn, mblk_apply V c t j, vblk_apply V c t j, gblk_apply V c t j, bblk_apply V c t j,
    wblk_apply V c t q j]

/-- What point t writes back is block t of the result function. -/
theorem flushed_eq (c : Dev nD) (t : Fin cfg1.N) :
    (dat1 (F := Ideal) V c).flushed 7 t = ((cfg1.win 7).blk t).view.read (Elt Ideal) (G V c) := by
  show (cfg1.win 7).cut (grid1.coords t) ((dat1 (F := Ideal) V c).after 7 t) = _
  rw [after1_7]
  unfold out1_7
  rw [View.canon_unit_zero hz]
  simp only [View.ld_unit_zero (S := S5000x64) hz, View.ld_unit_zero (S := S1x64) hz, View.ld_unit_zero (S := S64x64) hz]
  obtain ⟨-, -, -, -, -, -, -, -, -, -, -, -, -, -, e0, e1⟩ := idx_facts t
  have ht : t.val < 10 := lt_of_lt_of_eq t.isLt N_1
  funext y
  rw [View.read_apply]
  have hy0 : (y 0).val < 5000 := (y 0).isLt
  have hy1 : (y 1).val < 64 := (y 1).isLt
  have hx : (cfg1.win 7).xinj (grid1.coords t) y = ix2 (⟨(y 0).val, hy0⟩ : Fin 5000) (⟨(y 1).val, hy1⟩ : Fin 64) := by
    funext a; match a with | ⟨0, _⟩ => rfl | ⟨1, _⟩ => rfl
  show k1_pay1 (F := Ideal) (hblk V c t) (vblk V c t) (gblk V c t) (mblk V c t) (bblk V c t) (wblk V c t) (cblk V c t)
      ((cfg1.win 7).xinj (grid1.coords t) y) = G V c (((cfg1.win 7).blk t).view.emb y)
  refine (congrArg _ hx).trans ?_
  refine (blk_apply V c t _ _ ⟨5000 * t.val + (y 0).val, by omega⟩ rfl).trans ?_
  show outFn V c _ _ = outFn V c ((((cfg1.win 7).blk t).view.emb y) 0) ((((cfg1.win 7).blk t).view.emb y) 1)
  congr 1 <;> apply Fin.ext
  · show 5000 * t.val + (y 0).val = win1_7.index t (0 : Fin 2) * 5000 + 1 * (y 0).val; omega
  · show (y 1).val = win1_7.index t (1 : Fin 2) * 64 + 1 * (y 1).val; omega

/-- An index of the array lies in point t's block iff each coordinate lies in the block's range on its axis. -/
theorem mem_blk (t : Fin cfg1.N) (i : S50000x64.Idx) :
    i ∈ ((cfg1.win 7).blk t).view.set ↔ ∀ a : Fin 2, win1_7.index t a * S5000x64.size a ≤ (i a).val ∧ (i a).val < win1_7.index t a * S5000x64.size a + S5000x64.size a := by
  show i ∈ ((View.whole main_v35).slice (win1_7.rect t)).set ↔ _
  rw [View.set_slice_whole, Rect.mem_set_unit]
  exact Iff.rfl

/-- Row r lies in the block of point r / 5000: the ten blocks of 5000 rows cover the array. -/
theorem cover (i : S50000x64.Idx) : ∃ t : Fin cfg1.N, (cfg1.win 7).flush t = true ∧ i ∈ ((cfg1.win 7).blk t).view.set := by
  have hi0 : (i 0).val < 50000 := (i 0).isLt
  have hi1 : (i 1).val < 64 := (i 1).isLt
  have hN : grid1.N = 10 := N_1
  let t : Fin cfg1.N := ⟨(i 0).val / 5000, by show (i 0).val / 5000 < grid1.N; omega⟩
  obtain ⟨-, -, -, -, -, -, -, -, -, -, -, -, -, -, e0, e1⟩ := idx_facts t
  have e0' : win1_7.index t (0 : Fin 2) = (i 0).val / 5000 := e0
  refine ⟨t, flush1_7 t, ?_⟩
  rw [mem_blk]
  intro a
  match a with
  | ⟨0, _⟩ => show win1_7.index t (0 : Fin 2) * 5000 ≤ (i 0).val ∧ (i 0).val < win1_7.index t (0 : Fin 2) * 5000 + 5000; omega
  | ⟨1, _⟩ => show win1_7.index t (1 : Fin 2) * 64 ≤ (i 1).val ∧ (i 1).val < win1_7.index t (1 : Fin 2) * 64 + 64; omega

/-- The result array after the region is the result function. -/
theorem final (c : Dev nD) : outarr V c = G V c :=
  (dat1 (F := Ideal) V c).arrAt_eq_of_cover 7 (G V c) (fun t _ => flushed_eq V c t) cover

theorem out_apply (c : Dev nD) (n : Fin 50000) (i : Fin 64) :
    outarr V c (ix2 n i)
      = (∑ j : Fin 64, max (gam1 V c (ix2 (0 : Fin 1) j) * (h1in V c (ix2 n j) - mu1 V c (ix2 (0 : Fin 1) j))
            * Ideal.rsqrt (var1 V c (ix2 (0 : Fin 1) j) + Cert.Gine.eps) + bet1 V c (ix2 (0 : Fin 1) j)) 0 * w21 V c (ix2 i j))
        + b21 V c (ix2 (0 : Fin 1) i) :=
  congrFun (final V c) (ix2 n i)

end Cert.KernelIdeal.KVal1
end
-- ==== Proof.KTerm.lean ====
/-
  The kernel program's aggregated messages as a pure term of its arguments.

  Before its first kernel region the program computes, on the host, for every edge the source row of the node array
  (a negative index wrapped by the row count; where the wrapped index falls outside the rows the gathered row is
  replaced by the fill word), adds the edge's linear image, clamps at zero from below, and sums the rows into their
  destination rows of a zero array: `aggK`.
-/
import proofs.«400297_j2095944040567_3_alg».proof.KernelIdeal
import proofs.«400297_j2095944040567_3_alg».proof.Proof.Gen.KernelIdeal
import Idealize.ShloMosaic.PureOps.Ideal

noncomputable section

namespace Cert.KernelIdeal.KHost

open Cert.KernelIdeal Cert.KernelIdeal.Gen Idealize.ShloMosaic

/-- The aggregated messages of the kernel program. -/
def aggK (a0 : FVec Ideal S50000x64 .f32) (a1 : IVec S2x1000000 32) (a2 : FVec Ideal S1000000x16 .f32)
    (a3 : FVec Ideal S64x16 .f32) (a4 : FVec Ideal S64 .f32) : FVec Ideal S50000x64 .f32 :=
  let v0 : IVec S1x1000000 32 := extractStridedSlice S1x1000000 ![0, 0] a1 slices_S2x1000000_S1x1000000_0_0
  let v1 : IVec S1000000 32 := shapeCast S1000000 v0 shapeCasts_S1x1000000_S1000000
  let v2 : IVec S1x1000000 32 := extractStridedSlice S1x1000000 ![1, 0] a1 slices_S2x1000000_S1x1000000_1_0
  let v3 : IVec S1000000 32 := shapeCast S1000000 v2 shapeCasts_S1x1000000_S1000000
  let v4 : FVec Ideal S16x64 .f32 := transpose S16x64 [1, 0] a3 transposes_S64x16_S16x64_1_0
  let v5 : FVec Ideal S1000000x64 .f32 := Host.dotGeneral (F := Ideal) dot_S1000000x16_S16x64_S1000000x64_1_0_0_1_n_n none a2 v4
  let v6 : FVec Ideal S1x64 .f32 := broadcastInDim S1x64 ![1] bcast_S64_S1x64_1 a4
  let v7 : FVec Ideal S1000000x64 .f32 := broadcastInDim S1000000x64 ![0, 1] bcast_S1x64_S1000000x64_0_1 v6
  let v8 : FVec Ideal S1000000x64 .f32 := addf v5 v7
  let call0_c : IVec S_ 32 := constantI S_ 32 0#32
  let call0_v0 : IVec S1000000 32 := broadcastInDim S1000000 ![] bcast_S_S1000000 call0_c
  let call0_v1 : IVec S1000000 1 := cmpi .slt v1 call0_v0
  let call0_c_0 : IVec S_ 32 := constantI S_ 32 50000#32
  let call0_v2 : IVec S1000000 32 := broadcastInDim S1000000 ![] bcast_S_S1000000 call0_c_0
  let call0_v3 : IVec S1000000 32 := addi v1 call0_v2
  let call0_v4 : IVec S1000000 32 := select call0_v1 call0_v3 v1
  let call0_v5 : IVec S1000000x1 32 := broadcastInDim S1000000x1 ![0] bcast_S1000000_S1000000x1_0 call0_v4
  let call0_c_1 : IVec S1 32 := constantI S1 32 49999#32
  let call0_c_2 : IVec S_ 32 := constantI S_ 32 0#32
  let call0_v6 : IVec S1000000x1 32 := broadcastInDim S1000000x1 ![] bcast_S_S1000000x1 call0_c_2
  let call0_v7 : IVec S1000000x1 1 := cmpi .sge call0_v5 call0_v6
  let call0_v8 : IVec S1x1 32 := broadcastInDim S1x1 ![1] bcast_S1_S1x1_1 call0_c_1
  let call0_v9 : IVec S1000000x1 32 := broadcastInDim S1000000x1 ![0, 1] bcast_S1x1_S1000000x1_0_1 call0_v8
  let call0_v10 : IVec S1000000x1 1 := cmpi .sle call0_v5 call0_v9
  let call0_v11 : IVec S1000000x1 1 := andi call0_v7 call0_v10
  let call0_c_3 : IVec S_ 1 := constantI S_ 1 1#1
  let call0_v12 : IVec S1000000 1 := Host.reduce IntOp.andi call0_v11 call0_c_3 reducesTo_S1000000x1_S1000000_d1 h_S_
  let call0_v13 : FVec Ideal S1000000x64 .f32 := Host.gather gather_S50000x64_S1000000x1_S1000000x64_1_0_n_n_0_1_164 a0 call0_v5
  let call0_v14 : IVec S1000000x64 1 := broadcastInDim S1000000x64 ![0] bcast_S1000000_S1000000x64_0 call0_v12
  let call0_cst : FVec Ideal S_ .f32 := constant (F := Ideal) S_ .f32 0x7FC00000#32
  let call0_v15 : FVec Ideal S1000000x64 .f32 := broadcastInDim S1000000x64 ![] bcast_S_S1000000x64 call0_cst
  let v9 : FVec Ideal S1000000x64 .f32 := select call0_v14 call0_v13 call0_v15
  let v10 : FVec Ideal S1000000x64 .f32 := addf v9 v8
  let call1_cst : FVec Ideal S_ .f32 := constant (F := Ideal) S_ .f32 0x00000000#32
  let call1_v0 : FVec Ideal S1000000x64 .f32 := broadcastInDim S1000000x64 ![] bcast_S_S1000000x64 call1_cst
  let v11 : FVec Ideal S1000000x64 .f32 := maximumf v10 call1_v0
  let cst : FVec Ideal S_ .f32 := constant (F := Ideal) S_ .f32 0x00000000#32
  let v12 : FVec Ideal S50000x64 .f32 := broadcastInDim S50000x64 ![] bcast_S_S50000x64 cst
  let v13 : IVec S1000000x1 32 := broadcastInDim S1000000x1 ![0] bcast_S1000000_S1000000x1_0 v3
  Host.scatterAdd (F := Ideal) scatter_S50000x64_S1000000x1_S1000000x64_1_0_0_1 v12 v13 v11

end Cert.KernelIdeal.KHost

end
-- ==== Proof.KHost.lean ====
/-
  The kernel program's host operations read back.

  Around its two kernel regions the program computes on the host. Before the first region: the aggregated
  messages (a function of the arguments alone) and the first bias as a row. Between the regions: the column
  statistics. The first region leaves, for each of its ten tiles, a block of eight rows of 64 of which row 0
  holds the tile's column sums and row 1 the tile's column sums of squares; the host adds the ten tiles' rows,
  divides by the number of rows, and forms the variance as the mean of the squares minus the square of the
  mean; it also lays the scale, the shift and the second bias out as rows. This module reads each buffer a
  region enters with back to these terms.
-/
import proofs.«400297_j2095944040567_3_alg».proof.Proof.Gen.KernelIdeal.Frame
import proofs.«400297_j2095944040567_3_alg».proof.Proof.KTerm
import proofs.«400297_j2095944040567_3_alg».proof.Proof.Spec
import Idealize.ShloMosaic.Lib.StableHlo.Run
import Idealize.ShloMosaic.Lib.Pipeline.Value
import Idealize.ShloMosaic.Lib.ValueLayout
import Idealize.ShloMosaic.PureOps.Ideal.Laws
import Idealize.ShloMosaic.Lib.IdealHost

set_option maxRecDepth 16384

noncomputable section

namespace Cert.KernelIdeal.KHost

open Idealize.ShloMosaic Idealize.ShloMosaic.ValueIdx Idealize.SL.Sem Idealize.ShloMosaic.TcCoe
open Cert.KernelIdeal Cert.KernelIdeal.Gen

variable (m : (ℓ : Loc nD τ sig) → Buf (Elt Ideal) ℓ) (ρ : Dev nD → PrngReg)

/-- Closes `StableHlo.after ops V r = V r` for a literal stretch none of whose operations writes `r`. -/
local macro "keeps" ops:ident : tactic => `(tactic| (
  refine StableHlo.after_of_forall_not_mem _ _ (List.forall_iff_forall_mem.mp ?_)
  simp only [$ops:ident, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ## The arguments at the first region's entry -/

/-- A buffer none of the five stretches before the first region writes holds at that region's entry what it
    held at launch. -/
theorem W5_of_keeps (c : Dev nD) (r : Ref sig .tc)
    (h0 : ∀ V : Valuation τ sig (Elt Ideal), StableHlo.after hostOps0 V (Proc.devRef .tc r) = V (Proc.devRef .tc r))
    (h1 : ∀ V : Valuation τ sig (Elt Ideal), StableHlo.after hostOps0_1 V (Proc.devRef .tc r) = V (Proc.devRef .tc r))
    (h2 : ∀ V : Valuation τ sig (Elt Ideal), StableHlo.after hostOps0_2 V (Proc.devRef .tc r) = V (Proc.devRef .tc r))
    (h3 : ∀ V : Valuation τ sig (Elt Ideal), StableHlo.after hostOps0_3 V (Proc.devRef .tc r) = V (Proc.devRef .tc r))
    (h4 : ∀ V : Valuation τ sig (Elt Ideal), StableHlo.after hostOps0_4 V (Proc.devRef .tc r) = V (Proc.devRef .tc r)) :
    W5 m ρ c (Proc.devRef .tc r) = m ((c : Thread nD τ).loc r) :=
  (h4 _).trans ((h3 _).trans ((h2 _).trans ((h1 _).trans (h0 _))))

theorem W5_arg0 (c : Dev nD) : W5 m ρ c (Proc.devRef .tc main_arg0) = m ((c : Thread nD τ).loc main_arg0) :=
  W5_of_keeps m ρ c main_arg0 (fun V => by keeps hostOps0) (fun V => by keeps hostOps0_1) (fun V => by keeps hostOps0_2)
    (fun V => by keeps hostOps0_3) (fun V => by keeps hostOps0_4)
theorem W5_arg5 (c : Dev nD) : W5 m ρ c (Proc.devRef .tc main_arg5) = m ((c : Thread nD τ).loc main_arg5) :=
  W5_of_keeps m ρ c main_arg5 (fun V => by keeps hostOps0) (fun V => by keeps hostOps0_1) (fun V => by keeps hostOps0_2)
    (fun V => by keeps hostOps0_3) (fun V => by keeps hostOps0_4)
theorem W5_arg7 (c : Dev nD) : W5 m ρ c (Proc.devRef .tc main_arg7) = m ((c : Thread nD τ).loc main_arg7) :=
  W5_of_keeps m ρ c main_arg7 (fun V => by keeps hostOps0) (fun V => by keeps hostOps0_1) (fun V => by keeps hostOps0_2)
    (fun V => by keeps hostOps0_3) (fun V => by keeps hostOps0_4)
theorem W5_arg8 (c : Dev nD) : W5 m ρ c (Proc.devRef .tc main_arg8) = m ((c : Thread nD τ).loc main_arg8) :=
  W5_of_keeps m ρ c main_arg8 (fun V => by keeps hostOps0) (fun V => by keeps hostOps0_1) (fun V => by keeps hostOps0_2)
    (fun V => by keeps hostOps0_3) (fun V => by keeps hostOps0_4)
theorem W5_arg9 (c : Dev nD) : W5 m ρ c (Proc.devRef .tc main_arg9) = m ((c : Thread nD τ).loc main_arg9) :=
  W5_of_keeps m ρ c main_arg9 (fun V => by keeps hostOps0) (fun V => by keeps hostOps0_1) (fun V => by keeps hostOps0_2)
    (fun V => by keeps hostOps0_3) (fun V => by keeps hostOps0_4)
theorem W5_arg10 (c : Dev nD) : W5 m ρ c (Proc.devRef .tc main_arg10) = m ((c : Thread nD τ).loc main_arg10) :=
  W5_of_keeps m ρ c main_arg10 (fun V => by keeps hostOps0) (fun V => by keeps hostOps0_1) (fun V => by keeps hostOps0_2)
    (fun V => by keeps hostOps0_3) (fun V => by keeps hostOps0_4)

theorem V5_arg0 (c : Dev nD) :
    (V5 m ρ c main_arg0 : FVec Ideal S50000x64 .f32) = m ((c : Thread nD τ).loc main_arg0) := W5_arg0 m ρ c

theorem V5_arg5 (c : Dev nD) :
    (V5 m ρ c main_arg5 : FVec Ideal S64x64 .f32) = m ((c : Thread nD τ).loc main_arg5) := W5_arg5 m ρ c

/-! ## A row layout read at a column -/

/-- A vector of 64 laid out as one row, read at a column. -/
theorem row64_apply (v : FVec Ideal S64 .f32) (j : Fin 64) :
    shapeCast S1x64 v shapeCasts_S64_S1x64 (ix2 (0 : Fin 1) j) = v (ix1 j) := by
  refine shapeCast_apply _ _ _ (ix1 j) ?_
  rw [Shape.rowMajor_val_one, Shape.rowMajor_val_two]
  show j.val = 0 * 64 + j.val
  omega

/-! ## The edge stage as pure terms, piece by piece -/

/-- The edges' source indices: row 0 of the index array. -/
def srcK (a1 : IVec S2x1000000 32) : IVec S1000000 32 :=
  shapeCast S1000000 (extractStridedSlice S1x1000000 ![0, 0] a1 slices_S2x1000000_S1x1000000_0_0)
    shapeCasts_S1x1000000_S1000000

/-- The edges' destination indices: row 1 of the index array. -/
def dstK (a1 : IVec S2x1000000 32) : IVec S1000000 32 :=
  shapeCast S1000000 (extractStridedSlice S1x1000000 ![1, 0] a1 slices_S2x1000000_S1x1000000_1_0)
    shapeCasts_S1x1000000_S1000000

/-- The edges' linear image: the edge features against the transposed edge weights, plus the edge bias on every row. -/
def edgeLin (a2 : FVec Ideal S1000000x16 .f32) (a3 : FVec Ideal S64x16 .f32) (a4 : FVec Ideal S64 .f32) :
    FVec Ideal S1000000x64 .f32 :=
  addf
    (Host.dotGeneral (F := Ideal) dot_S1000000x16_S16x64_S1000000x64_1_0_0_1_n_n none a2
      (transpose S16x64 [1, 0] a3 transposes_S64x16_S16x64_1_0))
    (broadcastInDim S1000000x64 ![0, 1] bcast_S1x64_S1000000x64_0_1 (broadcastInDim S1x64 ![1] bcast_S64_S1x64_1 a4))

/-- The wrapped source index of each edge, as a column. -/
def idxK (v1 : IVec S1000000 32) : IVec S1000000x1 32 :=
  broadcastInDim S1000000x1 ![0] bcast_S1000000_S1000000x1_0
    (select (cmpi .slt v1 (broadcastInDim S1000000 ![] bcast_S_S1000000 (constantI S_ 32 0#32)))
      (addi v1 (broadcastInDim S1000000 ![] bcast_S_S1000000 (constantI S_ 32 50000#32))) v1)

/-- Whether each edge's wrapped source index falls inside the rows. -/
def maskK (v5 : IVec S1000000x1 32) : IVec S1000000 1 :=
  Host.reduce IntOp.andi
    (andi (cmpi .sge v5 (broadcastInDim S1000000x1 ![] bcast_S_S1000000x1 (constantI S_ 32 0#32)))
      (cmpi .sle v5
        (broadcastInDim S1000000x1 ![0, 1] bcast_S1x1_S1000000x1_0_1
          (broadcastInDim S1x1 ![1] bcast_S1_S1x1_1 (constantI S1 32 49999#32)))))
    (constantI S_ 1 1#1) reducesTo_S1000000x1_S1000000_d1 h_S_

/-- The gathered source rows, the fill word where the wrapped index falls outside the rows. -/
def pickK (a0 : FVec Ideal S50000x64 .f32) (v5 : IVec S1000000x1 32) (v12 : IVec S1000000 1) : FVec Ideal S1000000x64 .f32 :=
  select (broadcastInDim S1000000x64 ![0] bcast_S1000000_S1000000x64_0 v12)
    (Host.gather gather_S50000x64_S1000000x1_S1000000x64_1_0_n_n_0_1_164 a0 v5)
    (broadcastInDim S1000000x64 ![] bcast_S_S1000000x64 (constant (F := Ideal) S_ .f32 0x7FC00000#32))

/-- The rows summed into their destination rows of a zero array. -/
def scatK (v3 : IVec S1000000 32) (v11 : FVec Ideal S1000000x64 .f32) : FVec Ideal S50000x64 .f32 :=
  Host.scatterAdd (F := Ideal) scatter_S50000x64_S1000000x1_S1000000x64_1_0_0_1
    (broadcastInDim S50000x64 ![] bcast_S_S50000x64 (constant (F := Ideal) S_ .f32 0x00000000#32))
    (broadcastInDim S1000000x1 ![0] bcast_S1000000_S1000000x1_0 v3) v11

/-- The gathered rows plus the edges' linear image. -/
def addK (v9 v8 : FVec Ideal S1000000x64 .f32) : FVec Ideal S1000000x64 .f32 := addf v9 v8

/-- The clamp at zero from below. -/
def reluK (v10 : FVec Ideal S1000000x64 .f32) : FVec Ideal S1000000x64 .f32 :=
  maximumf v10 (broadcastInDim S1000000x64 ![] bcast_S_S1000000x64 (constant (F := Ideal) S_ .f32 0x00000000#32))

/-- The aggregated messages are these pieces composed. -/
theorem aggK_eq (a0 : FVec Ideal S50000x64 .f32) (a1 : IVec S2x1000000 32) (a2 : FVec Ideal S1000000x16 .f32)
    (a3 : FVec Ideal S64x16 .f32) (a4 : FVec Ideal S64 .f32) :
    aggK a0 a1 a2 a3 a4
      = scatK (dstK a1)
          (reluK (addK (pickK a0 (idxK (srcK a1)) (maskK (idxK (srcK a1)))) (edgeLin a2 a3 a4))) := rfl

/-! ## The stretches before the first region, from any contents -/

theorem after00_v1 (V : Valuation τ sig (Elt Ideal)) :
    (StableHlo.after hostOps0 V (Proc.devRef .tc main_v1) : IVec S1000000 32) = srcK (V (Proc.devRef .tc main_arg1)) := by
  after_results; rfl

theorem after00_v3 (V : Valuation τ sig (Elt Ideal)) :
    (StableHlo.after hostOps0 V (Proc.devRef .tc main_v3) : IVec S1000000 32) = dstK (V (Proc.devRef .tc main_arg1)) := by
  after_results; rfl

theorem after00_v8 (V : Valuation τ sig (Elt Ideal)) :
    (StableHlo.after hostOps0 V (Proc.devRef .tc main_v8) : FVec Ideal S1000000x64 .f32)
      = edgeLin (V (Proc.devRef .tc main_arg2)) (V (Proc.devRef .tc main_arg3)) (V (Proc.devRef .tc main_arg4)) := by
  after_results; rfl

/-- The gather's stretch cut in three: the wrapped index, the range test, the gather and its fill. -/
abbrev take1 : List (HloOp τ sig (Elt Ideal)) := (hostOps0_1 (F := Ideal)).take 8
abbrev take2 : List (HloOp τ sig (Elt Ideal)) := ((hostOps0_1 (F := Ideal)).drop 8).take 10
abbrev take3 : List (HloOp τ sig (Elt Ideal)) := (hostOps0_1 (F := Ideal)).drop 18

theorem take_split : (hostOps0_1 (F := Ideal)) = take1 ++ (take2 ++ take3) := rfl

theorem take1_v5 (V : Valuation τ sig (Elt Ideal)) :
    (StableHlo.after take1 V (Proc.devRef .tc main_call0_v5) : IVec S1000000x1 32) = idxK (V (Proc.devRef .tc main_v1)) := by
  show StableHlo.after [_, _, _, _, _, _, _, _] V _ = _
  after_results_simp
  rfl

theorem take1_arg0 (V : Valuation τ sig (Elt Ideal)) :
    StableHlo.after take1 V (Proc.devRef .tc main_arg0) = V (Proc.devRef .tc main_arg0) := by
  show StableHlo.after [_, _, _, _, _, _, _, _] V _ = _
  after_results_simp

theorem take2_v12 (V : Valuation τ sig (Elt Ideal)) :
    (StableHlo.after take2 V (Proc.devRef .tc main_call0_v12) : IVec S1000000 1) = maskK (V (Proc.devRef .tc main_call0_v5)) := by
  show StableHlo.after [_, _, _, _, _, _, _, _, _, _] V _ = _
  after_results_simp
  simp only [StableHlo.TRef.ofBuf, StableHlo.TRef.toBuf, cast_eq]
  rfl

theorem take2_v5 (V : Valuation τ sig (Elt Ideal)) :
    StableHlo.after take2 V (Proc.devRef .tc main_call0_v5) = V (Proc.devRef .tc main_call0_v5) := by
  show StableHlo.after [_, _, _, _, _, _, _, _, _, _] V _ = _
  after_results_simp

theorem take2_arg0 (V : Valuation τ sig (Elt Ideal)) :
    StableHlo.after take2 V (Proc.devRef .tc main_arg0) = V (Proc.devRef .tc main_arg0) := by
  show StableHlo.after [_, _, _, _, _, _, _, _, _, _] V _ = _
  after_results_simp

theorem take3_v9 (V : Valuation τ sig (Elt Ideal)) :
    (StableHlo.after take3 V (Proc.devRef .tc main_v9) : FVec Ideal S1000000x64 .f32)
      = pickK (V (Proc.devRef .tc main_arg0)) (V (Proc.devRef .tc main_call0_v5)) (V (Proc.devRef .tc main_call0_v12)) := by
  show StableHlo.after [_, _, _, _, _] V _ = _
  after_results_simp
  simp only [StableHlo.TRef.ofBuf, StableHlo.TRef.toBuf, cast_eq]
  rfl

/-- The gathered source rows after the gather's stretch, from any contents. -/
theorem after01_v9 (V : Valuation τ sig (Elt Ideal)) :
    (StableHlo.after hostOps0_1 V (Proc.devRef .tc main_v9) : FVec Ideal S1000000x64 .f32)
      = pickK (V (Proc.devRef .tc main_arg0)) (idxK (V (Proc.devRef .tc main_v1)))
          (maskK (idxK (V (Proc.devRef .tc main_v1)))) := by
  show StableHlo.after (take1 ++ (take2 ++ take3)) V _ = _
  rw [StableHlo.after_append, StableHlo.after_append]
  refine (take3_v9 _).trans ?_
  rw [take2_v12, take2_v5, take2_arg0, take1_v5, take1_arg0]

theorem after02_v10 (V : Valuation τ sig (Elt Ideal)) :
    (StableHlo.after hostOps0_2 V (Proc.devRef .tc main_v10) : FVec Ideal S1000000x64 .f32)
      = addK (V (Proc.devRef .tc main_v9)) (V (Proc.devRef .tc main_v8)) := by
  after_results; rfl

theorem after03_v11 (V : Valuation τ sig (Elt Ideal)) :
    (StableHlo.after hostOps0_3 V (Proc.devRef .tc main_v11) : FVec Ideal S1000000x64 .f32)
      = reluK (V (Proc.devRef .tc main_v10)) := by
  after_results_simp
  simp only [StableHlo.TRef.ofBuf, StableHlo.TRef.toBuf, cast_eq]
  rfl

theorem after04_v14 (V : Valuation τ sig (Elt Ideal)) :
    (StableHlo.after hostOps0_4 V (Proc.devRef .tc main_v14) : FVec Ideal S50000x64 .f32)
      = scatK (V (Proc.devRef .tc main_v3)) (V (Proc.devRef .tc main_v11)) := by
  after_results; rfl

theorem after04_v15 (V : Valuation τ sig (Elt Ideal)) :
    (StableHlo.after hostOps0_4 V (Proc.devRef .tc main_v15) : FVec Ideal S1x64 .f32)
      = shapeCast S1x64 (V (Proc.devRef .tc main_arg6) : FVec Ideal S64 .f32) shapeCasts_S64_S1x64 := by
  after_results; rfl

/-! ## The first region's entry: the aggregated messages and the first bias -/

/-- The destination indices at the last stretch's entry: none of the three stretches after the first writes them. -/
theorem W4_v3 (c : Dev nD) :
    (W4 m ρ c (Proc.devRef .tc main_v3) : IVec S1000000 32) = dstK (m ((c : Thread nD τ).loc main_arg1)) :=
  calc (W4 m ρ c (Proc.devRef .tc main_v3) : IVec S1000000 32)
    _ = W3 m ρ c (Proc.devRef .tc main_v3) := by
        show StableHlo.after hostOps0_3 (W3 m ρ c) (Proc.devRef .tc main_v3) = _; keeps hostOps0_3
    _ = W2 m ρ c (Proc.devRef .tc main_v3) := by
        show StableHlo.after hostOps0_2 (W2 m ρ c) (Proc.devRef .tc main_v3) = _; keeps hostOps0_2
    _ = W1 m ρ c (Proc.devRef .tc main_v3) := by
        show StableHlo.after hostOps0_1 (W1 m ρ c) (Proc.devRef .tc main_v3) = _; keeps hostOps0_1
    _ = _ := after00_v3 (W0 m ρ c)

/-- The edges' linear image after the gather's stretch: that stretch does not write it. -/
theorem W2_v8 (c : Dev nD) :
    (W2 m ρ c (Proc.devRef .tc main_v8) : FVec Ideal S1000000x64 .f32)
      = edgeLin (m ((c : Thread nD τ).loc main_arg2)) (m ((c : Thread nD τ).loc main_arg3))
          (m ((c : Thread nD τ).loc main_arg4)) :=
  calc (W2 m ρ c (Proc.devRef .tc main_v8) : FVec Ideal S1000000x64 .f32)
    _ = W1 m ρ c (Proc.devRef .tc main_v8) := by
        show StableHlo.after hostOps0_1 (W1 m ρ c) (Proc.devRef .tc main_v8) = _; keeps hostOps0_1
    _ = _ := after00_v8 (W0 m ρ c)

/-- The gathered source rows after the gather's stretch. -/
theorem W2_v9 (c : Dev nD) :
    (W2 m ρ c (Proc.devRef .tc main_v9) : FVec Ideal S1000000x64 .f32)
      = pickK (m ((c : Thread nD τ).loc main_arg0)) (idxK (srcK (m ((c : Thread nD τ).loc main_arg1))))
          (maskK (idxK (srcK (m ((c : Thread nD τ).loc main_arg1))))) := by
  have e0 : (W1 m ρ c (Proc.devRef .tc main_arg0) : FVec Ideal S50000x64 .f32) = m ((c : Thread nD τ).loc main_arg0) := by
    show StableHlo.after hostOps0 (W0 m ρ c) (Proc.devRef .tc main_arg0) = _; keeps hostOps0
  have e1 : (W1 m ρ c (Proc.devRef .tc main_v1) : IVec S1000000 32) = srcK (m ((c : Thread nD τ).loc main_arg1)) :=
    after00_v1 (W0 m ρ c)
  refine (after01_v9 (W1 m ρ c)).trans ?_
  rw [e0, e1]

theorem V5_v14 (c : Dev nD) :
    (V5 m ρ c main_v14 : FVec Ideal S50000x64 .f32)
      = aggK (m ((c : Thread nD τ).loc main_arg0)) (m ((c : Thread nD τ).loc main_arg1))
          (m ((c : Thread nD τ).loc main_arg2)) (m ((c : Thread nD τ).loc main_arg3))
          (m ((c : Thread nD τ).loc main_arg4)) := by
  rw [aggK_eq]
  refine (after04_v14 (W4 m ρ c)).trans ?_
  rw [W4_v3]
  refine congrArg (scatK _) ?_
  refine (after03_v11 (W3 m ρ c)).trans (congrArg reluK ?_)
  refine (after02_v10 (W2 m ρ c)).trans ?_
  rw [W2_v9, W2_v8]

theorem V5_v15 (c : Dev nD) (j : Fin 64) :
    (V5 m ρ c main_v15 : FVec Ideal S1x64 .f32) (ix2 (0 : Fin 1) j)
      = (m ((c : Thread nD τ).loc main_arg6) : FVec Ideal S64 .f32) (ix1 j) := by
  have e6 : (W4 m ρ c (Proc.devRef .tc main_arg6) : FVec Ideal S64 .f32) = m ((c : Thread nD τ).loc main_arg6) :=
    calc (W4 m ρ c (Proc.devRef .tc main_arg6) : FVec Ideal S64 .f32)
      _ = W3 m ρ c (Proc.devRef .tc main_arg6) := by
          show StableHlo.after hostOps0_3 (W3 m ρ c) (Proc.devRef .tc main_arg6) = _; keeps hostOps0_3
      _ = W2 m ρ c (Proc.devRef .tc main_arg6) := by
          show StableHlo.after hostOps0_2 (W2 m ρ c) (Proc.devRef .tc main_arg6) = _; keeps hostOps0_2
      _ = W1 m ρ c (Proc.devRef .tc main_arg6) := by
          show StableHlo.after hostOps0_1 (W1 m ρ c) (Proc.devRef .tc main_arg6) = _; keeps hostOps0_1
      _ = W0 m ρ c (Proc.devRef .tc main_arg6) := by
          show StableHlo.after hostOps0 (W0 m ρ c) (Proc.devRef .tc main_arg6) = _; keeps hostOps0
      _ = _ := rfl
  refine (congrFun (after04_v15 (W4 m ρ c)) _).trans ?_
  refine (row64_apply _ j).trans ?_
  exact congrFun e6 (ix1 j)

/-! ## The column statistics as pure terms of the statistics array -/

/-- The ten tiles' rows 0 added and divided by the number of rows, as the host computes it. -/
def meanVec (st : FVec Ideal S80x64 .f32) : FVec Ideal S64 .f32 :=
  Host.divf (F := Ideal)
    (Host.reduceAdd (F := Ideal)
      (shapeCast S10x64
        (extractStridedSlice S10x1x64 ![0, 0, 0] (shapeCast S10x8x64 st shapeCasts_S80x64_S10x8x64)
          slices_S10x8x64_S10x1x64_0_0_0)
        shapeCasts_S10x1x64_S10x64)
      (constant (F := Ideal) S_ .f32 0x00000000#32) reducesTo_S10x64_S64_d0 h_S_)
    (broadcastInDim S64 ![] bcast_S_S64 (constant (F := Ideal) S_ .f32 0x47435000#32))

/-- The ten tiles' rows 1 added and divided by the number of rows, as the host computes it. -/
def sqVec (st : FVec Ideal S80x64 .f32) : FVec Ideal S64 .f32 :=
  Host.divf (F := Ideal)
    (Host.reduceAdd (F := Ideal)
      (shapeCast S10x64
        (extractStridedSlice S10x1x64 ![0, 1, 0] (shapeCast S10x8x64 st shapeCasts_S80x64_S10x8x64)
          slices_S10x8x64_S10x1x64_0_1_0)
        shapeCasts_S10x1x64_S10x64)
      (constant (F := Ideal) S_ .f32 0x00000000#32) reducesTo_S10x64_S64_d0 h_S_)
    (broadcastInDim S64 ![] bcast_S_S64 (constant (F := Ideal) S_ .f32 0x47435000#32))

theorem red10 : S10x64.Reduces [0] S64 := by decide

/-- Row `r` of tile `t`'s block of eight rows, read through the host's reshapes and slice: the statistics array's
    row `8 t + r`. -/
theorem tileRow_apply (st : FVec Ideal S80x64 .f32) (r : Fin 8) (hs : S10x8x64.Slices ![0, r.val, 0] S10x1x64)
    (t : Fin 10) (j : Fin 64) (k : S10x64.Idx) (hk0 : (k 0).val = t.val) (hk1 : (k 1).val = j.val) :
    shapeCast S10x64
        (extractStridedSlice S10x1x64 ![0, r.val, 0] (shapeCast S10x8x64 st shapeCasts_S80x64_S10x8x64) hs)
        shapeCasts_S10x1x64_S10x64 k
      = st (ix2 (⟨8 * t.val + r.val, by omega⟩ : Fin 80) j) := by
  refine (shapeCast_apply _ _ k (ix3 t (0 : Fin 1) j) ?_).trans ?_
  · rw [Shape.rowMajor_val_three, Shape.rowMajor_val_two]
    show (t.val * 1 + 0) * 64 + j.val = (k 0).val * 64 + (k 1).val
    omega
  refine (extractStridedSlice_apply _ _ hs _ (ix3 t r j) ?_).trans ?_
  · intro a
    match a with
    | ⟨0, _⟩ => show t.val = 0 + t.val; omega
    | ⟨1, _⟩ => show r.val = r.val + 0; omega
    | ⟨2, _⟩ => show j.val = 0 + j.val; omega
  refine shapeCast_apply _ _ (ix3 t r j) (ix2 (⟨8 * t.val + r.val, by omega⟩ : Fin 80) j) ?_
  rw [Shape.rowMajor_val_three, Shape.rowMajor_val_two]
  show (8 * t.val + r.val) * 64 + j.val = (t.val * 8 + r.val) * 64 + j.val
  omega

theorem meanVec_apply (st : FVec Ideal S80x64 .f32) (j : Fin 64) :
    meanVec st (ix1 j) = Ideal.div (∑ t : Fin 10, st (ix2 (⟨8 * t.val, by omega⟩ : Fin 80) j)) Cert.Gine.cN := by
  unfold meanVec
  rw [hostDivf_apply, hostReduceAdd_apply, Ideal.hostReduceAdd_single reducesTo_S10x64_S64_d0 red10]
  rw [broadcastInDim_scalar_apply, constant_apply, constant_apply, Ideal.ofBits_zero_f32, zero_add]
  refine congrArg (fun s => Ideal.div s Cert.Gine.cN) ?_
  show (∑ t : Fin 10, _) = _
  refine Finset.sum_congr rfl fun t _ => ?_
  exact tileRow_apply st (0 : Fin 8) slices_S10x8x64_S10x1x64_0_0_0 t j _ rfl rfl

theorem sqVec_apply (st : FVec Ideal S80x64 .f32) (j : Fin 64) :
    sqVec st (ix1 j) = Ideal.div (∑ t : Fin 10, st (ix2 (⟨8 * t.val + 1, by omega⟩ : Fin 80) j)) Cert.Gine.cN := by
  unfold sqVec
  rw [hostDivf_apply, hostReduceAdd_apply, Ideal.hostReduceAdd_single reducesTo_S10x64_S64_d0 red10]
  rw [broadcastInDim_scalar_apply, constant_apply, constant_apply, Ideal.ofBits_zero_f32, zero_add]
  refine congrArg (fun s => Ideal.div s Cert.Gine.cN) ?_
  show (∑ t : Fin 10, _) = _
  refine Finset.sum_congr rfl fun t _ => ?_
  exact tileRow_apply st (1 : Fin 8) slices_S10x8x64_S10x1x64_0_1_0 t j _ rfl rfl

/-! ## The stretch between the regions, from any contents -/

theorem after1_v30 (V : Valuation τ sig (Elt Ideal)) :
    (StableHlo.after hostOps1 V (Proc.devRef .tc main_v30) : FVec Ideal S1x64 .f32)
      = shapeCast S1x64 (meanVec (V (Proc.devRef .tc main_v16_1))) shapeCasts_S64_S1x64 := by
  after_results; rfl

theorem after1_v31 (V : Valuation τ sig (Elt Ideal)) :
    (StableHlo.after hostOps1 V (Proc.devRef .tc main_v31) : FVec Ideal S1x64 .f32)
      = shapeCast S1x64 (subf (sqVec (V (Proc.devRef .tc main_v16_1)))
          (mulf (meanVec (V (Proc.devRef .tc main_v16_1))) (meanVec (V (Proc.devRef .tc main_v16_1)))))
          shapeCasts_S64_S1x64 := by
  after_results; rfl

/-! ## The second region's entry -/

/-- What the first region leaves in its feature output. -/
abbrev H1 (c : Dev nD) : FVec Ideal S50000x64 .f32 := (dat0 (F := Ideal) (V5 m ρ) c).arrAt 4 cfg0.N
/-- What the first region leaves in its statistics output. -/
abbrev ST (c : Dev nD) : FVec Ideal S80x64 .f32 := (dat0 (F := Ideal) (V5 m ρ) c).arrAt 5 cfg0.N

theorem V7_v16_0 (c : Dev nD) : (V7 m ρ c main_v16_0 : FVec Ideal S50000x64 .f32) = H1 m ρ c := by
  show StableHlo.after hostOps1 (W6 m ρ c) (Proc.devRef .tc main_v16_0) = _
  refine (by keeps hostOps1 : _ = W6 m ρ c (Proc.devRef .tc main_v16_0)).trans ?_
  exact W6_arr m ρ c 4

/-- The statistics array at the first region's exit. -/
theorem W6_v16_1 (c : Dev nD) : (W6 m ρ c (Proc.devRef .tc main_v16_1) : FVec Ideal S80x64 .f32) = ST m ρ c :=
  W6_arr m ρ c 5

/-- The column mean the host forms: the ten tiles' rows 0 added, over the number of rows. -/
def meanK (c : Dev nD) (j : Fin 64) : EReal :=
  Ideal.div (∑ t : Fin 10, ST m ρ c (ix2 (⟨8 * t.val, by omega⟩ : Fin 80) j)) Cert.Gine.cN

theorem V7_v30 (c : Dev nD) (j : Fin 64) :
    (V7 m ρ c main_v30 : FVec Ideal S1x64 .f32) (ix2 (0 : Fin 1) j) = meanK m ρ c j := by
  show (StableHlo.after hostOps1 (W6 m ρ c) (Proc.devRef .tc main_v30) : FVec Ideal S1x64 .f32) (ix2 (0 : Fin 1) j) = _
  refine (congrFun (after1_v30 (W6 m ρ c)) _).trans ?_
  refine (row64_apply _ j).trans ?_
  refine (congrFun (congrArg meanVec (W6_v16_1 m ρ c)) _).trans ?_
  exact meanVec_apply _ j

theorem V7_v31 (c : Dev nD) (j : Fin 64) :
    (V7 m ρ c main_v31 : FVec Ideal S1x64 .f32) (ix2 (0 : Fin 1) j)
      = Ideal.div (∑ t : Fin 10, ST m ρ c (ix2 (⟨8 * t.val + 1, by omega⟩ : Fin 80) j)) Cert.Gine.cN
        - meanK m ρ c j * meanK m ρ c j := by
  show (StableHlo.after hostOps1 (W6 m ρ c) (Proc.devRef .tc main_v31) : FVec Ideal S1x64 .f32) (ix2 (0 : Fin 1) j) = _
  refine (congrFun (after1_v31 (W6 m ρ c)) _).trans ?_
  refine (row64_apply _ j).trans ?_
  show sqVec (W6 m ρ c (Proc.devRef .tc main_v16_1)) (ix1 j)
      - meanVec (W6 m ρ c (Proc.devRef .tc main_v16_1)) (ix1 j) * meanVec (W6 m ρ c (Proc.devRef .tc main_v16_1)) (ix1 j) = _
  have e : (W6 m ρ c (Proc.devRef .tc main_v16_1) : FVec Ideal S80x64 .f32) = ST m ρ c := W6_v16_1 m ρ c
  rw [e, sqVec_apply, meanVec_apply]
  rfl

/-- An argument vector of 64 no stretch and no region writes, laid out as a row between the regions. -/
theorem W6_arg7 (c : Dev nD) : W6 m ρ c (Proc.devRef .tc main_arg7) = m ((c : Thread nD τ).loc main_arg7) :=
  (W6_of_ne m ρ c main_arg7 (by decide)).trans (W5_arg7 m ρ c)
theorem W6_arg8 (c : Dev nD) : W6 m ρ c (Proc.devRef .tc main_arg8) = m ((c : Thread nD τ).loc main_arg8) :=
  (W6_of_ne m ρ c main_arg8 (by decide)).trans (W5_arg8 m ρ c)
theorem W6_arg9 (c : Dev nD) : W6 m ρ c (Proc.devRef .tc main_arg9) = m ((c : Thread nD τ).loc main_arg9) :=
  (W6_of_ne m ρ c main_arg9 (by decide)).trans (W5_arg9 m ρ c)
theorem W6_arg10 (c : Dev nD) : W6 m ρ c (Proc.devRef .tc main_arg10) = m ((c : Thread nD τ).loc main_arg10) :=
  (W6_of_ne m ρ c main_arg10 (by decide)).trans (W5_arg10 m ρ c)

theorem after1_v32 (V : Valuation τ sig (Elt Ideal)) :
    (StableHlo.after hostOps1 V (Proc.devRef .tc main_v32) : FVec Ideal S1x64 .f32)
      = shapeCast S1x64 (V (Proc.devRef .tc main_arg7)) shapeCasts_S64_S1x64 := by
  after_results; rfl
theorem after1_v33 (V : Valuation τ sig (Elt Ideal)) :
    (StableHlo.after hostOps1 V (Proc.devRef .tc main_v33) : FVec Ideal S1x64 .f32)
      = shapeCast S1x64 (V (Proc.devRef .tc main_arg8)) shapeCasts_S64_S1x64 := by
  after_results; rfl
theorem after1_v34 (V : Valuation τ sig (Elt Ideal)) :
    (StableHlo.after hostOps1 V (Proc.devRef .tc main_v34) : FVec Ideal S1x64 .f32)
      = shapeCast S1x64 (V (Proc.devRef .tc main_arg10)) shapeCasts_S64_S1x64 := by
  after_results; rfl

theorem V7_v32 (c : Dev nD) (j : Fin 64) :
    (V7 m ρ c main_v32 : FVec Ideal S1x64 .f32) (ix2 (0 : Fin 1) j)
      = (m ((c : Thread nD τ).loc main_arg7) : FVec Ideal S64 .f32) (ix1 j) := by
  show (StableHlo.after hostOps1 (W6 m ρ c) (Proc.devRef .tc main_v32) : FVec Ideal S1x64 .f32) (ix2 (0 : Fin 1) j) = _
  refine (congrFun (after1_v32 (W6 m ρ c)) _).trans ?_
  refine (row64_apply _ j).trans ?_
  exact congrFun (W6_arg7 m ρ c) (ix1 j)

theorem V7_v33 (c : Dev nD) (j : Fin 64) :
    (V7 m ρ c main_v33 : FVec Ideal S1x64 .f32) (ix2 (0 : Fin 1) j)
      = (m ((c : Thread nD τ).loc main_arg8) : FVec Ideal S64 .f32) (ix1 j) := by
  show (StableHlo.after hostOps1 (W6 m ρ c) (Proc.devRef .tc main_v33) : FVec Ideal S1x64 .f32) (ix2 (0 : Fin 1) j) = _
  refine (congrFun (after1_v33 (W6 m ρ c)) _).trans ?_
  refine (row64_apply _ j).trans ?_
  exact congrFun (W6_arg8 m ρ c) (ix1 j)

theorem V7_v34 (c : Dev nD) (j : Fin 64) :
    (V7 m ρ c main_v34 : FVec Ideal S1x64 .f32) (ix2 (0 : Fin 1) j)
      = (m ((c : Thread nD τ).loc main_arg10) : FVec Ideal S64 .f32) (ix1 j) := by
  show (StableHlo.after hostOps1 (W6 m ρ c) (Proc.devRef .tc main_v34) : FVec Ideal S1x64 .f32) (ix2 (0 : Fin 1) j) = _
  refine (congrFun (after1_v34 (W6 m ρ c)) _).trans ?_
  refine (row64_apply _ j).trans ?_
  exact congrFun (W6_arg10 m ρ c) (ix1 j)

theorem V7_arg9 (c : Dev nD) :
    (V7 m ρ c main_arg9 : FVec Ideal S64x64 .f32) = m ((c : Thread nD τ).loc main_arg9) := by
  show StableHlo.after hostOps1 (W6 m ρ c) (Proc.devRef .tc main_arg9) = _
  refine (by keeps hostOps1 : _ = W6 m ρ c (Proc.devRef .tc main_arg9)).trans ?_
  exact W6_arg9 m ρ c

end Cert.KernelIdeal.KHost

end
-- ==== Proof.Tiles.lean ====
import Mathlib.Algebra.BigOperators.Fin
import Mathlib.Algebra.BigOperators.Group.Finset.Sigma
import Mathlib.Logic.Equiv.Fin.Basic

/-
  The 50000 rows are 10 tiles of 5000: a sum down the rows is the sum over the tiles of the sums within each tile,
  row `5000 · t + r` being row `r` of tile `t`.
-/

namespace Cert.Gine

/-- a sum over 50000 rows, tile by tile: 10 tiles of 5000 rows -/
theorem sum_tiles {M : Type*} [AddCommMonoid M] (f : Fin 50000 → M) :
    (∑ t : Fin 10, ∑ r : Fin 5000, f (⟨5000 * t.val + r.val, by omega⟩ : Fin 50000)) = ∑ n : Fin 50000, f n := by
  rw [← Finset.sum_product', Finset.univ_product_univ]
  refine Fintype.sum_equiv (finProdFinEquiv : Fin 10 × Fin 5000 ≃ Fin 50000) _ _ (fun x => ?_)
  refine congrArg f (Fin.ext ?_)
  show 5000 * x.1.val + x.2.val = x.2.val + 5000 * x.1.val
  exact Nat.add_comm _ _

end Cert.Gine
-- ==== Proof.KValue.lean ====
/-
  The kernel program's result, read at an index, is the specification with the kernel's variance.

  Region 1 writes, at `(n, i)`, the second linear layer of the normalised, rectified rows it is given; the rows it is given
  are region 0's first output, the first linear layer of the launch contents; the mean row it is given is the sum over
  the ten tiles of region 0's per-tile column sums over 50000, and 10 tiles of 5000 rows are the 50000 rows; the
  variance row likewise from the per-tile sums of squares.
-/
import proofs.«400297_j2095944040567_3_alg».proof.Proof.KReg0
import proofs.«400297_j2095944040567_3_alg».proof.Proof.KReg1
import proofs.«400297_j2095944040567_3_alg».proof.Proof.KHost
import proofs.«400297_j2095944040567_3_alg».proof.Proof.Tiles
import proofs.«400297_j2095944040567_3_alg».proof.Proof.Spec

set_option maxRecDepth 16384

noncomputable section

namespace Cert.KernelIdeal.KValue
open Idealize.ShloMosaic Idealize.ShloMosaic.ValueIdx Idealize.SL.Sem Idealize.ShloMosaic.TcCoe
open Cert.KernelIdeal Cert.KernelIdeal.Gen Cert.KernelIdeal.KHost

variable (m : (ℓ : Loc nD τ sig) → Buf (Elt Ideal) ℓ) (ρ : Dev nD → PrngReg)

/-- the launch contents of an argument, typed as its literal array -/
abbrev xA (c : Dev nD) : FVec Ideal S50000x64 .f32 := m ((c.tc : Thread nD τ).loc main_arg0)
abbrev gA (c : Dev nD) : FVec Ideal S50000x64 .f32 :=
  aggK (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))
abbrev w1A (c : Dev nD) : FVec Ideal S64x64 .f32 := m ((c.tc : Thread nD τ).loc main_arg5)
abbrev b1A (c : Dev nD) : FVec Ideal S64 .f32 := m ((c.tc : Thread nD τ).loc main_arg6)
abbrev gamA (c : Dev nD) : FVec Ideal S64 .f32 := m ((c.tc : Thread nD τ).loc main_arg7)
abbrev betA (c : Dev nD) : FVec Ideal S64 .f32 := m ((c.tc : Thread nD τ).loc main_arg8)
abbrev w2A (c : Dev nD) : FVec Ideal S64x64 .f32 := m ((c.tc : Thread nD τ).loc main_arg9)
abbrev b2A (c : Dev nD) : FVec Ideal S64 .f32 := m ((c.tc : Thread nD τ).loc main_arg10)

/-- the linear layer of the launch contents -/
abbrev hA (c : Dev nD) : Fin 50000 → Fin 64 → EReal := Cert.Gine.lin1 (xA m c) (gA m c) (w1A m c) (b1A m c)

/-- Region 0 leaves the linear layer of the launch contents in its first output. -/
theorem H1_apply (c : Dev nD) (n : Fin 50000) (j : Fin 64) : H1 m ρ c (ix2 n j) = hA m c n j := by
  refine (KVal0.h1_apply (V5 m ρ) c n j).trans ?_
  unfold KVal0.x0 KVal0.g0 KVal0.w10 KVal0.b10
  rw [V5_arg0 m ρ c, V5_v14 m ρ c, V5_arg5 m ρ c, V5_v15 m ρ c j]
  rfl

/-- The mean row region 1 is given is the batch mean of the linear layer. -/
theorem meanK_eq (c : Dev nD) (j : Fin 64) : meanK m ρ c j = Cert.Gine.mean (hA m c) j := by
  unfold meanK Cert.Gine.mean Cert.Gine.colSum
  refine congrArg (fun s => Ideal.div s Cert.Gine.cN) ?_
  refine Eq.trans ?_ (Cert.Gine.sum_tiles (fun n => hA m c n j))
  refine Finset.sum_congr rfl fun t _ => ?_
  refine (KVal0.stats_sum (V5 m ρ) c t j).trans ?_
  exact Finset.sum_congr rfl fun r _ => H1_apply m ρ c _ j

/-- The second statistic over the row count is the mean of the squares. -/
theorem sumsq_eq (c : Dev nD) (j : Fin 64) :
    (∑ t : Fin 10, ST m ρ c (ix2 (⟨8 * t.val + 1, by omega⟩ : Fin 80) j)) = Cert.Gine.colSum (fun n j => hA m c n j * hA m c n j) j := by
  unfold Cert.Gine.colSum
  refine Eq.trans ?_ (Cert.Gine.sum_tiles (fun n => hA m c n j * hA m c n j))
  refine Finset.sum_congr rfl fun t _ => ?_
  refine (KVal0.stats_sumsq (V5 m ρ) c t j).trans ?_
  exact Finset.sum_congr rfl fun r _ => congrArg₂ (· * ·) (H1_apply m ρ c _ j) (H1_apply m ρ c _ j)

/-- THE KERNEL PROGRAM'S RESULT at `(n, i)`: the specification with the variance taken as the mean of the squares minus
    the square of the mean. -/
theorem result_apply (c : Dev nD) (n : Fin 50000) (i : Fin 64) :
    (W8 m ρ c (Proc.devRef .tc main_v35) : FVec Ideal S50000x64 .f32) (ix2 n i)
      = Cert.Gine.out (hA m c) (Cert.Gine.varK (hA m c)) (gamA m c) (betA m c) (w2A m c) (b2A m c) n i := by
  have hW : (W8 m ρ c (Proc.devRef .tc main_v35) : FVec Ideal S50000x64 .f32) = KVal1.outarr (V7 m ρ) c :=
    W8_arr m ρ c 7
  refine (congrFun hW (ix2 n i)).trans ?_
  refine (KVal1.out_apply (V7 m ρ) c n i).trans ?_
  unfold Cert.Gine.out
  refine congrArg₂ (· + ·) (Finset.sum_congr rfl fun j _ => ?_) (V7_v34 m ρ c i)
  refine congrArg₂ (· * ·) ?_ (congrFun (V7_arg9 m ρ c) (ix2 i j))
  unfold Cert.Gine.bn Cert.Gine.varK
  have e1 : KVal1.gam1 (V7 m ρ) c (ix2 (0 : Fin 1) j) = gamA m c (ix1 j) := V7_v32 m ρ c j
  have e2 : KVal1.h1in (V7 m ρ) c (ix2 n j) = hA m c n j :=
    (congrFun (V7_v16_0 m ρ c) (ix2 n j)).trans (H1_apply m ρ c n j)
  have e3 : KVal1.mu1 (V7 m ρ) c (ix2 (0 : Fin 1) j) = Cert.Gine.mean (hA m c) j := (V7_v30 m ρ c j).trans (meanK_eq m ρ c j)
  have e4 : KVal1.var1 (V7 m ρ) c (ix2 (0 : Fin 1) j)
      = Ideal.div (Cert.Gine.colSum (fun n j => hA m c n j * hA m c n j) j) Cert.Gine.cN - Cert.Gine.mean (hA m c) j * Cert.Gine.mean (hA m c) j :=
    (V7_v31 m ρ c j).trans (by rw [sumsq_eq m ρ c j, meanK_eq m ρ c j])
  have e5 : KVal1.bet1 (V7 m ρ) c (ix2 (0 : Fin 1) j) = betA m c (ix1 j) := V7_v33 m ρ c j
  rw [e1, e2, e3, e4, e5]

end Cert.KernelIdeal.KValue

end
-- ==== Proof.RefTerm.lean ====
/-
  The reference program's result as a pure term of its eleven argument arrays.

  The reference is a straight line of 87 array operations (its module-local functions unfolded at
  their call sites). Its result is stated through named stages:
    agg   the edge messages relu(x[src] + e·Wᵉᵀ + bᵉ) summed into their destination rows;
    hlin  the linear layer (1·x + agg)·Wᵀ + b;
    mean  the column means of hlin;
    var   the column variances of hlin (mean of squared deviations; the divisor's sign test selected);
    out   the normalised, scaled, shifted rows, relu, and the last linear layer;
  and res, their composition.
-/
import proofs.«400297_j2095944040567_3_alg».proof.ReferenceIdeal
import proofs.«400297_j2095944040567_3_alg».proof.Proof.Gen.ReferenceIdeal
import Idealize.ShloMosaic.Lib.StableHlo.Run
import Idealize.ShloMosaic.PureOps.Ideal

noncomputable section

namespace Cert.ReferenceIdeal.RefRun

open Cert.ReferenceIdeal Cert.ReferenceIdeal.Gen Idealize.ShloMosaic Idealize.ShloMosaic.TcCoe Idealize.SL.Sem Idealize.ShloMosaic.StableHlo

/-! ## The stages -/
/-- The aggregated messages: for every edge the source row of the node array is gathered (a negative
    index wrapped by the row count), the edge's linear image added, the sum clamped at zero from
    below, and the rows are summed into their destination rows of a zero array. -/
def agg (a0 : FVec Ideal S50000x64 .f32) (a1 : IVec S2x1000000 32) (a2 : FVec Ideal S1000000x16 .f32)
    (a3 : FVec Ideal S64x16 .f32) (a4 : FVec Ideal S64 .f32) : FVec Ideal S50000x64 .f32 :=
  let v0 : IVec S1x1000000 32 := extractStridedSlice S1x1000000 ![0, 0] a1 slices_S2x1000000_S1x1000000_0_0
  let v1 : IVec S1000000 32 := shapeCast S1000000 v0 shapeCasts_S1x1000000_S1000000
  let v2 : IVec S1x1000000 32 := extractStridedSlice S1x1000000 ![1, 0] a1 slices_S2x1000000_S1x1000000_1_0
  let v3 : IVec S1000000 32 := shapeCast S1000000 v2 shapeCasts_S1x1000000_S1000000
  let v4 : FVec Ideal S16x64 .f32 := transpose S16x64 [1, 0] a3 transposes_S64x16_S16x64_1_0
  let v5 : FVec Ideal S1000000x64 .f32 := Host.dotGeneral (F := Ideal) dot_S1000000x16_S16x64_S1000000x64_1_0_0_1_n_n none a2 v4
  let v6 : FVec Ideal S1x64 .f32 := broadcastInDim S1x64 ![1] bcast_S64_S1x64_1 a4
  let v7 : FVec Ideal S1000000x64 .f32 := broadcastInDim S1000000x64 ![0, 1] bcast_S1x64_S1000000x64_0_1 v6
  let v8 : FVec Ideal S1000000x64 .f32 := addf v5 v7
  let c : IVec S_ 32 := constantI S_ 32 0#32
  let v9 : IVec S1000000 32 := broadcastInDim S1000000 ![] bcast_S_S1000000 c
  let v10 : IVec S1000000 1 := cmpi .slt v1 v9
  let c_0 : IVec S_ 32 := constantI S_ 32 50000#32
  let v11 : IVec S1000000 32 := broadcastInDim S1000000 ![] bcast_S_S1000000 c_0
  let v12 : IVec S1000000 32 := addi v1 v11
  let v13 : IVec S1000000 32 := select v10 v12 v1
  let v14 : IVec S1000000x1 32 := broadcastInDim S1000000x1 ![0] bcast_S1000000_S1000000x1_0 v13
  let v15 : FVec Ideal S1000000x64 .f32 := Host.gather gather_S50000x64_S1000000x1_S1000000x64_1_0_n_n_0_1_164 a0 v14
  let v16 : FVec Ideal S1000000x64 .f32 := addf v15 v8
  let call0_cst : FVec Ideal S_ .f32 := constant (F := Ideal) S_ .f32 0x00000000#32
  let call0_v0 : FVec Ideal S1000000x64 .f32 := broadcastInDim S1000000x64 ![] bcast_S_S1000000x64 call0_cst
  let v17 : FVec Ideal S1000000x64 .f32 := maximumf v16 call0_v0
  let cst : FVec Ideal S_ .f32 := constant (F := Ideal) S_ .f32 0x00000000#32
  let v18 : FVec Ideal S50000x64 .f32 := broadcastInDim S50000x64 ![] bcast_S_S50000x64 cst
  let v19 : IVec S1000000x1 32 := broadcastInDim S1000000x1 ![0] bcast_S1000000_S1000000x1_0 v3
  Host.scatterAdd (F := Ideal) scatter_S50000x64_S1000000x1_S1000000x64_1_0_0_1 v18 v19 v17

/-- The linear layer over the node array plus the aggregate `g`: `(1·a0 + g)·a5ᵀ + a6`. -/
def hlin (a0 g : FVec Ideal S50000x64 .f32) (a5 : FVec Ideal S64x64 .f32) (a6 : FVec Ideal S64 .f32) :
    FVec Ideal S50000x64 .f32 :=
  let cst_1 : FVec Ideal S_ .f32 := constant (F := Ideal) S_ .f32 0x3F800000#32
  let v21 : FVec Ideal S50000x64 .f32 := broadcastInDim S50000x64 ![] bcast_S_S50000x64 cst_1
  let v22 : FVec Ideal S50000x64 .f32 := mulf v21 a0
  let v23 : FVec Ideal S50000x64 .f32 := addf v22 g
  let v24 : FVec Ideal S64x64 .f32 := transpose S64x64 [1, 0] a5 transposes_S64x64_S64x64_1_0
  let v25 : FVec Ideal S50000x64 .f32 := Host.dotGeneral (F := Ideal) dot_S50000x64_S64x64_S50000x64_1_0_0_1_n_n none v23 v24
  let v26 : FVec Ideal S1x64 .f32 := broadcastInDim S1x64 ![1] bcast_S64_S1x64_1 a6
  let v27 : FVec Ideal S50000x64 .f32 := broadcastInDim S50000x64 ![0, 1] bcast_S1x64_S50000x64_0_1 v26
  addf v25 v27

/-- The column means: the sum over the rows (from zero) divided by the row count 50000. -/
def mean (h : FVec Ideal S50000x64 .f32) : FVec Ideal S64 .f32 :=
  let cst_2 : FVec Ideal S_ .f32 := constant (F := Ideal) S_ .f32 0x00000000#32
  let v29 : FVec Ideal S64 .f32 := Host.reduceAdd (F := Ideal) h cst_2 reducesTo_S50000x64_S64_d0 h_S_
  let cst_3 : FVec Ideal S_ .f32 := constant (F := Ideal) S_ .f32 0x47435000#32
  let v30 : FVec Ideal S64 .f32 := broadcastInDim S64 ![] bcast_S_S64 cst_3
  Host.divf (F := Ideal) v29 v30

/-- The column variances: the column sums of the squared deviations from the column means, divided by
    `50000 - 0` (the zero an integer converted); where that divisor is not positive the quiet-NaN
    constant is selected instead. -/
def var (h : FVec Ideal S50000x64 .f32) : FVec Ideal S64 .f32 :=
  let c_4 : IVec S_ 32 := constantI S_ 32 0#32
  let call1_cst : FVec Ideal S_ .f32 := constant (F := Ideal) S_ .f32 0x00000000#32
  let call1_v0 : FVec Ideal S64 .f32 := Host.reduceAdd (F := Ideal) h call1_cst reducesTo_S50000x64_S64_d0 h_S_
  let call1_v1 : FVec Ideal S1x64 .f32 := broadcastInDim S1x64 ![1] bcast_S64_S1x64_1 call1_v0
  let call1_cst_0 : FVec Ideal S_ .f32 := constant (F := Ideal) S_ .f32 0x47435000#32
  let call1_v2 : FVec Ideal S1x64 .f32 := broadcastInDim S1x64 ![] bcast_S_S1x64 call1_cst_0
  let call1_v3 : FVec Ideal S1x64 .f32 := Host.divf (F := Ideal) call1_v1 call1_v2
  let call1_v4 : FVec Ideal S50000x64 .f32 := broadcastInDim S50000x64 ![0, 1] bcast_S1x64_S50000x64_0_1 call1_v3
  let call1_v5 : FVec Ideal S50000x64 .f32 := subf h call1_v4
  let call1_v6 : FVec Ideal S50000x64 .f32 := mulf call1_v5 call1_v5
  let call1_v7 : FVec Ideal S_ .f32 := sitofp (F := Ideal) .f32 c_4
  let call1_cst_1 : FVec Ideal S_ .f32 := constant (F := Ideal) S_ .f32 0x47435000#32
  let call1_v8 : FVec Ideal S_ .f32 := subf call1_cst_1 call1_v7
  let call1_cst_2 : FVec Ideal S_ .f32 := constant (F := Ideal) S_ .f32 0x00000000#32
  let call1_v9 : FVec Ideal S64 .f32 := Host.reduceAdd (F := Ideal) call1_v6 call1_cst_2 reducesTo_S50000x64_S64_d0 h_S_
  let call1_v10 : FVec Ideal S64 .f32 := broadcastInDim S64 ![] bcast_S_S64 call1_v8
  let call1_v11 : FVec Ideal S64 .f32 := Host.divf (F := Ideal) call1_v9 call1_v10
  let call1_cst_3 : FVec Ideal S_ .f32 := constant (F := Ideal) S_ .f32 0x00000000#32
  let call1_v12 : IVec S_ 1 := cmpf (F := Ideal) .ogt call1_v8 call1_cst_3
  let call1_cst_4 : FVec Ideal S_ .f32 := constant (F := Ideal) S_ .f32 0x7FC00000#32
  let call1_call0_v0 : FVec Ideal S_ .f32 := id call1_cst_4
  let call1_call0_v1 : FVec Ideal S64 .f32 := broadcastInDim S64 ![] bcast_S_S64 call1_call0_v0
  select (broadcastInDim S64 ![] bcast_S_S64 call1_v12) call1_v11 call1_call0_v1

/-- The output: `h` centred at `mu`, scaled by `a7` and by `rsqrt (v + 1e-5)`, shifted by `a8`,
    clamped at zero from below, then the linear layer `·a9ᵀ + a10`. -/
def out (h : FVec Ideal S50000x64 .f32) (mu v : FVec Ideal S64 .f32) (a7 a8 : FVec Ideal S64 .f32)
    (a9 : FVec Ideal S64x64 .f32) (a10 : FVec Ideal S64 .f32) : FVec Ideal S50000x64 .f32 :=
  let v33 : FVec Ideal S1x64 .f32 := broadcastInDim S1x64 ![1] bcast_S64_S1x64_1 mu
  let v34 : FVec Ideal S50000x64 .f32 := broadcastInDim S50000x64 ![0, 1] bcast_S1x64_S50000x64_0_1 v33
  let v35 : FVec Ideal S50000x64 .f32 := subf h v34
  let v36 : FVec Ideal S1x64 .f32 := broadcastInDim S1x64 ![1] bcast_S64_S1x64_1 a7
  let v37 : FVec Ideal S50000x64 .f32 := broadcastInDim S50000x64 ![0, 1] bcast_S1x64_S50000x64_0_1 v36
  let v38 : FVec Ideal S50000x64 .f32 := mulf v37 v35
  let cst_5 : FVec Ideal S_ .f32 := constant (F := Ideal) S_ .f32 0x3727C5AC#32
  let v39 : FVec Ideal S64 .f32 := broadcastInDim S64 ![] bcast_S_S64 cst_5
  let v40 : FVec Ideal S64 .f32 := addf v v39
  let v41 : FVec Ideal S64 .f32 := Host.rsqrt (F := Ideal) v40
  let v42 : FVec Ideal S1x64 .f32 := broadcastInDim S1x64 ![1] bcast_S64_S1x64_1 v41
  let v43 : FVec Ideal S50000x64 .f32 := broadcastInDim S50000x64 ![0, 1] bcast_S1x64_S50000x64_0_1 v42
  let v44 : FVec Ideal S50000x64 .f32 := mulf v38 v43
  let v45 : FVec Ideal S1x64 .f32 := broadcastInDim S1x64 ![1] bcast_S64_S1x64_1 a8
  let v46 : FVec Ideal S50000x64 .f32 := broadcastInDim S50000x64 ![0, 1] bcast_S1x64_S50000x64_0_1 v45
  let v47 : FVec Ideal S50000x64 .f32 := addf v44 v46
  let call2_cst : FVec Ideal S_ .f32 := constant (F := Ideal) S_ .f32 0x00000000#32
  let call2_v0 : FVec Ideal S50000x64 .f32 := broadcastInDim S50000x64 ![] bcast_S_S50000x64 call2_cst
  let v48 : FVec Ideal S50000x64 .f32 := maximumf v47 call2_v0
  let v49 : FVec Ideal S64x64 .f32 := transpose S64x64 [1, 0] a9 transposes_S64x64_S64x64_1_0
  let v50 : FVec Ideal S50000x64 .f32 := Host.dotGeneral (F := Ideal) dot_S50000x64_S64x64_S50000x64_1_0_0_1_n_n none v48 v49
  let v51 : FVec Ideal S1x64 .f32 := broadcastInDim S1x64 ![1] bcast_S64_S1x64_1 a10
  let v52 : FVec Ideal S50000x64 .f32 := broadcastInDim S50000x64 ![0, 1] bcast_S1x64_S50000x64_0_1 v51
  addf v50 v52

/-- The reference's result as a term of its eleven arguments. -/
def res (a0 : FVec Ideal S50000x64 .f32) (a1 : IVec S2x1000000 32) (a2 : FVec Ideal S1000000x16 .f32)
    (a3 : FVec Ideal S64x16 .f32) (a4 : FVec Ideal S64 .f32) (a5 : FVec Ideal S64x64 .f32) (a6 : FVec Ideal S64 .f32)
    (a7 a8 : FVec Ideal S64 .f32) (a9 : FVec Ideal S64x64 .f32) (a10 : FVec Ideal S64 .f32) : FVec Ideal S50000x64 .f32 :=
  let h := hlin a0 (agg a0 a1 a2 a3 a4) a5 a6
  out h (mean h) (var h) a7 a8 a9 a10

end Cert.ReferenceIdeal.RefRun

end
-- ==== Proof.RefRun.lean ====
/-
  The reference program's run, read back: every weakly fair execution of the reference terminates
  with its result buffer at `res` of the launch contents of its eleven arguments, the arguments
  unchanged.

  The program is a straight line of 87 array operations once its module-local functions are unfolded
  at their call sites. The line is cut at the stage boundaries of `res` into five stretches; for each
  stretch the contents of the one buffer it hands on is computed as the stage's term of the contents
  before it, every buffer a stretch does not write keeps its contents through it, and the five facts
  compose along the line.
-/
import proofs.«400297_j2095944040567_3_alg».proof.ReferenceIdeal
import proofs.«400297_j2095944040567_3_alg».proof.Proof.Gen.ReferenceIdeal
import proofs.«400297_j2095944040567_3_alg».proof.Proof.RefTerm
import Idealize.ShloMosaic.Lib.StableHlo.Run
import Idealize.ShloMosaic.Lib.Pipeline.Frame
import Idealize.ShloMosaic.PureOps.Ideal

noncomputable section

namespace Cert.ReferenceIdeal.RefRun

open Cert.ReferenceIdeal Cert.ReferenceIdeal.Gen Idealize.ShloMosaic Idealize.ShloMosaic.TcCoe Idealize.SL.Sem Idealize.ShloMosaic.StableHlo

section Line

variable {F : FTy → Type} [FloatOps F]

/-! ## The line of operations, in five stretches -/

/-- The aggregate: operations %0 … %20 (the first clamp's three unfolded at its call). -/
abbrev opsA : List (HloOp τ sig (Elt F)) :=
  [
    unary main_arg1 main_v0 ((extractStridedSlice S1x1000000 ![0, 0] · slices_S2x1000000_S1x1000000_0_0) : (⟨S2x1000000, .i32⟩ : BufTy).Contents (Elt F) → (⟨S1x1000000, .i32⟩ : BufTy).Contents (Elt F)),
    reshape main_v0 main_v1 rfl shapeCasts_S1x1000000_S1000000,
    unary main_arg1 main_v2 ((extractStridedSlice S1x1000000 ![1, 0] · slices_S2x1000000_S1x1000000_1_0) : (⟨S2x1000000, .i32⟩ : BufTy).Contents (Elt F) → (⟨S1x1000000, .i32⟩ : BufTy).Contents (Elt F)),
    reshape main_v2 main_v3 rfl shapeCasts_S1x1000000_S1000000,
    unary main_arg3 main_v4 ((transpose S16x64 [1, 0] · transposes_S64x16_S16x64_1_0) : (⟨S64x16, .f32⟩ : BufTy).Contents (Elt F) → (⟨S16x64, .f32⟩ : BufTy).Contents (Elt F)),
    binary main_arg2 main_v4 main_v5 ((fun l r => Host.dotGeneral dot_S1000000x16_S16x64_S1000000x64_1_0_0_1_n_n none l r) : (⟨S1000000x16, .f32⟩ : BufTy).Contents (Elt F) → (⟨S16x64, .f32⟩ : BufTy).Contents (Elt F) → (⟨S1000000x64, .f32⟩ : BufTy).Contents (Elt F)),
    unary main_arg4 main_v6 (broadcastInDim S1x64 ![1] bcast_S64_S1x64_1 : (⟨S64, .f32⟩ : BufTy).Contents (Elt F) → (⟨S1x64, .f32⟩ : BufTy).Contents (Elt F)),
    unary main_v6 main_v7 (broadcastInDim S1000000x64 ![0, 1] bcast_S1x64_S1000000x64_0_1 : (⟨S1x64, .f32⟩ : BufTy).Contents (Elt F) → (⟨S1000000x64, .f32⟩ : BufTy).Contents (Elt F)),
    binary main_v5 main_v7 main_v8 (addf : (⟨S1000000x64, .f32⟩ : BufTy).Contents (Elt F) → (⟨S1000000x64, .f32⟩ : BufTy).Contents (Elt F) → (⟨S1000000x64, .f32⟩ : BufTy).Contents (Elt F)),
    nullary main_c (constantI S_ 32 0#32),
    unary main_c main_v9 (broadcastInDim S1000000 ![] bcast_S_S1000000 : (⟨S_, .i32⟩ : BufTy).Contents (Elt F) → (⟨S1000000, .i32⟩ : BufTy).Contents (Elt F)),
    binary main_v1 main_v9 main_v10 (cmpi .slt : (⟨S1000000, .i32⟩ : BufTy).Contents (Elt F) → (⟨S1000000, .i32⟩ : BufTy).Contents (Elt F) → (⟨S1000000, .i1⟩ : BufTy).Contents (Elt F)),
    nullary main_c_0 (constantI S_ 32 50000#32),
    unary main_c_0 main_v11 (broadcastInDim S1000000 ![] bcast_S_S1000000 : (⟨S_, .i32⟩ : BufTy).Contents (Elt F) → (⟨S1000000, .i32⟩ : BufTy).Contents (Elt F)),
    binary main_v1 main_v11 main_v12 (addi : (⟨S1000000, .i32⟩ : BufTy).Contents (Elt F) → (⟨S1000000, .i32⟩ : BufTy).Contents (Elt F) → (⟨S1000000, .i32⟩ : BufTy).Contents (Elt F)),
    ternary main_v10 main_v12 main_v1 main_v13 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v13 main_v14 (broadcastInDim S1000000x1 ![0] bcast_S1000000_S1000000x1_0 : (⟨S1000000, .i32⟩ : BufTy).Contents (Elt F) → (⟨S1000000x1, .i32⟩ : BufTy).Contents (Elt F)),
    binary main_arg0 main_v14 main_v15 ((fun x i => Host.gather gather_S50000x64_S1000000x1_S1000000x64_1_0_n_n_0_1_164 x i) : (⟨S50000x64, .f32⟩ : BufTy).Contents (Elt F) → (⟨S1000000x1, .i32⟩ : BufTy).Contents (Elt F) → (⟨S1000000x64, .f32⟩ : BufTy).Contents (Elt F)),
    binary main_v15 main_v8 main_v16 (addf : (⟨S1000000x64, .f32⟩ : BufTy).Contents (Elt F) → (⟨S1000000x64, .f32⟩ : BufTy).Contents (Elt F) → (⟨S1000000x64, .f32⟩ : BufTy).Contents (Elt F)),
    TRef.nullary main_call0.cst (constant S_ .f32 0x00000000#32),
    TRef.unary main_call0.cst main_call0.v0 (broadcastInDim S1000000x64 ![] bcast_S_S1000000x64),
    TRef.binary (.of main_v16) main_call0.v0 main_call0.v1 maximumf,
    nullary main_cst (constant S_ .f32 0x00000000#32),
    unary main_cst main_v18 (broadcastInDim S50000x64 ![] bcast_S_S50000x64 : (⟨S_, .f32⟩ : BufTy).Contents (Elt F) → (⟨S50000x64, .f32⟩ : BufTy).Contents (Elt F)),
    unary main_v3 main_v19 (broadcastInDim S1000000x1 ![0] bcast_S1000000_S1000000x1_0 : (⟨S1000000, .i32⟩ : BufTy).Contents (Elt F) → (⟨S1000000x1, .i32⟩ : BufTy).Contents (Elt F)),
    ternary main_v18 main_v19 main_v17 main_v20 ((fun x i u => Host.scatterAdd scatter_S50000x64_S1000000x1_S1000000x64_1_0_0_1 x i u) : (⟨S50000x64, .f32⟩ : BufTy).Contents (Elt F) → (⟨S1000000x1, .i32⟩ : BufTy).Contents (Elt F) → (⟨S1000000x64, .f32⟩ : BufTy).Contents (Elt F) → (⟨S50000x64, .f32⟩ : BufTy).Contents (Elt F)) ]

/-- The buffers those operations write, in order. -/
abbrev opsA_W : List (Ref sig .tc) := [main_v0, main_v1, main_v2, main_v3, main_v4, main_v5, main_v6, main_v7, main_v8, main_c, main_v9, main_v10, main_c_0, main_v11, main_v12, main_v13, main_v14, main_v15, main_v16, main_call0_cst, main_call0_v0, main_v17, main_cst, main_v18, main_v19, main_v20]

theorem opsA_sub : (opsA : List (HloOp τ sig (Elt F))).Forall fun op => op.bufs ⊆ tcRefs τ sig :=
  ⟨unary_bufs_sub .., reshape_bufs_sub .., unary_bufs_sub .., reshape_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., unary_bufs_sub .., ternary_bufs_sub ..⟩

/-- The linear layer: operations %cst_1 … %28. -/
abbrev opsB : List (HloOp τ sig (Elt F)) :=
  [
    nullary main_cst_1 (constant S_ .f32 0x3F800000#32),
    unary main_cst_1 main_v21 (broadcastInDim S50000x64 ![] bcast_S_S50000x64 : (⟨S_, .f32⟩ : BufTy).Contents (Elt F) → (⟨S50000x64, .f32⟩ : BufTy).Contents (Elt F)),
    binary main_v21 main_arg0 main_v22 (mulf : (⟨S50000x64, .f32⟩ : BufTy).Contents (Elt F) → (⟨S50000x64, .f32⟩ : BufTy).Contents (Elt F) → (⟨S50000x64, .f32⟩ : BufTy).Contents (Elt F)),
    binary main_v22 main_v20 main_v23 (addf : (⟨S50000x64, .f32⟩ : BufTy).Contents (Elt F) → (⟨S50000x64, .f32⟩ : BufTy).Contents (Elt F) → (⟨S50000x64, .f32⟩ : BufTy).Contents (Elt F)),
    unary main_arg5 main_v24 ((transpose S64x64 [1, 0] · transposes_S64x64_S64x64_1_0) : (⟨S64x64, .f32⟩ : BufTy).Contents (Elt F) → (⟨S64x64, .f32⟩ : BufTy).Contents (Elt F)),
    binary main_v23 main_v24 main_v25 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg6 main_v26 (broadcastInDim S1x64 ![1] bcast_S64_S1x64_1 : (⟨S64, .f32⟩ : BufTy).Contents (Elt F) → (⟨S1x64, .f32⟩ : BufTy).Contents (Elt F)),
    unary main_v26 main_v27 (broadcastInDim S50000x64 ![0, 1] bcast_S1x64_S50000x64_0_1 : (⟨S1x64, .f32⟩ : BufTy).Contents (Elt F) → (⟨S50000x64, .f32⟩ : BufTy).Contents (Elt F)),
    binary main_v25 main_v27 main_v28 (addf : (⟨S50000x64, .f32⟩ : BufTy).Contents (Elt F) → (⟨S50000x64, .f32⟩ : BufTy).Contents (Elt F) → (⟨S50000x64, .f32⟩ : BufTy).Contents (Elt F)) ]

/-- The buffers those operations write, in order. -/
abbrev opsB_W : List (Ref sig .tc) := [main_cst_1, main_v21, main_v22, main_v23, main_v24, main_v25, main_v26, main_v27, main_v28]

theorem opsB_sub : (opsB : List (HloOp τ sig (Elt F))).Forall fun op => op.bufs ⊆ tcRefs τ sig :=
  ⟨nullary_bufs_sub .., unary_bufs_sub .., binary_bufs_sub .., binary_bufs_sub .., unary_bufs_sub .., binary_bufs_sub .., unary_bufs_sub .., unary_bufs_sub .., binary_bufs_sub ..⟩

/-- The column means, and the integer zero the variance takes: %cst_2 … %31, %c_4. -/
abbrev opsC : List (HloOp τ sig (Elt F)) :=
  [
    nullary main_cst_2 (constant S_ .f32 0x00000000#32),
    binary main_v28 main_cst_2 main_v29 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    nullary main_cst_3 (constant S_ .f32 0x47435000#32),
    unary main_cst_3 main_v30 (broadcastInDim S64 ![] bcast_S_S64 : (⟨S_, .f32⟩ : BufTy).Contents (Elt F) → (⟨S64, .f32⟩ : BufTy).Contents (Elt F)),
    binary main_v29 main_v30 main_v31 (Host.divf : (⟨S64, .f32⟩ : BufTy).Contents (Elt F) → (⟨S64, .f32⟩ : BufTy).Contents (Elt F) → (⟨S64, .f32⟩ : BufTy).Contents (Elt F)),
    nullary main_c_4 (constantI S_ 32 0#32) ]

/-- The buffers those operations write, in order. -/
abbrev opsC_W : List (Ref sig .tc) := [main_cst_2, main_v29, main_cst_3, main_v30, main_v31, main_c_4]

theorem opsC_sub : (opsC : List (HloOp τ sig (Elt F))).Forall fun op => op.bufs ⊆ tcRefs τ sig :=
  ⟨nullary_bufs_sub .., binary_bufs_sub .., nullary_bufs_sub .., unary_bufs_sub .., binary_bufs_sub .., nullary_bufs_sub ..⟩

/-- The column variances: the twenty-two operations of the variance function and of the select inside it, over their own buffers. -/
abbrev opsD : List (HloOp τ sig (Elt F)) :=
  [
    TRef.nullary main_call1.cst (constant S_ .f32 0x00000000#32),
    TRef.binary (.of main_v28) main_call1.cst main_call1.v0 (fun x v => Host.reduceAdd x v reducesTo_S50000x64_S64_d0 h_S_),
    TRef.unary main_call1.v0 main_call1.v1 (broadcastInDim S1x64 ![1] bcast_S64_S1x64_1),
    TRef.nullary main_call1.cst_0 (constant S_ .f32 0x47435000#32),
    TRef.unary main_call1.cst_0 main_call1.v2 (broadcastInDim S1x64 ![] bcast_S_S1x64),
    TRef.binary main_call1.v1 main_call1.v2 main_call1.v3 Host.divf,
    TRef.unary main_call1.v3 main_call1.v4 (broadcastInDim S50000x64 ![0, 1] bcast_S1x64_S50000x64_0_1),
    TRef.binary (.of main_v28) main_call1.v4 main_call1.v5 subf,
    TRef.binary main_call1.v5 main_call1.v5 main_call1.v6 mulf,
    TRef.unary (.of main_c_4) main_call1.v7 (sitofp .f32),
    TRef.nullary main_call1.cst_1 (constant S_ .f32 0x47435000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S50000x64_S64_d0 h_S_),
    TRef.unary main_call1.v8 main_call1.v10 (broadcastInDim S64 ![] bcast_S_S64),
    TRef.binary main_call1.v9 main_call1.v10 main_call1.v11 Host.divf,
    TRef.nullary main_call1.cst_3 (constant S_ .f32 0x00000000#32),
    TRef.binary main_call1.v8 main_call1.cst_3 main_call1.v12 (cmpf .ogt),
    TRef.nullary main_call1.cst_4 (constant S_ .f32 0x7FC00000#32),
    TRef.unary main_call1.cst_4 main_call1.call0.v0 id,
    TRef.unary main_call1.call0.v0 main_call1.call0.v1 (broadcastInDim S64 ![] bcast_S_S64),
    TRef.ternary main_call1.v12 main_call1.v11 main_call1.call0.v1 main_call1.call0.v2 (fun p a b => select (broadcastInDim S64 ![] bcast_S_S64 p) a b) ]

/-- The buffers those operations write, in order. -/
abbrev opsD_W : List (Ref sig .tc) := [main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v32]

theorem opsD_sub : (opsD : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

/-- The output: operations %33 … %53 (the second clamp's three unfolded at its call). -/
abbrev opsE : List (HloOp τ sig (Elt F)) :=
  [
    unary main_v31 main_v33 (broadcastInDim S1x64 ![1] bcast_S64_S1x64_1 : (⟨S64, .f32⟩ : BufTy).Contents (Elt F) → (⟨S1x64, .f32⟩ : BufTy).Contents (Elt F)),
    unary main_v33 main_v34 (broadcastInDim S50000x64 ![0, 1] bcast_S1x64_S50000x64_0_1 : (⟨S1x64, .f32⟩ : BufTy).Contents (Elt F) → (⟨S50000x64, .f32⟩ : BufTy).Contents (Elt F)),
    binary main_v28 main_v34 main_v35 (subf : (⟨S50000x64, .f32⟩ : BufTy).Contents (Elt F) → (⟨S50000x64, .f32⟩ : BufTy).Contents (Elt F) → (⟨S50000x64, .f32⟩ : BufTy).Contents (Elt F)),
    unary main_arg7 main_v36 (broadcastInDim S1x64 ![1] bcast_S64_S1x64_1 : (⟨S64, .f32⟩ : BufTy).Contents (Elt F) → (⟨S1x64, .f32⟩ : BufTy).Contents (Elt F)),
    unary main_v36 main_v37 (broadcastInDim S50000x64 ![0, 1] bcast_S1x64_S50000x64_0_1 : (⟨S1x64, .f32⟩ : BufTy).Contents (Elt F) → (⟨S50000x64, .f32⟩ : BufTy).Contents (Elt F)),
    binary main_v37 main_v35 main_v38 (mulf : (⟨S50000x64, .f32⟩ : BufTy).Contents (Elt F) → (⟨S50000x64, .f32⟩ : BufTy).Contents (Elt F) → (⟨S50000x64, .f32⟩ : BufTy).Contents (Elt F)),
    nullary main_cst_5 (constant S_ .f32 0x3727C5AC#32),
    unary main_cst_5 main_v39 (broadcastInDim S64 ![] bcast_S_S64 : (⟨S_, .f32⟩ : BufTy).Contents (Elt F) → (⟨S64, .f32⟩ : BufTy).Contents (Elt F)),
    binary main_v32 main_v39 main_v40 (addf : (⟨S64, .f32⟩ : BufTy).Contents (Elt F) → (⟨S64, .f32⟩ : BufTy).Contents (Elt F) → (⟨S64, .f32⟩ : BufTy).Contents (Elt F)),
    unary main_v40 main_v41 (Host.rsqrt : (⟨S64, .f32⟩ : BufTy).Contents (Elt F) → (⟨S64, .f32⟩ : BufTy).Contents (Elt F)),
    unary main_v41 main_v42 (broadcastInDim S1x64 ![1] bcast_S64_S1x64_1 : (⟨S64, .f32⟩ : BufTy).Contents (Elt F) → (⟨S1x64, .f32⟩ : BufTy).Contents (Elt F)),
    unary main_v42 main_v43 (broadcastInDim S50000x64 ![0, 1] bcast_S1x64_S50000x64_0_1 : (⟨S1x64, .f32⟩ : BufTy).Contents (Elt F) → (⟨S50000x64, .f32⟩ : BufTy).Contents (Elt F)),
    binary main_v38 main_v43 main_v44 (mulf : (⟨S50000x64, .f32⟩ : BufTy).Contents (Elt F) → (⟨S50000x64, .f32⟩ : BufTy).Contents (Elt F) → (⟨S50000x64, .f32⟩ : BufTy).Contents (Elt F)),
    unary main_arg8 main_v45 (broadcastInDim S1x64 ![1] bcast_S64_S1x64_1 : (⟨S64, .f32⟩ : BufTy).Contents (Elt F) → (⟨S1x64, .f32⟩ : BufTy).Contents (Elt F)),
    unary main_v45 main_v46 (broadcastInDim S50000x64 ![0, 1] bcast_S1x64_S50000x64_0_1 : (⟨S1x64, .f32⟩ : BufTy).Contents (Elt F) → (⟨S50000x64, .f32⟩ : BufTy).Contents (Elt F)),
    binary main_v44 main_v46 main_v47 (addf : (⟨S50000x64, .f32⟩ : BufTy).Contents (Elt F) → (⟨S50000x64, .f32⟩ : BufTy).Contents (Elt F) → (⟨S50000x64, .f32⟩ : BufTy).Contents (Elt F)),
    TRef.nullary main_call2.cst (constant S_ .f32 0x00000000#32),
    TRef.unary main_call2.cst main_call2.v0 (broadcastInDim S50000x64 ![] bcast_S_S50000x64),
    TRef.binary (.of main_v47) main_call2.v0 main_call2.v1 maximumf,
    unary main_arg9 main_v49 ((transpose S64x64 [1, 0] · transposes_S64x64_S64x64_1_0) : (⟨S64x64, .f32⟩ : BufTy).Contents (Elt F) → (⟨S64x64, .f32⟩ : BufTy).Contents (Elt F)),
    binary main_v48 main_v49 main_v50 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg10 main_v51 (broadcastInDim S1x64 ![1] bcast_S64_S1x64_1 : (⟨S64, .f32⟩ : BufTy).Contents (Elt F) → (⟨S1x64, .f32⟩ : BufTy).Contents (Elt F)),
    unary main_v51 main_v52 (broadcastInDim S50000x64 ![0, 1] bcast_S1x64_S50000x64_0_1 : (⟨S1x64, .f32⟩ : BufTy).Contents (Elt F) → (⟨S50000x64, .f32⟩ : BufTy).Contents (Elt F)),
    binary main_v50 main_v52 main_v53 (addf : (⟨S50000x64, .f32⟩ : BufTy).Contents (Elt F) → (⟨S50000x64, .f32⟩ : BufTy).Contents (Elt F) → (⟨S50000x64, .f32⟩ : BufTy).Contents (Elt F)) ]

/-- The buffers those operations write, in order. -/
abbrev opsE_W : List (Ref sig .tc) := [main_v33, main_v34, main_v35, main_v36, main_v37, main_v38, main_cst_5, main_v39, main_v40, main_v41, main_v42, main_v43, main_v44, main_v45, main_v46, main_v47, main_call2_cst, main_call2_v0, main_v48, main_v49, main_v50, main_v51, main_v52, main_v53]

theorem opsE_sub : (opsE : List (HloOp τ sig (Elt F))).Forall fun op => op.bufs ⊆ tcRefs τ sig :=
  ⟨unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub ..⟩

/-- The whole line. -/
abbrev ops : List (HloOp τ sig (Elt F)) := opsA ++ opsB ++ opsC ++ opsD ++ opsE

-- a chain of eighty-seven sequenced steps, re-associated to the right
set_option maxRecDepth 4096 in
set_option maxHeartbeats 4000000 in
/-- The printed program is that line: the functions' bodies unfolded at their calls and the records at their
    fields, both sides are one chain of steps once sequencing is re-associated. -/
theorem main_eq (c : Dev nD) : main (F := F) c = seq ops := by
  simp only [main, main_part0, main_part1, fn_relu.body, fn_var.body, fn_where.body, fn_relu_0.body, ops, opsA, opsB, opsC,
    opsD, opsE, List.cons_append, List.nil_append, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, List.mem_append] at h
    rcases h with (((h | h) | h) | h) | h
    exacts [List.forall_iff_forall_mem.mp opsA_sub op h, List.forall_iff_forall_mem.mp opsB_sub op h,
      List.forall_iff_forall_mem.mp opsC_sub op h, List.forall_iff_forall_mem.mp opsD_sub op h,
      List.forall_iff_forall_mem.mp opsE_sub op h]

/-- One operation writes one buffer, a member of its stretch's list. -/
local macro "writes_one" : tactic =>
  `(tactic| (simp only [nullary_writes, unary_writes, binary_writes, ternary_writes, reshape_writes, Finset.singleton_subset_iff,
      List.mem_toFinset]; exact List.mem_map_of_mem (by decide)))

theorem opsA_writes : (opsA : List (HloOp τ sig (Elt F))).Forall fun op =>
    op.writes ⊆ (opsA_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_⟩ <;> writes_one

/-- A buffer the stretch does not write keeps its contents through it. -/
theorem keepA (V : Valuation τ sig (Elt F)) (r : Ref sig .tc) (h : r ∉ opsA_W) :
    after opsA V (Proc.devRef .tc r) = V (Proc.devRef .tc r) :=
  after_of_writes_sub opsA _ opsA_writes h

theorem opsA_fresh : ∀ op ∈ (opsA : List (HloOp τ sig (Elt F))), op.fresh = ∅ := by
  intro _ h; (repeat (cases h with | head => rfl | tail _ h => ?_)); exact nomatch h

theorem opsB_writes : (opsB : List (HloOp τ sig (Elt F))).Forall fun op =>
    op.writes ⊆ (opsB_W.map (Proc.devRef (τ := τ) .tc)).toFinset := by
  simp only [List.Forall]
  refine ⟨?_, ?_, ?_, ?_, ?_, ?_, ?_, ?_, ?_⟩ <;> writes_one

/-- A buffer the stretch does not write keeps its contents through it. -/
theorem keepB (V : Valuation τ sig (Elt F)) (r : Ref sig .tc) (h : r ∉ opsB_W) :
    after opsB V (Proc.devRef .tc r) = V (Proc.devRef .tc r) :=
  after_of_writes_sub opsB _ opsB_writes h

theorem opsB_fresh : ∀ op ∈ (opsB : List (HloOp τ sig (Elt F))), op.fresh = ∅ := by
  intro _ h; (repeat (cases h with | head => rfl | tail _ h => ?_)); exact nomatch h

theorem opsC_writes : (opsC : List (HloOp τ sig (Elt F))).Forall fun op =>
    op.writes ⊆ (opsC_W.map (Proc.devRef (τ := τ) .tc)).toFinset := by
  simp only [List.Forall]
  refine ⟨?_, ?_, ?_, ?_, ?_, ?_⟩ <;> writes_one

/-- A buffer the stretch does not write keeps its contents through it. -/
theorem keepC (V : Valuation τ sig (Elt F)) (r : Ref sig .tc) (h : r ∉ opsC_W) :
    after opsC V (Proc.devRef .tc r) = V (Proc.devRef .tc r) :=
  after_of_writes_sub opsC _ opsC_writes h

theorem opsC_fresh : ∀ op ∈ (opsC : List (HloOp τ sig (Elt F))), op.fresh = ∅ := by
  intro _ h; (repeat (cases h with | head => rfl | tail _ h => ?_)); exact nomatch h

theorem opsD_writes : (opsD : List (HloOp τ sig (Elt F))).Forall fun op =>
    op.writes ⊆ (opsD_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_⟩ <;> writes_one

/-- A buffer the stretch does not write keeps its contents through it. -/
theorem keepD (V : Valuation τ sig (Elt F)) (r : Ref sig .tc) (h : r ∉ opsD_W) :
    after opsD V (Proc.devRef .tc r) = V (Proc.devRef .tc r) :=
  after_of_writes_sub opsD _ opsD_writes h

theorem opsD_fresh : ∀ op ∈ (opsD : List (HloOp τ sig (Elt F))), op.fresh = ∅ := by
  intro _ h; (repeat (cases h with | head => rfl | tail _ h => ?_)); exact nomatch h

theorem opsE_writes : (opsE : List (HloOp τ sig (Elt F))).Forall fun op =>
    op.writes ⊆ (opsE_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_⟩ <;> writes_one

/-- A buffer the stretch does not write keeps its contents through it. -/
theorem keepE (V : Valuation τ sig (Elt F)) (r : Ref sig .tc) (h : r ∉ opsE_W) :
    after opsE V (Proc.devRef .tc r) = V (Proc.devRef .tc r) :=
  after_of_writes_sub opsE _ opsE_writes h

theorem opsE_fresh : ∀ op ∈ (opsE : List (HloOp τ sig (Elt F))), op.fresh = ∅ := by
  intro _ h; (repeat (cases h with | head => rfl | tail _ h => ?_)); exact nomatch h

theorem ops_fresh : ∀ op ∈ (ops : List (HloOp τ sig (Elt F))), op.fresh = ∅ := fun op h => by
  simp only [ops, List.mem_append] at h
  rcases h with (((h | h) | h) | h) | h
  exacts [opsA_fresh op h, opsB_fresh op h, opsC_fresh op h, opsD_fresh op h, opsE_fresh op h]

/-- The contents after the whole line are the stretches' folds, one after the other. -/
theorem after_ops (V : Valuation τ sig (Elt F)) :
    after ops V = after opsE (after opsD (after opsC (after opsB (after opsA V)))) := by
  simp only [ops, after_append]

end Line

/-! ## What each stretch hands on, at the exact instance -/

set_option maxRecDepth 8192 in
set_option maxHeartbeats 4000000 in
/-- After the first stretch the scatter's buffer holds the aggregate of the five arrays it reads. -/
theorem valA (V : Valuation τ sig (Elt Ideal)) :
    after opsA V (main_v20 : DevRef τ sig)
      = agg (V (main_arg0 : DevRef τ sig)) (V (main_arg1 : DevRef τ sig)) (V (main_arg2 : DevRef τ sig))
          (V (main_arg3 : DevRef τ sig)) (V (main_arg4 : DevRef τ sig)) := by
  after_results_simp
  rfl

set_option maxRecDepth 8192 in
set_option maxHeartbeats 4000000 in
/-- After the second stretch its last buffer holds the linear layer of the node array and the aggregate. -/
theorem valB (V : Valuation τ sig (Elt Ideal)) :
    after opsB V (main_v28 : DevRef τ sig)
      = hlin (V (main_arg0 : DevRef τ sig)) (V (main_v20 : DevRef τ sig)) (V (main_arg5 : DevRef τ sig))
          (V (main_arg6 : DevRef τ sig)) := by
  after_results_simp
  rfl

set_option maxRecDepth 8192 in
set_option maxHeartbeats 4000000 in
/-- After the third stretch the quotient's buffer holds the column means. -/
theorem valC (V : Valuation τ sig (Elt Ideal)) :
    after opsC V (main_v31 : DevRef τ sig) = mean (V (main_v28 : DevRef τ sig)) := by
  after_results_simp
  rfl

set_option maxRecDepth 8192 in
set_option maxHeartbeats 4000000 in
/-- After the fourth stretch the select's buffer holds the column variances; the integer zero it converts is the
    constant the stretch before wrote. -/
theorem valD (V : Valuation τ sig (Elt Ideal)) (hc : V (main_c_4 : DevRef τ sig) = constantI S_ 32 0#32) :
    after opsD V (main_v32 : DevRef τ sig) = var (V (main_v28 : DevRef τ sig)) := by
  after_results_simp
  rw [hc]
  rfl

theorem valC_c4 (V : Valuation τ sig (Elt Ideal)) :
    after opsC V (main_c_4 : DevRef τ sig) = constantI S_ 32 0#32 := by
  after_results_simp

set_option maxRecDepth 8192 in
set_option maxHeartbeats 4000000 in
/-- After the last stretch the result buffer holds the output stage of the layer, its means, its variances and
    the four arrays it reads. -/
theorem valE (V : Valuation τ sig (Elt Ideal)) :
    after opsE V (main_v53 : DevRef τ sig)
      = out (V (main_v28 : DevRef τ sig)) (V (main_v31 : DevRef τ sig)) (V (main_v32 : DevRef τ sig))
          (V (main_arg7 : DevRef τ sig)) (V (main_arg8 : DevRef τ sig)) (V (main_arg9 : DevRef τ sig))
          (V (main_arg10 : DevRef τ sig)) := by
  after_results_simp
  rfl

/-! ## The whole line -/

/-- A buffer none of the first four stretches writes keeps its contents through them. -/
theorem keep4 (V : Valuation τ sig (Elt Ideal)) (r : Ref sig .tc) (hA : r ∉ opsA_W) (hB : r ∉ opsB_W) (hC : r ∉ opsC_W)
    (hD : r ∉ opsD_W) :
    after opsD (after opsC (after opsB (after opsA V))) (Proc.devRef .tc r) = V (Proc.devRef .tc r) := by
  rw [keepD _ r hD, keepC _ r hC, keepB _ r hB, keepA _ r hA]

/-- An argument's buffer is written by no operation: it keeps its contents through the line. -/
theorem arg_eq (V : Valuation τ sig (Elt Ideal)) (r : Ref sig .tc) (hA : r ∉ opsA_W) (hB : r ∉ opsB_W) (hC : r ∉ opsC_W)
    (hD : r ∉ opsD_W) (hE : r ∉ opsE_W) :
    after ops V (Proc.devRef .tc r) = V (Proc.devRef .tc r) := by
  rw [after_ops, keepE _ r hE, keep4 V r hA hB hC hD]

set_option maxRecDepth 8192 in
set_option maxHeartbeats 4000000 in
/-- After the line the result buffer holds `res` of the eleven arguments' contents: the five stretches' facts composed,
    each buffer handed on kept through the stretches between its writer and its reader. -/
theorem res_eq (V : Valuation τ sig (Elt Ideal)) :
    after ops V (main_v53 : DevRef τ sig)
      = res (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) := by
  have h28 : after opsB (after opsA V) (main_v28 : DevRef τ sig)
      = hlin (V (main_arg0 : DevRef τ sig)) (agg (V (main_arg0 : DevRef τ sig)) (V (main_arg1 : DevRef τ sig)) (V (main_arg2 : DevRef τ sig)) (V (main_arg3 : DevRef τ sig)) (V (main_arg4 : DevRef τ sig)))
          (V (main_arg5 : DevRef τ sig)) (V (main_arg6 : DevRef τ sig)) := by
    rw [valB, valA, keepA _ main_arg0 (by decide), keepA _ main_arg5 (by decide), keepA _ main_arg6 (by decide)]
  rw [after_ops, valE, keepD _ main_v28 (by decide), keepC _ main_v28 (by decide), keepD _ main_v31 (by decide), valC,
    valD _ (valC_c4 _), keepC _ main_v28 (by decide), h28,
    keep4 V main_arg7 (by decide) (by decide) (by decide) (by decide), keep4 V main_arg8 (by decide) (by decide) (by decide) (by decide),
    keep4 V main_arg9 (by decide) (by decide) (by decide) (by decide), keep4 V main_arg10 (by decide) (by decide) (by decide) (by decide)]
  rfl

/-- On the device, from any memory with zero counters: every weakly fair execution of the reference terminates with
    its result buffer at `res` of the arguments' launch contents, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v53) = res (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h c main_v53).trans (res_eq _),
      (h c main_arg0).trans (arg_eq _ main_arg0 (by decide) (by decide) (by decide) (by decide) (by decide)),
      (h c main_arg1).trans (arg_eq _ main_arg1 (by decide) (by decide) (by decide) (by decide) (by decide)),
      (h c main_arg2).trans (arg_eq _ main_arg2 (by decide) (by decide) (by decide) (by decide) (by decide)),
      (h c main_arg3).trans (arg_eq _ main_arg3 (by decide) (by decide) (by decide) (by decide) (by decide)),
      (h c main_arg4).trans (arg_eq _ main_arg4 (by decide) (by decide) (by decide) (by decide) (by decide)),
      (h c main_arg5).trans (arg_eq _ main_arg5 (by decide) (by decide) (by decide) (by decide) (by decide)),
      (h c main_arg6).trans (arg_eq _ main_arg6 (by decide) (by decide) (by decide) (by decide) (by decide)),
      (h c main_arg7).trans (arg_eq _ main_arg7 (by decide) (by decide) (by decide) (by decide) (by decide)),
      (h c main_arg8).trans (arg_eq _ main_arg8 (by decide) (by decide) (by decide) (by decide) (by decide)),
      (h c main_arg9).trans (arg_eq _ main_arg9 (by decide) (by decide) (by decide) (by decide) (by decide)),
      (h c main_arg10).trans (arg_eq _ main_arg10 (by decide) (by decide) (by decide) (by decide) (by decide))⟩)
    (run_seq scopedRefs_eq scopedSems_eq defs main (fun _ => ops) main_eq (fun _ => ops_sub) m ρ (fun _ => ops_fresh))

end Cert.ReferenceIdeal.RefRun

end
-- ==== Proof.Algebra.lean ====
import proofs.«400297_j2095944040567_3_alg».proof.Proof.Spec
import Mathlib.Data.EReal.Basic
import Mathlib.Data.EReal.Operations
import Mathlib.Algebra.BigOperators.Group.Finset.Basic
import Mathlib.Algebra.BigOperators.Ring.Finset
import Mathlib.Tactic.Ring
import Mathlib.Tactic.FieldSimp
import Mathlib.Tactic.NormNum

/-
  The algebra on the extended reals behind the agreement of the two variances.

  On a column of real numbers r₁ … r_N with mean μ = (Σ r) / N, the mean of the squares minus the square of the mean is
  the mean of the squared deviations:  (Σ r²) / N − μ² = (Σ (r − μ)²) / N.  The identity needs N to be the number of
  summands, which is where the value 50000 of the divisor's word is read. On the extended reals the identity is false at
  the infinities, so it is stated for columns all of whose entries are real; the first linear layer has real entries when
  its inputs do, and the result sees the variance only through one argument.
-/

noncomputable section

namespace Cert.Gine

open Idealize.ShloMosaic Idealize.ShloMosaic.ValueIdx

/-! ### The literal words that are evaluated -/

/-- the printed word 0x47435000 is the real number 50000 -/
theorem cN_eq : cN = ((50000 : ℝ) : EReal) := by
  simp [Ideal.ofBits, Ideal.ieee, -EReal.coe_mul]; norm_num

/-- the printed word 0x3F800000 is the real number 1 -/
theorem one_eq : one = ((1 : ℝ) : EReal) := by
  simp [Ideal.ofBits, Ideal.ieee, -EReal.coe_mul]; norm_num

/-- the all-zero word is 0 -/
theorem zero_word : Ideal.ofBits .f32 0x00000000#32 = 0 := Ideal.ofBits_zero_f32

/-! ### Finite sums of reals inside the extended reals -/

/-- the inclusion of the reals commutes with finite sums -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- general: a finite sum of real-valued extended reals is real-valued -/
theorem sum_real {ι : Type} (s : Finset ι) (f : ι → EReal) (hf : ∀ i ∈ s, ∃ r : ℝ, f i = (r : EReal)) :
    ∃ r : ℝ, (∑ i ∈ s, f i) = (r : EReal) := by
  classical
  induction s using Finset.induction_on with
  | empty => exact ⟨0, by simp⟩
  | insert a s ha ih =>
    obtain ⟨r, hr⟩ := hf a (Finset.mem_insert_self a s)
    obtain ⟨t, ht⟩ := ih (fun i hi => hf i (Finset.mem_insert_of_mem hi))
    exact ⟨r + t, by rw [Finset.sum_insert ha, hr, ht, EReal.coe_add]⟩

/-! ### The identity of the two variances on the reals -/

/-- on the reals, with `c` the number of summands: `(Σ r²)/c − ((Σ r)/c)² = (Σ (r − (Σ r)/c)²)/c` -/
theorem real_var_identity {ι : Type} [Fintype ι] (c : ℝ) (hc : (Fintype.card ι : ℝ) = c) (h0 : c ≠ 0) (r : ι → ℝ) :
    (∑ n, r n * r n) * (1 / c) - ((∑ n, r n) * (1 / c)) * ((∑ n, r n) * (1 / c))
      = (∑ n, (r n - (∑ m, r m) * (1 / c)) * (r n - (∑ m, r m) * (1 / c))) * (1 / c) := by
  set S : ℝ := ∑ n, r n with hS
  set Q : ℝ := ∑ n, r n * r n with hQ
  set μ : ℝ := S * (1 / c) with hμ
  have hdev : ∑ n, (r n - μ) * (r n - μ) = Q - 2 * μ * S + c * (μ * μ) := by
    have e : ∀ n, (r n - μ) * (r n - μ) = r n * r n - 2 * μ * r n + μ * μ := fun n => by ring
    simp_rw [e]
    rw [Finset.sum_add_distrib, Finset.sum_sub_distrib, ← Finset.mul_sum, Finset.sum_const, Finset.card_univ,
      nsmul_eq_mul, hc]
  rw [hdev, hμ]
  field_simp
  ring

/-! ### The two variances on a real column -/

/-- the two variances agree on a column all of whose entries are real -/
theorem varK_eq_varR (h : Fin 50000 → Fin 64 → EReal) (j : Fin 64) (hr : ∀ n, ∃ r : ℝ, h n j = (r : EReal)) :
    varK h j = varR h j := by
  choose r hr using hr
  have hN : (50000 : ℝ) ≠ 0 := by norm_num
  have hmean : mean h j = (((∑ n, r n) * (1 / 50000) : ℝ) : EReal) := by
    show Ideal.div (∑ n, h n j) cN = _
    rw [cN_eq, Ideal.div_coe hN]
    simp_rw [hr]
    rw [← coe_sum, ← EReal.coe_mul]
  have eK : varK h j
      = (((∑ n, r n * r n) * (1 / 50000) - ((∑ n, r n) * (1 / 50000)) * ((∑ n, r n) * (1 / 50000)) : ℝ) : EReal) := by
    show Ideal.div (∑ n, h n j * h n j) cN - mean h j * mean h j = _
    rw [hmean, cN_eq, Ideal.div_coe hN]
    simp_rw [hr, ← EReal.coe_mul]
    rw [← coe_sum, ← EReal.coe_mul, ← EReal.coe_sub]
  have eR : varR h j
      = (((∑ n, (r n - (∑ m, r m) * (1 / 50000)) * (r n - (∑ m, r m) * (1 / 50000))) * (1 / 50000) : ℝ) : EReal) := by
    show Ideal.div (∑ n, (h n j - mean h j) * (h n j - mean h j)) cN = _
    rw [hmean, cN_eq, Ideal.div_coe hN]
    simp_rw [hr, ← EReal.coe_sub, ← EReal.coe_mul]
    rw [← coe_sum, ← EReal.coe_mul]
  rw [eK, eR]
  exact congrArg _ (real_var_identity (50000 : ℝ) (by simp) hN r)

/-! ### The first linear layer on real inputs -/

/-- the first linear layer has real entries when its inputs do -/
theorem lin1_real (x g : FVec Ideal SN .f32) (W1 : FVec Ideal SW .f32) (b1 : FVec Ideal SV .f32) (hx : AllReal x)
    (hg : AllReal g) (hW : AllReal W1) (hb : AllReal b1) (n : Fin 50000) (j : Fin 64) :
    ∃ r : ℝ, lin1 x g W1 b1 n j = (r : EReal) := by
  obtain ⟨s, hs⟩ := sum_real Finset.univ (fun k : Fin 64 => hin x g n k * W1 (ix2 j k)) (fun k _ => by
    obtain ⟨a, ha⟩ := hx (ix2 n k)
    obtain ⟨b, hb'⟩ := hg (ix2 n k)
    obtain ⟨w, hw⟩ := hW (ix2 j k)
    refine ⟨(1 * a + b) * w, ?_⟩
    show (one * x (ix2 n k) + g (ix2 n k)) * W1 (ix2 j k) = _
    rw [one_eq, ha, hb', hw, ← EReal.coe_mul, ← EReal.coe_add, ← EReal.coe_mul])
  obtain ⟨t, ht⟩ := hb (ix1 j)
  refine ⟨s + t, ?_⟩
  show (∑ k : Fin 64, hin x g n k * W1 (ix2 j k)) + b1 (ix1 j) = _
  rw [hs, ht, ← EReal.coe_add]

/-! ### The result sees the variance through one argument -/

/-- the result only sees the variance through the argument of rsqrt, so equal variances give equal results -/
theorem out_congr (h : Fin 50000 → Fin 64 → EReal) (v v' : Fin 64 → EReal) (hv : ∀ j, v j = v' j)
    (gamma beta : FVec Ideal SV .f32) (W2 : FVec Ideal SW .f32) (b2 : FVec Ideal SV .f32) (n : Fin 50000) (i : Fin 64) :
    out h v gamma beta W2 b2 n i = out h v' gamma beta W2 b2 n i := by
  rw [funext hv]

/-- the bridge of the two variances, assembled: with real inputs the two results agree -/
theorem out_varK_eq_out_varR (x g : FVec Ideal SN .f32) (W1 : FVec Ideal SW .f32) (b1 : FVec Ideal SV .f32)
    (hx : AllReal x) (hg : AllReal g) (hW : AllReal W1) (hb : AllReal b1) (gamma beta : FVec Ideal SV .f32)
    (W2 : FVec Ideal SW .f32) (b2 : FVec Ideal SV .f32) (n : Fin 50000) (i : Fin 64) :
    out (lin1 x g W1 b1) (varK (lin1 x g W1 b1)) gamma beta W2 b2 n i
      = out (lin1 x g W1 b1) (varR (lin1 x g W1 b1)) gamma beta W2 b2 n i :=
  out_congr _ _ _ (fun j => varK_eq_varR _ j (fun m => lin1_real x g W1 b1 hx hg hW hb m j)) gamma beta W2 b2 n i

end Cert.Gine

end
-- ==== Proof.RefValue.lean ====
/-
  The reference's result read at an index.

  The reference's result is a composition of four stages over the aggregated messages g, which stay a variable here:
    the first linear layer      h = (1 · x + g) · W1ᵀ + b1;
    the column means            μ j = (Σ_n h n j) / N;
    the column variances        v j = (Σ_n (h n j − μ j)²) / (N − 0), selected where N − 0 > 0;
    the result                  max (γ · (h − μ) · rsqrt (v + ε) + β) 0, then · W2ᵀ + b2.
  Each stage is read at one index and found to be the specification's term there. The layout steps read as follows: a
  scalar laid over any shape reads the scalar; a vector of 64 laid along a single row and then down the 50000 rows reads,
  at (n, j), its entry j; a transposed 64 × 64 matrix reads, at (k, j), the operand at (j, k); a sum down the rows from
  the zero word reads, at column j, the sum over the 50000 rows; and the product of a 50000 × 64 by a 64 × 64 matrix
  reads, at (n, j), the sum over k of the left operand at (n, k) times the right operand at (k, j).

  Two literal words are evaluated: the all-zero word, which is 0 (the start of the sums, the rectifier's bound, the sign
  test's right side), and the word of 50000, only to see that it is above 0 in the variance's sign test. The integer 0
  converts to 0 and x − 0 = x for every extended real x, so the variance's divisor N − 0 is the word of N itself. The
  words of 1 and of ε are never evaluated: the same words stand in the specification.
-/
import proofs.«400297_j2095944040567_3_alg».proof.Proof.RefTerm
import proofs.«400297_j2095944040567_3_alg».proof.Proof.Spec
import proofs.«400297_j2095944040567_3_alg».proof.Proof.LibMatmul
import proofs.«400297_j2095944040567_3_alg».proof.Proof.Algebra
import Idealize.ShloMosaic.PureOps.Ideal.Laws
import Idealize.ShloMosaic.Lib.ValueIdx
import Idealize.ShloMosaic.Lib.ValueLayout
import Idealize.ShloMosaic.Lib.Pipeline.Value

noncomputable section

namespace Cert.ReferenceIdeal.RefValue

open Idealize.ShloMosaic Idealize.ShloMosaic.ValueIdx Cert.ReferenceIdeal Cert.ReferenceIdeal.Gen Cert.ReferenceIdeal.RefRun

/-- A vector of 64 laid along a single row reads, at (0, j), its entry j. -/
theorem row1_apply {α : Type} (x : S64.Idx → α) (j : Fin 64) :
    broadcastInDim S1x64 ![1] bcast_S64_S1x64_1 x (ix2 (0 : Fin 1) j) = x (ix1 j) := by
  refine broadcastInDim_apply ![1] bcast_S64_S1x64_1 x (ix2 (0 : Fin 1) j) (ix1 j) ?_
  intro a
  match a with
  | ⟨0, _⟩ => rfl

/-- A single row laid down the 50000 rows reads, at (n, j), the row at (0, j). -/
theorem down_apply {α : Type} (y : S1x64.Idx → α) (n : Fin 50000) (j : Fin 64) :
    broadcastInDim S50000x64 ![0, 1] bcast_S1x64_S50000x64_0_1 y (ix2 n j) = y (ix2 (0 : Fin 1) j) := by
  refine broadcastInDim_apply ![0, 1] bcast_S1x64_S50000x64_0_1 y (ix2 n j) (ix2 (0 : Fin 1) j) ?_
  intro a
  match a with
  | ⟨0, _⟩ => rfl
  | ⟨1, _⟩ => rfl

/-- A vector of 64 laid along a single row and then down the 50000 rows reads, at (n, j), its entry j. -/
theorem rows_apply {α : Type} (x : S64.Idx → α) (n : Fin 50000) (j : Fin 64) :
    broadcastInDim S50000x64 ![0, 1] bcast_S1x64_S50000x64_0_1 (broadcastInDim S1x64 ![1] bcast_S64_S1x64_1 x) (ix2 n j)
      = x (ix1 j) :=
  (down_apply _ n j).trans (row1_apply x j)

/-- The sum down the rows from the zero word: at column j, the sum over the 50000 rows. -/
theorem colsum_apply (x : FVec Ideal S50000x64 .f32) (j : Fin 64) :
    Host.reduceAdd (F := Ideal) x (constant (F := Ideal) S_ .f32 0x00000000#32) reducesTo_S50000x64_S64_d0 h_S_ (ix1 j)
      = ∑ n : Fin 50000, x (ix2 n j) := by
  have hR : S50000x64.Reduces [0] S64 := by decide
  refine (Ideal.hostReduceAdd_single reducesTo_S50000x64_S64_d0 hR x _ (ix1 j)).trans ?_
  rw [show (constant (F := Ideal) S_ .f32 0x00000000#32) (Shape.Idx.first h_S_) = (0 : EReal) from Ideal.ofBits_zero_f32, zero_add]
  refine Finset.sum_congr rfl fun k _ => congrArg x ?_
  funext a
  refine Fin.ext ?_
  match a with
  | ⟨0, _⟩ => rfl
  | ⟨1, _⟩ => rfl

/-- THE FIRST LINEAR LAYER AT (n, j): row n of 1·a0 + g against row j of a5, plus a6 j. -/
theorem hlin_apply (a0 g : FVec Ideal S50000x64 .f32) (a5 : FVec Ideal S64x64 .f32) (a6 : FVec Ideal S64 .f32)
    (n : Fin 50000) (j : Fin 64) : hlin a0 g a5 a6 (ix2 n j) = Cert.Gine.lin1 a0 g a5 a6 n j := by
  unfold hlin Cert.Gine.lin1
  refine congrArg₂ (· + ·) ?_ (rows_apply a6 n j)
  refine (Cert.Matmul.dotGeneral_plain_apply (M := 50000) (K := 64) (N := 64) none HostSchedule.single _ _ n j).trans ?_
  refine Finset.sum_congr rfl fun k _ => ?_
  refine congrArg₂ (· * ·) rfl ?_
  exact transpose_ix2_apply a5 transposes_S64x64_S64x64_1_0 k j

/-- THE COLUMN MEAN AT j: the column's sum over the word of 50000. -/
theorem mean_apply (h : FVec Ideal S50000x64 .f32) (j : Fin 64) :
    mean h (ix1 j) = Cert.Gine.mean (fun n j => h (ix2 n j)) j := by
  unfold mean Cert.Gine.mean Cert.Gine.colSum
  refine congrArg₂ Ideal.div (colsum_apply h j) rfl

/-- The column mean as the variance stage spells it (divided on the single row, then laid down the rows), at (n, j). -/
theorem meanRows_apply (h : FVec Ideal S50000x64 .f32) (n : Fin 50000) (j : Fin 64) :
    broadcastInDim S50000x64 ![0, 1] bcast_S1x64_S50000x64_0_1
      (Host.divf (F := Ideal)
        (broadcastInDim S1x64 ![1] bcast_S64_S1x64_1
          (Host.reduceAdd (F := Ideal) h (constant (F := Ideal) S_ .f32 0x00000000#32) reducesTo_S50000x64_S64_d0 h_S_))
        (broadcastInDim S1x64 ![] bcast_S_S1x64 (constant (F := Ideal) S_ .f32 0x47435000#32))) (ix2 n j)
      = Cert.Gine.mean (fun n j => h (ix2 n j)) j := by
  refine (down_apply _ n j).trans ?_
  unfold Cert.Gine.mean Cert.Gine.colSum
  exact congrArg₂ Ideal.div ((row1_apply _ j).trans (colsum_apply h j)) rfl

/-- The variance's divisor: the word of 50000 minus the integer 0 converted, which is the word of 50000. -/
theorem divisor_apply (i : S_.Idx) :
    subf (constant (F := Ideal) S_ .f32 0x47435000#32) (sitofp (F := Ideal) .f32 (constantI S_ 32 0#32)) i = Cert.Gine.cN := by
  show Cert.Gine.cN - (((0#32 : BitVec 32).toInt : ℝ) : EReal) = Cert.Gine.cN
  simp

/-- The divisor's sign test holds: 50000 is above 0. -/
theorem positive_apply (i : S_.Idx) :
    cmpf (F := Ideal) .ogt
        (subf (constant (F := Ideal) S_ .f32 0x47435000#32) (sitofp (F := Ideal) .f32 (constantI S_ 32 0#32)))
        (constant (F := Ideal) S_ .f32 0x00000000#32) i = 1#1 := by
  show Ideal.cmp .ogt
      (subf (constant (F := Ideal) S_ .f32 0x47435000#32) (sitofp (F := Ideal) .f32 (constantI S_ 32 0#32)) i)
      (Ideal.ofBits .f32 0x00000000#32) = 1#1
  rw [divisor_apply, Ideal.ofBits_zero_f32, Cert.Gine.cN_eq]
  have hpos : (0 : EReal) < ((50000 : ℝ) : EReal) := EReal.coe_pos.mpr (by norm_num)
  unfold Ideal.cmp
  simp [hpos]

/-- THE COLUMN VARIANCE AT j: the mean of the squared deviations, the sign test's first arm selected. -/
theorem var_apply (h : FVec Ideal S50000x64 .f32) (j : Fin 64) :
    var h (ix1 j) = Cert.Gine.varR (fun n j => h (ix2 n j)) j := by
  unfold var Cert.Gine.varR Cert.Gine.colSum
  refine (select_apply _ _ _ (ix1 j)).trans ?_
  refine (congrArg (fun c => Scalar.select c _ _) (positive_apply _)).trans ?_
  refine (select_one _ _).trans ?_
  refine congrArg₂ Ideal.div ?_ (divisor_apply _)
  refine (colsum_apply _ j).trans ?_
  refine Finset.sum_congr rfl fun n _ => ?_
  refine congrArg₂ (· * ·) ?_ ?_ <;> exact congrArg₂ (· - ·) rfl (meanRows_apply h n j)

/-- THE RESULT STAGE AT (n, i): the normalised, rectified row n against row i of a9, plus a10 i. -/
theorem out_apply (h : FVec Ideal S50000x64 .f32) (mu v : FVec Ideal S64 .f32) (a7 a8 : FVec Ideal S64 .f32)
    (a9 : FVec Ideal S64x64 .f32) (a10 : FVec Ideal S64 .f32) (n : Fin 50000) (i : Fin 64)
    (hmu : ∀ j, mu (ix1 j) = Cert.Gine.mean (fun n j => h (ix2 n j)) j) :
    out h mu v a7 a8 a9 a10 (ix2 n i)
      = Cert.Gine.out (fun n j => h (ix2 n j)) (fun j => v (ix1 j)) a7 a8 a9 a10 n i := by
  unfold out Cert.Gine.out
  refine congrArg₂ (· + ·) ?_ (rows_apply a10 n i)
  refine (Cert.Matmul.dotGeneral_plain_apply (M := 50000) (K := 64) (N := 64) none HostSchedule.single _ _ n i).trans ?_
  refine Finset.sum_congr rfl fun j _ => ?_
  refine congrArg₂ (· * ·) ?_ (transpose_ix2_apply a9 transposes_S64x64_S64x64_1_0 j i)
  unfold Cert.Gine.bn
  refine congrArg₂ max ?_ Ideal.ofBits_zero_f32
  refine congrArg₂ (· + ·) ?_ (rows_apply a8 n j)
  refine congrArg₂ (· * ·) ?_ ?_
  · refine congrArg₂ (· * ·) (rows_apply a7 n j) ?_
    exact congrArg₂ (· - ·) rfl ((rows_apply mu n j).trans (hmu j))
  · exact (rows_apply _ n j).trans rfl

/-- THE REFERENCE'S RESULT AT (n, i): the specification at the first linear layer of the node array and the
    aggregate, with the variance as the mean of the squared deviations. -/
theorem res_apply (a0 : FVec Ideal S50000x64 .f32) (a1 : IVec S2x1000000 32) (a2 : FVec Ideal S1000000x16 .f32)
    (a3 : FVec Ideal S64x16 .f32) (a4 : FVec Ideal S64 .f32) (a5 : FVec Ideal S64x64 .f32) (a6 a7 a8 : FVec Ideal S64 .f32)
    (a9 : FVec Ideal S64x64 .f32) (a10 : FVec Ideal S64 .f32) (n : Fin 50000) (i : Fin 64) :
    res a0 a1 a2 a3 a4 a5 a6 a7 a8 a9 a10 (ix2 n i)
      = Cert.Gine.out (Cert.Gine.lin1 a0 (agg a0 a1 a2 a3 a4) a5 a6)
          (Cert.Gine.varR (Cert.Gine.lin1 a0 (agg a0 a1 a2 a3 a4) a5 a6)) a7 a8 a9 a10 n i := by
  have e1 : (fun n j => hlin a0 (agg a0 a1 a2 a3 a4) a5 a6 (ix2 n j)) = Cert.Gine.lin1 a0 (agg a0 a1 a2 a3 a4) a5 a6 :=
    funext fun n => funext fun j => hlin_apply a0 (agg a0 a1 a2 a3 a4) a5 a6 n j
  have e2 : (fun j => var (hlin a0 (agg a0 a1 a2 a3 a4) a5 a6) (ix1 j))
      = Cert.Gine.varR (Cert.Gine.lin1 a0 (agg a0 a1 a2 a3 a4) a5 a6) :=
    funext fun j => (var_apply _ j).trans (congrArg (fun hh => Cert.Gine.varR hh j) e1)
  unfold res
  refine (out_apply (hlin a0 (agg a0 a1 a2 a3 a4) a5 a6) _ _ a7 a8 a9 a10 n i (fun j => mean_apply _ j)).trans ?_
  exact congrArg₂ (fun hh vv => Cert.Gine.out hh vv a7 a8 a9 a10 n i) e1 e2

end Cert.ReferenceIdeal.RefValue

end
-- ==== Proof.Agg.lean ====
/-
  The aggregated messages of the two programs agree, and are real numbers.

  Both programs form, for every edge, the source row of the node array (a negative source index wrapped by the row
  count), add the edge's linear image, clamp at zero from below, and sum the rows into their destination rows of a zero
  array. The kernel program replaces a gathered row by the fill word wherever the wrapped index lies outside the rows.
  For a source index s with −50000 ≤ s < 50000 the wrapped index w = (s if 0 ≤ s, else s + 50000) satisfies
  0 ≤ w ≤ 49999, so nothing is replaced and the two terms coincide. With real inputs every stage keeps real values:
  a gathered entry is an entry of the node array, a contraction is a finite sum of products of reals, a maximum of
  two reals is one of them, and the scatter adds finitely many reals to zero.
-/
import proofs.«400297_j2095944040567_3_alg».proof.Proof.RefTerm
import proofs.«400297_j2095944040567_3_alg».proof.Proof.KTerm
import proofs.«400297_j2095944040567_3_alg».proof.Proof.Spec
import proofs.«400297_j2095944040567_3_alg».proof.Proof.Algebra
import Idealize.ShloMosaic.PureOps.Ideal.Laws
import Idealize.ShloMosaic.Lib.ValueIdx
import Idealize.ShloMosaic.Lib.ValueLayout
import Idealize.ShloMosaic.Lib.Pipeline.Value
import Idealize.ShloMosaic.Lib.Affine
import Idealize.ShloMosaic.Lib.ReduceAll

noncomputable section

namespace Cert.Gine.Agg

open Idealize.ShloMosaic Idealize.ShloMosaic.ValueIdx

/-! ### Words: the wrapped source index lies in the rows -/

/-- For a word s with −50000 ≤ s < 50000 (read signed), the wrapped word w = (s + 50000 if s < 0, else s)
    satisfies 0 ≤ w and w ≤ 49999. -/
theorem wrap_in_rows (s : BitVec 32) (hlo : (-50000 : Int) ≤ s.toInt) (hhi : s.toInt < 50000) :
    IntOp.cmpi .sge (Scalar.select (IntOp.cmpi .slt s 0#32) (IntOp.addi s 50000#32) s) 0#32 = 1#1
      ∧ IntOp.cmpi .sle (Scalar.select (IntOp.cmpi .slt s 0#32) (IntOp.addi s 50000#32) s) 49999#32 = 1#1 := by
  have h0 : (0#32 : BitVec 32).toInt = 0 := by decide
  have h5 : (50000#32 : BitVec 32).toInt = 50000 := by decide
  have h4 : (49999#32 : BitVec 32).toInt = 49999 := by decide
  rw [IntOp.cmpi_sge, IntOp.cmpi_sle, h0, h4]
  by_cases hneg : IntOp.cmpi .slt s 0#32 = 1#1
  · have hs : s.toInt < 0 := by rw [IntOp.cmpi_slt, h0] at hneg; exact hneg
    rw [hneg, select_one]
    have hadd : (IntOp.addi s 50000#32).toInt = s.toInt + 50000 := by
      show (s + 50000#32).toInt = _
      rw [BitVec.toInt_add, h5]
      exact Int.bmod_eq_of_le (by omega) (by omega)
    rw [hadd]; omega
  · have hs : ¬ s.toInt < 0 := by rw [IntOp.cmpi_slt, h0] at hneg; exact hneg
    rw [eq_zero_of_ne_one hneg, select_zero]; omega

/-! ### A conjunction over an axis of ones is one -/

/-- A left fold by "and" from 1 over words that are all 1 is 1. -/
theorem foldl_andi_ones {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self]
    exact foldl_andi_ones f l (fun n hn => h n (List.mem_cons_of_mem a hn))

/-- A reduction by "and" from the constant 1 of an array of ones is 1 at every index. -/
theorem reduce_andi_ones {s t u : Shape} {axes : List (Fin s.rank)} (x : s.Idx → BitVec 1) (h : s.ReducesTo axes t)
    (hu : 0 < u.numel) (hx : ∀ i, x i = 1#1) (j : t.Idx) :
    Host.reduce IntOp.andi x (constantI u 1 1#1) h hu j = 1#1 := by
  rw [Host.reduce_eq_foldl]
  exact foldl_andi_ones x _ (fun n _ => hx n)

/-- A select whose condition is 1 everywhere is its first operand. -/
theorem select_of_ones {s : Shape} {α : Type} (c : IVec s 1) (a b : s.Idx → α) (hc : ∀ i, c i = 1#1) :
    select c a b = a :=
  funext fun i => by rw [select_apply, hc i, select_one]

/-! ### Reading the index row, the wrapped index, and the in-range mask -/

section Kernel
open Cert.KernelIdeal Cert.KernelIdeal.Gen

/-- Row 0 of the index array, cut out as a 1 × n slice and flattened, read at position e. -/
theorem row0_read (a1 : IVec S2x1000000 32) (hs : S2x1000000.Slices ![0, 0] S1x1000000)
    (hc : S1x1000000.ShapeCasts S1000000) (e : Fin 1000000) :
    shapeCast S1000000 (extractStridedSlice S1x1000000 ![0, 0] a1 hs) hc (ix1 e) = a1 (ix2 (0 : Fin 2) e) := by
  rw [shapeCast_1a_a_apply]
  refine extractStridedSlice_apply _ _ _ _ _ (fun ax => ?_)
  match ax with
  | ⟨0, _⟩ => rfl
  | ⟨1, _⟩ => exact (Nat.zero_add _).symm

/-- Where every entry v of an index vector satisfies −50000 ≤ v < 50000, every entry w of the wrapped vector
    (v + 50000 where v < 0, else v) satisfies 0 ≤ w ≤ 49999. -/
theorem wrapped_in_rows (v : IVec S1000000 32)
    (hv : ∀ k, (-50000 : Int) ≤ (v k).toInt ∧ (v k).toInt < 50000) (k : S1000000.Idx) :
    IntOp.cmpi .sge
        (select (cmpi .slt v (broadcastInDim S1000000 ![] bcast_S_S1000000 (constantI S_ 32 0#32)))
          (addi v (broadcastInDim S1000000 ![] bcast_S_S1000000 (constantI S_ 32 50000#32))) v k) 0#32 = 1#1
      ∧ IntOp.cmpi .sle
        (select (cmpi .slt v (broadcastInDim S1000000 ![] bcast_S_S1000000 (constantI S_ 32 0#32)))
          (addi v (broadcastInDim S1000000 ![] bcast_S_S1000000 (constantI S_ 32 50000#32))) v k) 49999#32 = 1#1 :=
  wrap_in_rows (v k) (hv k).1 (hv k).2

/-- Where every entry w of an index vector satisfies 0 ≤ w ≤ 49999, the mask "the index, laid as a column, is at
    least 0 and at most 49999, conjoined over the singleton axis, laid along the columns" is 1 everywhere. -/
theorem mask_ones (w : IVec S1000000 32)
    (hw : ∀ k, IntOp.cmpi .sge (w k) 0#32 = 1#1 ∧ IntOp.cmpi .sle (w k) 49999#32 = 1#1) (i : S1000000x64.Idx) :
    broadcastInDim S1000000x64 ![0] bcast_S1000000_S1000000x64_0
      (Host.reduce IntOp.andi
        (andi
          (cmpi .sge (broadcastInDim S1000000x1 ![0] bcast_S1000000_S1000000x1_0 w)
            (broadcastInDim S1000000x1 ![] bcast_S_S1000000x1 (constantI S_ 32 0#32)))
          (cmpi .sle (broadcastInDim S1000000x1 ![0] bcast_S1000000_S1000000x1_0 w)
            (broadcastInDim S1000000x1 ![0, 1] bcast_S1x1_S1000000x1_0_1
              (broadcastInDim S1x1 ![1] bcast_S1_S1x1_1 (constantI S1 32 49999#32)))))
        (constantI S_ 1 1#1) reducesTo_S1000000x1_S1000000_d1 h_S_) i = 1#1 := by
  unfold broadcastInDim
  refine reduce_andi_ones _ _ _ (fun j => ?_) _
  exact IntOp.andi_eq_one.2 (hw _)

end Kernel

/-! ### The two terms -/

/-- With every source index in [−50000, 50000) the kernel program's aggregated messages are the reference's. -/
theorem aggK_eq_agg (a0 : FVec Ideal Cert.KernelIdeal.S50000x64 .f32) (a1 : IVec Cert.KernelIdeal.S2x1000000 32)
    (a2 : FVec Ideal Cert.KernelIdeal.S1000000x16 .f32) (a3 : FVec Ideal Cert.KernelIdeal.S64x16 .f32)
    (a4 : FVec Ideal Cert.KernelIdeal.S64 .f32)
    (hsrc : ∀ e : Fin 1000000, (-50000 : Int) ≤ (a1 (ValueIdx.ix2 (0 : Fin 2) e)).toInt
      ∧ (a1 (ValueIdx.ix2 (0 : Fin 2) e)).toInt < 50000) :
    Cert.KernelIdeal.KHost.aggK a0 a1 a2 a3 a4 = Cert.ReferenceIdeal.RefRun.agg a0 a1 a2 a3 a4 := by
  -- every entry of the flattened row 0 is a source index, so lies in [−50000, 50000)
  have hv : ∀ k : Cert.KernelIdeal.S1000000.Idx,
      (-50000 : Int) ≤ (shapeCast Cert.KernelIdeal.S1000000
          (extractStridedSlice Cert.KernelIdeal.S1x1000000 ![0, 0] a1
            Cert.KernelIdeal.Gen.slices_S2x1000000_S1x1000000_0_0)
          Cert.KernelIdeal.Gen.shapeCasts_S1x1000000_S1000000 k).toInt
        ∧ (shapeCast Cert.KernelIdeal.S1000000
          (extractStridedSlice Cert.KernelIdeal.S1x1000000 ![0, 0] a1
            Cert.KernelIdeal.Gen.slices_S2x1000000_S1x1000000_0_0)
          Cert.KernelIdeal.Gen.shapeCasts_S1x1000000_S1000000 k).toInt < 50000 := fun k => by
    obtain ⟨e, rfl⟩ : ∃ e : Fin 1000000, k = ix1 e := ⟨k 0, eq_ix1 k⟩
    rw [row0_read]
    exact hsrc e
  unfold Cert.KernelIdeal.KHost.aggK Cert.ReferenceIdeal.RefRun.agg
  dsimp only
  -- the mask is 1 everywhere, so the select keeps the gathered rows; the rest is the same term
  rw [select_of_ones _ _ _ (mask_ones _ (wrapped_in_rows _ hv))]
  rfl

/-! ### Real values through the stages -/

/-- a sum of two reals is real -/
theorem real_add {x y : EReal} (hx : ∃ r : ℝ, x = (r : EReal)) (hy : ∃ r : ℝ, y = (r : EReal)) :
    ∃ r : ℝ, x + y = (r : EReal) := by
  obtain ⟨a, rfl⟩ := hx
  obtain ⟨b, rfl⟩ := hy
  exact ⟨a + b, (EReal.coe_add a b).symm⟩

/-- a product of two reals is real -/
theorem real_mul {x y : EReal} (hx : ∃ r : ℝ, x = (r : EReal)) (hy : ∃ r : ℝ, y = (r : EReal)) :
    ∃ r : ℝ, x * y = (r : EReal) := by
  obtain ⟨a, rfl⟩ := hx
  obtain ⟨b, rfl⟩ := hy
  exact ⟨a * b, (EReal.coe_mul a b).symm⟩

/-- the maximum of two reals is one of them -/
theorem real_max {x y : EReal} (hx : ∃ r : ℝ, x = (r : EReal)) (hy : ∃ r : ℝ, y = (r : EReal)) :
    ∃ r : ℝ, max x y = (r : EReal) := by
  rcases max_choice x y with h | h
  · rw [h]; exact hx
  · rw [h]; exact hy

section Stages
variable {s t : Shape}

/-- the splat of the zero word is real -/
theorem constant_zero_real : AllReal (constant (F := Ideal) s .f32 0x00000000#32) :=
  fun _ => ⟨0, zero_word.trans EReal.coe_zero.symm⟩

/-- a broadcast reads entries of its operand -/
theorem broadcastInDim_real (dims : Fin s.rank → Fin t.rank) (h : s.BroadcastsInDim t dims) (x : FVec Ideal s .f32)
    (hx : AllReal x) : AllReal (broadcastInDim t dims h x) :=
  fun _ => hx _

/-- a transposition reads entries of its operand -/
theorem transpose_real (perm : List (Fin s.rank)) (x : FVec Ideal s .f32) (h : s.Transposes perm t) (hx : AllReal x) :
    AllReal (transpose t perm x h) :=
  fun _ => hx _

/-- a gather reads entries of its operand -/
theorem gather_real {si : Shape} {w : Nat} (d : GatherDims s si t) (x : FVec Ideal s .f32) (idx : IVec si w)
    (hx : AllReal x) : AllReal (Host.gather d x idx) :=
  fun _ => hx _

/-- an entrywise sum of real arrays is real -/
theorem addf_real (x y : FVec Ideal s .f32) (hx : AllReal x) (hy : AllReal y) : AllReal (addf x y) :=
  fun i => real_add (hx i) (hy i)

/-- an entrywise maximum of real arrays is real -/
theorem maximumf_real (x y : FVec Ideal s .f32) (hx : AllReal x) (hy : AllReal y) : AllReal (maximumf x y) :=
  fun i => real_max (hx i) (hy i)

/-- a contraction of real arrays is a finite sum of products of reals -/
theorem dotGeneral_real {sl sr so : Shape} (d : DotDims sl sr so) (prec : Option ContractPrecision)
    (lhs : FVec Ideal sl .f32) (rhs : FVec Ideal sr .f32) (hl : AllReal lhs) (hr : AllReal rhs) :
    AllReal (Host.dotGeneral (F := Ideal) d prec lhs rhs) := fun j => by
  obtain ⟨r, hsum⟩ := sum_real Finset.univ (fun k : d.contr.Idx => lhs (d.lhsIdx j k) * rhs (d.rhsIdx j k))
    (fun k _ => real_mul (hl _) (hr _))
  exact ⟨r, (Ideal.dotGeneral_apply d prec _ lhs rhs j).trans hsum⟩

/-- an accumulating scatter of real updates into a real array is real: each entry is the operand's plus a finite sum
    of updates -/
theorem scatterAdd_real {si su : Shape} {w : Nat} (d : ScatterDims s si su) (x : FVec Ideal s .f32) (idx : IVec si w)
    (upd : FVec Ideal su .f32) (hx : AllReal x) (hu : AllReal upd) :
    AllReal (Host.scatterAdd (F := Ideal) d x idx upd) := fun i => by
  show ∃ r : ℝ, x i + Finset.sum _ (fun j => upd j) = (r : EReal)
  exact real_add (hx i) (sum_real _ _ (fun j _ => hu j))

end Stages

/-- With real inputs the reference's aggregated messages are real. -/
theorem agg_real (a0 : FVec Ideal Cert.ReferenceIdeal.S50000x64 .f32) (a1 : IVec Cert.ReferenceIdeal.S2x1000000 32)
    (a2 : FVec Ideal Cert.ReferenceIdeal.S1000000x16 .f32) (a3 : FVec Ideal Cert.ReferenceIdeal.S64x16 .f32)
    (a4 : FVec Ideal Cert.ReferenceIdeal.S64 .f32)
    (h0 : Cert.Gine.AllReal a0) (h2 : Cert.Gine.AllReal a2) (h3 : Cert.Gine.AllReal a3) (h4 : Cert.Gine.AllReal a4) :
    Cert.Gine.AllReal (Cert.ReferenceIdeal.RefRun.agg a0 a1 a2 a3 a4) := by
  unfold Cert.ReferenceIdeal.RefRun.agg
  dsimp only
  refine scatterAdd_real _ _ _ _ (broadcastInDim_real _ _ _ constant_zero_real) ?_
  refine maximumf_real _ _ (addf_real _ _ (gather_real _ _ _ h0) (addf_real _ _ ?_ ?_))
    (broadcastInDim_real _ _ _ constant_zero_real)
  · exact dotGeneral_real _ _ _ _ h2 (transpose_real _ _ _ h3)
  · exact broadcastInDim_real _ _ _ (broadcastInDim_real _ _ _ h4)

end Cert.Gine.Agg

end
-- ==== Proof.Pre.lean ====
/-
  Reading the precondition: every float argument has only real entries, and the first row of the
  integer table lies in the half-open range [-50000, 50000).
-/
import proofs.«400297_j2095944040567_3_alg».proof.Pre_finite_inputs
import Idealize.ShloMosaic.PureOps.Ideal
import Idealize.ShloMosaic.PureOps.Ideal.Laws
import Idealize.ShloMosaic.Lib.ValueIdx
import Idealize.ShloMosaic.Lib.ValueLayout
import Idealize.ShloMosaic.Lib.Affine
import Idealize.ShloMosaic.Lib.ReduceAll
import Idealize.ShloMosaic.Lib.Pipeline.Value
import Idealize.ShloMosaic.Lib.StableHlo.Predicate

namespace Cert.PreFacts

open Idealize.ShloMosaic Idealize.ShloMosaic.ValueIdx Cert.Pre_finite_inputs

/-- an array all of whose entries are real numbers -/
def AllReal {s : Shape} (v : s.Idx → EReal) : Prop := ∀ i, ∃ r : ℝ, v i = (r : EReal)

/-- The scalar shape has one index. -/
instance : Subsingleton S_.Idx := ⟨fun a b => funext fun d => d.elim0⟩

/-- The pattern 0x7F800000 denotes +∞. -/
theorem ofBits_inf : Ideal.ofBits .f32 0x7F800000#32 = ⊤ := by simp [Ideal.ofBits, Ideal.ieee]

/-- An extended real whose absolute value is strictly below +∞ is a real number. -/
theorem real_of_abs_lt_inf (x : Ideal .f32)
    (h : FloatOps.cmpf .olt (FloatOps.hostAbsf x) (FloatOps.ofBits (F := Ideal) .f32 0x7F800000#32) = 1#1) :
    ∃ r : ℝ, x = (r : EReal) := by
  have h' : Ideal.cmp .olt (max (x : EReal) (-(x : EReal))) (Ideal.ofBits .f32 0x7F800000#32) = 1#1 := h
  rw [ofBits_inf] at h'
  unfold Ideal.cmp at h'
  have hlt : max (x : EReal) (-(x : EReal)) < ⊤ := by
    by_contra hn
    simp [hn] at h'
  rw [max_lt_iff] at hlt
  induction x using EReal.rec with
  | bot => simp at hlt
  | coe r => exact ⟨r, rfl⟩
  | top => simp at hlt

/-- jnp.all(|x| < +inf) being true makes every entry of x real. -/
theorem allReal_of_all {s : Shape} {axes : List (Fin s.rank)} (x : FVec Ideal s .f32)
    (hb : S_.BroadcastsInDim s (![] : Fin 0 → Fin s.rank)) (hr : s.ReducesTo axes S_) (hu : 0 < S_.numel) (init : IVec S_ 1)
    (e : Host.reduce IntOp.andi (cmpf .olt (Host.absf x) (broadcastInDim s ![] hb (constant S_ .f32 0x7F800000#32))) init hr hu ix0
      = 1#1) : AllReal x := by
  intro i
  have hi := Host.reduce_andi_all _ init hr hu ix0 e i
  exact real_of_abs_lt_inf (x i) hi

/-- A conjunction of two one-bit arrays read at an index. -/
theorem andi_apply_eq_one {s : Shape} (a b : IVec s 1) (i : s.Idx) : andi a b i = 1#1 ↔ a i = 1#1 ∧ b i = 1#1 :=
  IntOp.andi_eq_one

/-- Row 0 of the integer table, cut out as a 1 × n slice and flattened, read at position e. -/
theorem row0_apply (a1 : IVec S2x1000000 32) (hs : S2x1000000.Slices ![0, 0] S1x1000000)
    (hc : S1x1000000.ShapeCasts S1000000) (e : Fin 1000000) :
    shapeCast S1000000 (extractStridedSlice S1x1000000 ![0, 0] a1 hs) hc (ix1 e) = a1 (ix2 (0 : Fin 2) e) := by
  rw [shapeCast_1a_a_apply]
  refine extractStridedSlice_apply _ _ _ _ _ (fun ax => ?_)
  match ax with
  | ⟨0, _⟩ => rfl
  | ⟨1, _⟩ => exact (Nat.zero_add _).symm

/-- The word 4294917296 read signed is -50000. -/
theorem toInt_lo : (4294917296#32 : BitVec 32).toInt = -50000 := by decide

/-- The word 50000 read signed is 50000. -/
theorem toInt_hi : (50000#32 : BitVec 32).toInt = 50000 := by decide

theorem of_fn [Cert.Pre_finite_inputs.Facts] (a0 : FVec Ideal S50000x64 .f32) (a1 : IVec S2x1000000 32) (a2 : FVec Ideal S1000000x16 .f32) (a3 : FVec Ideal S64x16 .f32) (a4 : FVec Ideal S64 .f32) (a5 : FVec Ideal S64x64 .f32) (a6 a7 a8 : FVec Ideal S64 .f32) (a9 : FVec Ideal S64x64 .f32) (a10 : FVec Ideal S64 .f32)
    (h : Cert.Pre_finite_inputs.fn (F := Ideal) a0 a1 a2 a3 a4 a5 a6 a7 a8 a9 a10 = fun _ => 1#1) :
    AllReal a0 ∧ AllReal a2 ∧ AllReal a3 ∧ AllReal a4 ∧ AllReal a5 ∧ AllReal a6 ∧ AllReal a7 ∧ AllReal a8 ∧ AllReal a9 ∧ AllReal a10
    ∧ ∀ e : Fin 1000000, (-50000 : Int) ≤ (a1 (ix2 (0 : Fin 2) e)).toInt ∧ (a1 (ix2 (0 : Fin 2) e)).toInt < 50000 := by
  have h0 := congrFun h ix0
  dsimp only [fn, fn_part1, fn_part2, fn_part3] at h0
  simp only [andi_apply_eq_one] at h0
  obtain ⟨⟨⟨⟨⟨⟨⟨⟨⟨⟨h0, h2⟩, h3⟩, h4⟩, h5⟩, h6⟩, h7⟩, h8⟩, h9⟩, h10⟩, hI⟩ := h0
  refine ⟨allReal_of_all a0 _ _ _ _ h0, allReal_of_all a2 _ _ _ _ h2, allReal_of_all a3 _ _ _ _ h3,
    allReal_of_all a4 _ _ _ _ h4, allReal_of_all a5 _ _ _ _ h5, allReal_of_all a6 _ _ _ _ h6,
    allReal_of_all a7 _ _ _ _ h7, allReal_of_all a8 _ _ _ _ h8, allReal_of_all a9 _ _ _ _ h9,
    allReal_of_all a10 _ _ _ _ h10, fun e => ?_⟩
  -- the conjunction of the two comparisons holds at every position of row 0
  have he := Host.reduce_andi_all _ _ _ _ ix0 hI (ix1 e)
  rw [andi_apply_eq_one] at he
  obtain ⟨hge, hlt⟩ := he
  change IntOp.cmpi .sge (shapeCast S1000000 (extractStridedSlice S1x1000000 ![0, 0] a1 _) _ (ix1 e)) 4294917296#32 = 1#1 at hge
  change IntOp.cmpi .slt (shapeCast S1000000 (extractStridedSlice S1x1000000 ![0, 0] a1 _) _ (ix1 e)) 50000#32 = 1#1 at hlt
  rw [row0_apply, IntOp.cmpi_sge, toInt_lo] at hge
  rw [row0_apply, IntOp.cmpi_slt, toInt_hi] at hlt
  exact ⟨hge, hlt⟩

end Cert.PreFacts
-- ==== Proof.lean ====
/-
  A node layer of a graph network, as a kernel program and as its reference, computes one function.

  Both programs first aggregate, on the host, the messages of a million edges: the source row of the node array plus a
  linear image of the edge's attributes, clamped at zero from below, summed into the edge's destination row. Then
  `h = (1 · x + aggregate) · W1ᵀ + b1` over 50000 rows of 64; the batch mean and variance of each column of `h`; the
  normalised, rectified rows `max (γ · (h − μ) · rsqrt (v + ε) + β) 0`; and a second linear layer with `W2`, `b2`.
  The kernel program does the two linear layers in two kernel regions over ten tiles of 5000 rows, the first also
  leaving each tile's column sums of `h` and of `h²`, from which the host takes `μ = (Σ h)/N` and `v = (Σ h²)/N − μ²`;
  the reference takes `v = (Σ (h − μ)²)/N`.

  The precondition: every float input finite, and every source index in `[-50000, 50000)` (the indices at which the
  reference's own row lookup is in range; a negative one wraps by the row count in both programs). Out of that range
  the two programs differ: the kernel program's lookup takes a fill that reads as `-∞`, which the clamp at zero turns
  into no message at all, while the reference's lookup clamps the index to the nearest row.

  * The three frames: the two kernel programs' are generated; the reference's is its run with the result dropped.
  * `preserves` is `True`: the idealization rewrote nothing.
  * `algebraic`: the kernel program's run with its result named (the launch over the generated segments, called again),
    its result read at an index (`KValue`), the reference's run (`RefRun`) and its result read at an index (`RefValue`),
    the two aggregates one array under the index range (`Agg`), and the two variances equal where `h` is real (`Algebra`).
-/
import proofs.«400297_j2095944040567_3_alg».proof.Defs
import proofs.«400297_j2095944040567_3_alg».proof.Proof.Gen.Kernel
import proofs.«400297_j2095944040567_3_alg».proof.Proof.Gen.Kernel.Skeleton
import proofs.«400297_j2095944040567_3_alg».proof.Proof.Gen.Kernel.Launch
import proofs.«400297_j2095944040567_3_alg».proof.Proof.Gen.Kernel.Points
import proofs.«400297_j2095944040567_3_alg».proof.Proof.Gen.Kernel.Frame
import proofs.«400297_j2095944040567_3_alg».proof.Proof.Gen.KernelIdeal
import proofs.«400297_j2095944040567_3_alg».proof.Proof.Gen.KernelIdeal.Skeleton
import proofs.«400297_j2095944040567_3_alg».proof.Proof.Gen.KernelIdeal.Launch
import proofs.«400297_j2095944040567_3_alg».proof.Proof.Gen.KernelIdeal.Points
import proofs.«400297_j2095944040567_3_alg».proof.Proof.Gen.KernelIdeal.Frame
import proofs.«400297_j2095944040567_3_alg».proof.Proof.Gen.ReferenceIdeal
import proofs.«400297_j2095944040567_3_alg».proof.Proof.Gen.Pre_finite_inputs
import proofs.«400297_j2095944040567_3_alg».proof.Proof.KernelRun
import proofs.«400297_j2095944040567_3_alg».proof.Proof.KValue
import proofs.«400297_j2095944040567_3_alg».proof.Proof.RefRun
import proofs.«400297_j2095944040567_3_alg».proof.Proof.RefValue
import proofs.«400297_j2095944040567_3_alg».proof.Proof.Agg
import proofs.«400297_j2095944040567_3_alg».proof.Proof.Algebra
import proofs.«400297_j2095944040567_3_alg».proof.Proof.Pre
import Idealize.ShloMosaic.Adequacy
import Idealize.ShloMosaic.Init

set_option maxRecDepth 16384

noncomputable section

namespace Cert.Proof

open Idealize.ShloMosaic Idealize.ShloMosaic.ValueIdx Idealize.SL.Sem

/-- The word-level kernel program runs and keeps its arguments: its generated frame. -/
theorem frame_k : Cert.frame_Kernel := fun m ρ _ => Cert.Kernel.Gen.frame m ρ

/-- The idealized kernel program runs and keeps its arguments: its generated frame. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.RefRun.run m ρ)

/-- From memories agreeing on the arguments both programs end with the same result. At `(n, i)` both results are the
    second linear layer of the normalised, rectified first layer; the first layers agree because, every source index
    being in range, the kernel program's gather never takes its fill, so the two aggregates are one array; and the
    two variances, `(Σ h²)/N − μ²` and `(Σ (h − μ)²)/N`, agree because every entry of the first layer is a real number
    (the float inputs are finite, and sums and products of reals are reals). -/
theorem algebraic : Cert.algebraic_KernelIdeal_ReferenceIdeal := by
  intro m ρ m' ρ' hpre hagree
  refine ⟨fun c => Cert.KernelIdeal.Gen.W8 m ρ c (Proc.devRef .tc Cert.KernelIdeal.main_v35), Cert.KernelIdeal.Gen.run_named m ρ, ?_⟩
  refine (θ_run Cert.ReferenceIdeal.defs _ _).mono (fun _ h c => ⟨(h c).1.trans ?_, (h c).2⟩)
    (Cert.ReferenceIdeal.RefRun.run m' ρ')
  obtain ⟨e0, e1, e2, e3, e4, e5, e6, e7, e8, e9, e10⟩ := hagree c
  rw [e0, e1, e2, e3, e4, e5, e6, e7, e8, e9, e10]
  obtain ⟨r0, r2, r3, r4, r5, r6, -, -, -, -, hsrc⟩ := Cert.PreFacts.of_fn _ _ _ _ _ _ _ _ _ _ _ (hpre c)
  funext idx
  obtain ⟨n, i, rfl⟩ : ∃ (n : Fin 50000) (i : Fin 64), idx = ix2 n i := ⟨idx 0, idx 1, eq_ix2 idx⟩
  refine (Cert.ReferenceIdeal.RefValue.res_apply _ _ _ _ _ _ _ _ _ _ _ n i).trans ?_
  refine Eq.trans ?_ (Cert.KernelIdeal.KValue.result_apply m ρ c n i).symm
  have hg := Cert.Gine.Agg.aggK_eq_agg (m ((c.tc : Thread Cert.KernelIdeal.nD Cert.KernelIdeal.τ).loc Cert.KernelIdeal.main_arg0)) (m ((c.tc : Thread Cert.KernelIdeal.nD Cert.KernelIdeal.τ).loc Cert.KernelIdeal.main_arg1))
    (m ((c.tc : Thread Cert.KernelIdeal.nD Cert.KernelIdeal.τ).loc Cert.KernelIdeal.main_arg2)) (m ((c.tc : Thread Cert.KernelIdeal.nD Cert.KernelIdeal.τ).loc Cert.KernelIdeal.main_arg3))
    (m ((c.tc : Thread Cert.KernelIdeal.nD Cert.KernelIdeal.τ).loc Cert.KernelIdeal.main_arg4)) hsrc
  unfold Cert.KernelIdeal.KValue.hA Cert.KernelIdeal.KValue.gA
  rw [hg]
  exact (Cert.Gine.out_varK_eq_out_varR _ _ _ _ (fun i => r0 i) (Cert.Gine.Agg.agg_real _ _ _ _ _ (fun i => r0 i) (fun i => r2 i) (fun i => r3 i) (fun i => r4 i))
    (fun i => r5 i) (fun i => r6 i) _ _ _ _ n i).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
